-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S2048x1024 .f32) (main_arg6 : FVec F S1024x2048 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S2048x1024 .f32) (main_arg6 : FVec F S1024x2048 .f32) (main_arg7 : FVec F S1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1x512x1024 : Shape := ⟨3, ![1, 512, 1024]⟩
abbrev S512x1024 : Shape := ⟨2, ![512, 1024]⟩
abbrev S1x1024 : Shape := ⟨2, ![1, 1024]⟩
abbrev S512x512 : Shape := ⟨2, ![512, 512]⟩
abbrev S1x256x1024 : Shape := ⟨3, ![1, 256, 1024]⟩
abbrev S256x1024 : Shape := ⟨2, ![256, 1024]⟩
abbrev S256x2048 : Shape := ⟨2, ![256, 2048]⟩

abbrev nBuf : Space → Nat
  | .hbm => 26
  | .vmem => 31
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x2048, .f32⟩
  | .hbm, ⟨18, _⟩ => ⟨S1024x2048, .bf16⟩
  | .hbm, ⟨19, _⟩ => ⟨S2048x1024, .f32⟩
  | .hbm, ⟨20, _⟩ => ⟨S2048x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .f32⟩
  | .hbm, ⟨25, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1024x1024, .bf16⟩
  | .local _ .vmem, ⟨21, _⟩ => ⟨S1x512x1024, .f32⟩
  | .local _ .vmem, ⟨22, _⟩ => ⟨S1x512x1024, .f32⟩
  | .local _ .vmem, ⟨23, _⟩ => ⟨S512x1024, .f32⟩
  | .local _ .vmem, ⟨24, _⟩ => ⟨S1x256x1024, .f32⟩
  | .local _ .vmem, ⟨25, _⟩ => ⟨S1x256x1024, .f32⟩
  | .local _ .vmem, ⟨26, _⟩ => ⟨S1024, .f32⟩
  | .local _ .vmem, ⟨27, _⟩ => ⟨S1024x2048, .bf16⟩
  | .local _ .vmem, ⟨28, _⟩ => ⟨S2048x1024, .bf16⟩
  | .local _ .vmem, ⟨29, _⟩ => ⟨S1x256x1024, .f32⟩
  | .local _ .vmem, ⟨30, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg4_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_18 : BitVec 32 := 0#32
  let v29 : BitVec 1 := Scalar.cmpi .ne v28 c0_i32_18
  v29

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S1024x1024_S1024x1024_1_0 : S1024x1024.Transposes [1, 0] S1024x1024
  bitsLt_bf16_f32 : FTy.bits .bf16 < FTy.bits .f32
  transposes_S2048x1024_S1024x2048_1_0 : S2048x1024.Transposes [1, 0] S1024x2048
  transposes_S1024x2048_S2048x1024_1_0 : S1024x2048.Transposes [1, 0] S2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S4x2048x1024.size a
  hwx0_7 : ∀ i : grid0.Coords, EltTy.bits .bf16 = 32 ∨ (Rect.block (s := S4x2048x1024) S1x512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .f32 = 32 ∨ (Rect.block (s := S4x2048x1024) S1x512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S4x2048x1024.size a
  hwx1_5 : ∀ i : grid1.Coords, EltTy.bits .f32 = 32 ∨ (Rect.block (s := S4x2048x1024) S1x512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S4x2048x1024.size a
  hwx2_0 : ∀ i : grid2.Coords, EltTy.bits .f32 = 32 ∨ (Rect.block (s := S4x2048x1024) S1x256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S1024.size a
  hwx2_1 : ∀ i : grid2.Coords, EltTy.bits .f32 = 32 ∨ (Rect.block (s := S1024) S1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S1024x2048.size a
  hwx2_2 : ∀ i : grid2.Coords, EltTy.bits .bf16 = 32 ∨ (Rect.block (s := S1024x2048) S1024x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x1024.size a
  hwx2_3 : ∀ i : grid2.Coords, EltTy.bits .bf16 = 32 ∨ (Rect.block (s := S2048x1024) S2048x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x1024.size a ≤ S4x2048x1024.size a
  hwx2_4 : ∀ i : grid2.Coords, EltTy.bits .f32 = 32 ∨ (Rect.block (s := S4x2048x1024) S1x256x1024.size (cc2_transform_4 i) (hinb2_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S1x512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S1x512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12_0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v13) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S2048x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S1x256x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S2048x1024 : Shape := ⟨2, ![2048, 1024]⟩
abbrev S1024x2048 : Shape := ⟨2, ![1024, 2048]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S2048x1024, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1x1x1024, .f32⟩
  | .hbm, ⟨10, _⟩ => ⟨S4x2048x1024, .f32⟩
  | .hbm, ⟨11, _⟩ => ⟨S4x2048x1024, .f32⟩
  | .hbm, ⟨12, _⟩ => ⟨S_, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1024, .f32⟩
  | .hbm, ⟨26, _⟩ => ⟨S4x2048x1024, .f32⟩
  | .hbm, ⟨27, _⟩ => ⟨S4x2048x2048, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | .hbm, ⟨40, _⟩ => ⟨S_, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S_, .f32⟩
  | .hbm, ⟨45, _⟩ => ⟨S4x2048x1024, .f32⟩
  | .hbm, ⟨46, _⟩ => ⟨S4x2048x1024, .f32⟩
  | .hbm, ⟨47, _⟩ => ⟨S_, .f32⟩
  | .hbm, ⟨48, _⟩ => ⟨S4x2048x1024, .f32⟩
  | .hbm, ⟨49, _⟩ => ⟨S4x2048x1024, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S_, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S4x2048x1024, .f32⟩
  | .hbm, ⟨62, _⟩ => ⟨S4x2048x1024, .f32⟩
  | .hbm, ⟨63, _⟩ => ⟨S4x2048x2048, .f32⟩
  | .hbm, ⟨64, _⟩ => ⟨S_, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S4x2048x2048, .f32⟩
  | .hbm, ⟨70, _⟩ => ⟨S4x2048x2048, .f32⟩
  | .hbm, ⟨71, _⟩ => ⟨S_, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S4x2048x1024, .f32⟩
  | .hbm, ⟨76, _⟩ => ⟨S_, .f32⟩
  | .hbm, ⟨77, _⟩ => ⟨S4x2048x1024, .f32⟩
  | .hbm, ⟨78, _⟩ => ⟨S4x2048x1024, .f32⟩
  | .hbm, ⟨79, _⟩ => ⟨S_, .f32⟩
  | .hbm, ⟨80, _⟩ => ⟨S4x2048x1024, .f32⟩
  | .hbm, ⟨81, _⟩ => ⟨S4x2048x1024, .f32⟩
  | .hbm, ⟨82, _⟩ => ⟨S_, .f32⟩
  | .hbm, ⟨83, _⟩ => ⟨S4x2048x1024, .f32⟩
  | .hbm, ⟨84, _⟩ => ⟨S4x2048x1024, .f32⟩
  | .hbm, ⟨85, _⟩ => ⟨S4x2048x1024, .f32⟩
  | .hbm, ⟨86, _⟩ => ⟨S_, .f32⟩
  | .hbm, ⟨87, _⟩ => ⟨S4x2048x1024, .f32⟩
  | .hbm, ⟨88, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_15 : Ref sig .tc := ⟨.hbm, 76, rfl⟩
abbrev main_v51 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_v54 : Ref sig .tc := ⟨.hbm, 81, rfl⟩
abbrev main_cst_17 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_18 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x1024 : S_.BroadcastsInDim S4x2048x1024 (![] : Fin 0 → Fin S4x2048x1024.rank)
  bcast_S_S4x2048x2048 : S_.BroadcastsInDim S4x2048x2048 (![] : Fin 0 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S2048x1024_S4x2048x2048_2_1_01_0_n_n_wf : DotDims.WF S4x2048x1024 S2048x1024 S4x2048x2048 [2] [1] [0, 1] [0] [] []
  dot_S4x2048x2048_S1024x2048_S4x2048x1024_2_1_01_0_n_n_wf : DotDims.WF S4x2048x2048 S1024x2048 S4x2048x1024 [2] [1] [0, 1] [0] [] []

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def dot_S4x2048x2048_S1024x2048_S4x2048x1024_2_1_01_0_n_n : DotDims S4x2048x2048 S1024x2048 S4x2048x1024 where
  lhsContracting := [2]
  rhsContracting := [1]
  lhsNonContracting := [0, 1]
  rhsNonContracting := [0]
  lhsBatch := []
  rhsBatch := []
  wf := dot_S4x2048x2048_S1024x2048_S4x2048x1024_2_1_01_0_n_n_wf

class Facts : Prop extends Facts₀ where

variable [Facts]
-- ==== Proof.K.R0.lean ====
/-
  Region 0 of the kernel program: the q, k, v projections on a 4 × 4 grid. At any contents `V` of the
  TensorCore's buffers on entry: each window's block at a grid point, what the body leaves in each of the three
  output windows' staging buffers as a function of the five input blocks, the body's triple, the pipeline's
  proof data and its body obligation.
-/
import proofs.«154601_j7679401525971_1_alg».proof.Proof.Gen.Kernel.Launch
import proofs.«154601_j7679401525971_1_alg».proof.Proof.Gen.Kernel.Skeleton
import proofs.«154601_j7679401525971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there,
    for any proof data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there,
    for any proof data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there,
    for any proof data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not it was fetched there,
    for any proof data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not it was fetched there,
    for any proof data whose array is the entry contents and whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev rX : Rect S1x512x1024 := Rect.unit (s := S1x512x1024) ![0, 0, 0] S1x512x1024.size inb_S1x512x1024_S1x512x1024_0_0_0
abbrev rL : Rect S1024 := Rect.unit (s := S1024) ![0] S1024.size inb_S1024_S1024_0
abbrev rW : Rect S1024x1024 := Rect.unit (s := S1024x1024) ![0, 0] S1024x1024.size inb_S1024x1024_S1024x1024_0_0

/-! ## What the body leaves in each output window's buffer -/

/-- Window 5 (q) after the body: its one whole store. -/
def out0_5 (x0 : Vec F S1x512x1024 .f32) (x1 : Vec F S1024 .f32) (x2 : Vec F S1024x1024 .bf16) : Vec F S1x512x1024 .bf16 :=
  View.canon [⟨rX, k0_pay3 (View.ld x0 rX) (View.ld x1 rL) (View.ld x2 rW)⟩]

/-- Window 6 (k) after the body. -/
def out0_6 (x0 : Vec F S1x512x1024 .f32) (x1 : Vec F S1024 .f32) (x3 : Vec F S1024x1024 .bf16) : Vec F S1x512x1024 .bf16 :=
  View.canon [⟨rX, k0_pay4 (View.ld x0 rX) (View.ld x1 rL) (View.ld x3 rW)⟩]

/-- Window 7 (v) after the body. -/
def out0_7 (x0 : Vec F S1x512x1024 .f32) (x1 : Vec F S1024 .f32) (x4 : Vec F S1024x1024 .bf16) : Vec F S1x512x1024 .bf16 :=
  View.canon [⟨rX, k0_pay1 (k0_pay5 (View.ld x0 rX) (View.ld x1 rL) (View.ld x4 rW))⟩]

/-- One whole store covers the buffer. -/
theorem cover0_out (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 1000000 in
/-- The kernel body on whole staging memrefs, the five inputs' at read contents `x0 … x4` and the three outputs' at
    anything, runs to the continuation holding the inputs' as they were and each output's at `out0_w` of the inputs'. -/
theorem sound_kernel0 (c : Dev nD) (E : Set ℕ) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2) ∗ owns (c : Thread nD τ) arg8 fullShare (out0_6 x0 x1 x3) ∗ owns (c : Thread nD τ) arg9 fullShare (out0_7 x0 x1 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of pipeline 0 on core `c`: the arrays as the region finds them; after the body at point `t` each
    input's buffer at its block and each output's at `out0_w` of the input blocks; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.R1S.lean ====
/-
  Region 1 of the kernel program: attention, accumulated over four key blocks in a scratch buffer the kernel
  keeps from one grid point to the next, on a 4 × 4 × 4 grid (batch, query block, key block). What the three
  cases of the body share, at any contents `V` of the TensorCore's buffers on entry: each window's block at a grid
  point; that an input's staging buffer holds its block whether or not the point fetched it; the body's two
  conditions on the key-block coordinate in closed form; where the output window is idle; the staging and scratch
  memrefs; and the region's invariant with the scratch's conjunct singled out.
-/
import proofs.«154601_j7679401525971_1_alg».proof.Proof.Gen.Kernel.Launch
import proofs.«154601_j7679401525971_1_alg».proof.Proof.Gen.Kernel.Skeleton
import proofs.«154601_j7679401525971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (the query block's index moves only when the key-block coordinate wraps), for any proof data
    whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (the query block's index moves only when the key-block coordinate wraps), for any proof data
    whose array is `V`'s and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (fetched once: its index never moves), for any proof data
    whose array is `V`'s and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the key-block coordinate -/

/-- The first `scf.if`: the key-block coordinate is 0 (the scratch is reset). -/
abbrev cond1_0 (i : grid1.Coords) : Prop := (Scalar.cmpi .ne (Scalar.extui (Scalar.cmpi .eq (BitVec.ofNat 32 (i 2).val) 0#32)) 0#32) = 1#1
/-- It holds at the points ≡ 0 (mod 4): the key-block coordinate is the fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the key-block coordinate is 3, the last (the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the key-block coordinate is 0 the body stores nothing into output 5, and the block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same where it is 1 or 2. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where it is 3 the body stores output 5 whole. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter:
    `View.read_writes_of_cover`). -/
abbrev VO1_5 : View sig .tc .vmem S1x512x1024 .f32 := (Memref.whole cc1_stg5_0 : Memref sig .tc .vmem S1x512x1024 .f32).view
/-- Each window's current staging memref at point `t`, spelled as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The scratch operand: the accumulator, a whole scoped buffer of the kernel's own. -/
abbrev scM1_0 : Memref sig .tc .vmem S512x1024 .f32 := Memref.whole cc1_scratch0
/-- The same as a view: what the accumulator holds is stated through it. -/
abbrev VS1_0 : View sig .tc .vmem S512x1024 .f32 := scM1_0.view

/-! ## The region's invariant, the accumulator's conjunct singled out -/

/-- A buffer of the core whole at some contents. -/
abbrev anyAt1 (c : Dev nD) (b : Ref sig .tc) : sProp 𝕄 :=
  iprop(∃ f : Buf (Elt F) ((c : Thread nD τ).loc b), ((c : Thread nD τ).loc b) ↦{fullShare} f)

/-- The scoped buffers that are no staging buffer of this region — the other two regions' staging buffers, each at
    some contents, and among them the accumulator, here as any assertion `S` — and the generator register at some state. -/
def PhiW1 (c : Dev nD) (S : sProp 𝕄) : sProp 𝕄 :=
  iprop(iprop(anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg5_1 ∗ anyAt1 (F := F) c cc0_stg6_0 ∗ anyAt1 (F := F) c cc0_stg6_1 ∗ anyAt1 (F := F) c cc0_stg7_0 ∗ anyAt1 (F := F) c cc0_stg7_1 ∗ S ∗ anyAt1 (F := F) c cc2_stg0_0 ∗ anyAt1 (F := F) c cc2_stg0_1 ∗ anyAt1 (F := F) c cc2_stg1_0 ∗ anyAt1 (F := F) c cc2_stg2_0 ∗ anyAt1 (F := F) c cc2_stg3_0 ∗ anyAt1 (F := F) c cc2_stg4_0 ∗ anyAt1 (F := F) c cc2_stg4_1) ∗ (∃ r, prngReg c r))

/-- The same without the accumulator. -/
def rest1 (c : Dev nD) : sProp 𝕄 :=
  iprop(anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg5_1 ∗ anyAt1 (F := F) c cc0_stg6_0 ∗ anyAt1 (F := F) c cc0_stg6_1 ∗ anyAt1 (F := F) c cc0_stg7_0 ∗ anyAt1 (F := F) c cc0_stg7_1 ∗ anyAt1 (F := F) c cc2_stg0_0 ∗ anyAt1 (F := F) c cc2_stg0_1 ∗ anyAt1 (F := F) c cc2_stg1_0 ∗ anyAt1 (F := F) c cc2_stg2_0 ∗ anyAt1 (F := F) c cc2_stg3_0 ∗ anyAt1 (F := F) c cc2_stg4_0 ∗ anyAt1 (F := F) c cc2_stg4_1 ∗ (∃ r, prngReg c r))

/-- The accumulator's conjunct taken out of the invariant, -/
theorem PhiW1_out (c : Dev nD) (S : sProp 𝕄) : PhiW1 (F := F) c S ⊢ iprop(S ∗ rest1 (F := F) c) := by
  unfold PhiW1 rest1
  iintro ⟨⟨H0, H1, H2, H3, H4, H5, H6, H7, H8, H9, H10, H11, HS, H12, H13, H14, H15, H16, H17, H18⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hg

/-- and put back. -/
theorem PhiW1_in (c : Dev nD) (S : sProp 𝕄) : iprop(S ∗ rest1 (F := F) c) ⊢ PhiW1 (F := F) c S := by
  unfold PhiW1 rest1
  iintro ⟨HS, H0, H1, H2, H3, H4, H5, H6, H7, H8, H9, H10, H11, H12, H13, H14, H15, H16, H17, H18, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [H12]; · iexact H12
  isplitl [H13]; · iexact H13
  isplitl [H14]; · iexact H14
  isplitl [H15]; · iexact H15
  isplitl [H16]; · iexact H16
  isplitl [H17]; · iexact H17
  iexact H18

/-- What the launch hands the region (`Pipeline.ΦA`): the accumulator owned at some contents. -/
theorem PhiA1_eq (c : Dev nD) :
    (Pipeline.ΦA spec1 c : sProp 𝕄) = PhiW1 (F := F) c iprop(∃ d, owns (c : Thread nD τ) scM1_0 fullShare d) := by
  unfold Pipeline.ΦA PhiW1; rw [scopedRest1_eq]; simp only [scM1_0, owns_whole]; try rfl

end Cert.Kernel.H

end
-- ==== Proof.K.R1A.lean ====
/-
  Region 1, the body's run in case A: the key-block coordinate is 0 — the accumulator is reset to zero, then this key block's contribution is added; the output window is left idle.
  The body's triple as a subtype whose first components — the pieces its stores leave in the output window's buffer
  and in the accumulator, last store first — are what the run finds.
-/
import proofs.«154601_j7679401525971_1_alg».proof.Proof.K.R1S

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case A: on whole staging memrefs — the five inputs' at their contents `x·`, the output's, which the case leaves idle, at contents `xi5` handed back untouched, the
    accumulator at anything (the case resets it) — the body runs to the continuation holding the inputs' as they were,
    the accumulator with its pieces `LS0` written. Each `scf.if` is decided by the case's hypotheses. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.H

end
-- ==== Proof.K.R1B.lean ====
/-
  Region 1, the body's run in case B: the key-block coordinate is 1 or 2 — this key block's contribution is added to what the point before left in the accumulator; the output window is left idle.
  The body's triple as a subtype whose first components — the pieces its stores leave in the output window's buffer
  and in the accumulator, last store first — are what the run finds.
-/
import proofs.«154601_j7679401525971_1_alg».proof.Proof.K.R1A

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case B: on whole staging memrefs — the five inputs' at their contents `x·`, the output's, which the case leaves idle, at contents `xi5` handed back untouched, the
    accumulator at what the point before left (`xs0`) — the body runs to the continuation holding the inputs' as they were,
    the accumulator with its pieces `LS0` written. Each `scf.if` is decided by the case's hypotheses. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.H

end
-- ==== Proof.K.R1C.lean ====
/-
  Region 1, the body's run in case C: the key-block coordinate is 3, the last — this key block's contribution is added to what the point before left in the accumulator, and the output block is computed from the accumulator and stored whole.
  The body's triple as a subtype whose first components — the pieces its stores leave in the output window's buffer
  and in the accumulator, last store first — are what the run finds.
-/
import proofs.«154601_j7679401525971_1_alg».proof.Proof.K.R1B

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case C: on whole staging memrefs — the five inputs' at their contents `x·`, the output's at anything, the
    accumulator at what the point before left (`xs0`) — the body runs to the continuation holding the inputs' as they were, the output's with its pieces `L5` written,
    the accumulator with its pieces `LS0` written. Each `scf.if` is decided by the case's hypotheses. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    Σ' (L5 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.H

end
-- ==== Proof.K.R1.lean ====
/-
  Region 1 of the kernel program (attention over four key blocks, accumulated in a scratch buffer kept between
  grid points): what each of the body's three cases leaves in the output window's buffer and in the accumulator; what
  they hold after each grid point, by recursion on the point (the accumulator reset where the key-block coordinate is
  0, then added to, the output block stored where it is 3); the region's invariant, which names the accumulator's
  contents between points; the pipeline's proof data and the body obligation, at any contents `V` of the
  TensorCore's buffers on entry.
-/
import proofs.«154601_j7679401525971_1_alg».proof.Proof.K.R1C

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

/-- Case A stores nothing into output 5 (the window is idle at its points and not written back there): no pieces —
    a placeholder that nothing consults. -/
def out1_A_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the accumulator are whole, so its pieces cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the accumulator: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no pieces —
    a placeholder that nothing consults. -/
def out1_B_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the accumulator are whole, so its pieces cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the accumulator: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into output 5 is whole, so its pieces cover the block. -/
theorem cover1_C_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x1024.size (by sl_kernel_rfl) y

/-- What case C leaves in output 5's staging buffer: its pieces read back. -/
def out1_C_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the accumulator are whole, so its pieces cover it. -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the accumulator: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output window's buffer and the accumulator hold after each point -/

/-- The accumulation: the output window's buffer and the accumulator after the body at position `n`. The case is
    chosen by the key-block coordinate `n % 4`: 0 resets the accumulator and adds the first key block's contribution;
    1 and 2 add to what position `n - 1` left; 3 adds and stores the output block. -/
def outsAt1 (c : Dev nD) : (n : ℕ) → n < cfg1.N → Vec F S1x512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left in the accumulator. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left in the accumulator. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (the accumulator at anything); afterwards
    the same with the accumulator at what the point before left in it. -/
def PhiS1 (c : Dev nD) : (n : ℕ) → n ≤ cfg1.N → sProp 𝕄
  | 0, _ => Pipeline.ΦA spec1 c
  | n + 1, hn => PhiW1 (F := F) c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiW1 (F := F) c (owns (c : Thread nD τ) scM1_0 fullShare ((outsAt1 V c n hn).2)) := rfl

theorem PhiS1_pos (c : Dev nD) (n : ℕ) (h : n ≤ cfg1.N) (hz : n ≠ 0) :
    PhiS1 V c n h = PhiW1 (F := F) c (owns (c : Thread nD τ) scM1_0 fullShare ((outsAt1 V c (n - 1) (by omega)).2)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks (`before1_w`); the key-block coordinate `t % 4` says
    which case the point is in, so that case's run applies. The invariant hands the body the accumulator — at anything
    at the first point, at what the point before left afterwards — and takes it back at this point's contents (the
    case's pieces cover it); the other regions' buffers and the generator register pass through; the core owes nothing
    throughout. Where the key-block coordinate is not 3 the output window's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's assertion back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine (PhiW1_out (F := F) c _).trans ?_
  refine Idealize.SL.BI.BIBase.Entails.trans ?_ (PhiW1_in (F := F) c _)
  iintro ⟨HS0, HR⟩
  isplitl [HS0]
  · iexists _; iexact HS0
  iexact HR

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.Kernel.H

end
-- ==== Proof.K.R2.lean ====
/-
  Region 2 of @main — the third pallas_call, the MLP stage, pipeline 2 on the grid (4, 8) — at the buffer
  contents `V` the TensorCore holds when the region is entered. Five windows: the input row block, the
  per-channel scale, the two weights (each held whole, fetched once), and the output row block. The body reads
  every window whole and writes the output window whole, once, with the stage's value of the four inputs.
  Here: each window's block at a point, what the body leaves in the output's buffer, the body's triple, the
  pipeline's proof data over the untouched-rest invariant, and the body obligation at every point.
-/
import proofs.«154601_j7679401525971_1_alg».proof.Proof.Gen.Kernel.Launch
import proofs.«154601_j7679401525971_1_alg».proof.Proof.Gen.Kernel.Skeleton
import proofs.«154601_j7679401525971_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window
    fetched once keeps its one block: its index never moves), for any proof data whose array is `V`'s and whose
    body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1x256x1024 := Rect.unit (s := S1x256x1024) ![0, 0, 0] S1x256x1024.size inb_S1x256x1024_S1x256x1024_0_0_0
abbrev r2_1 : Rect S1024 := Rect.unit (s := S1024) ![0] S1024.size inb_S1024_S1024_0
abbrev r2_2 : Rect S1024x2048 := Rect.unit (s := S1024x2048) ![0, 0] S1024x2048.size inb_S1024x2048_S1024x2048_0_0
abbrev r2_3 : Rect S2048x1024 := Rect.unit (s := S2048x1024) ![0, 0] S2048x1024.size inb_S2048x1024_S2048x1024_0_0

/-! ## What the body leaves in the output window's buffer -/

/-- The output window's staging buffer after the body, from the input windows' blocks: its one store, of the
    whole buffer, of the stage's value of the four inputs read whole. -/
def out2_4 (x0 : Vec F S1x256x1024 .f32) (x1 : Vec F S1024 .f32) (x2 : Vec F S1024x2048 .bf16) (x3 : Vec F S2048x1024 .bf16) :
    Vec F S1x256x1024 .f32 :=
  View.canon [⟨r2_0, k2_pay1 (View.ld x0 r2_0) (View.ld x1 r2_1) (View.ld x2 r2_2) (View.ld x3 r2_3)⟩]

/-- The one store is of the whole buffer, so it covers it. -/
theorem cover2_4 (p0 : Vec F S1x256x1024 .f32) (y : S1x256x1024.Idx) :
    ∃ pc ∈ ([⟨r2_0, p0⟩] : List (View.Piece (Elt F) S1x256x1024 .f32)), y ∈ pc.1.set :=
  View.cover_of_tiled [⟨r2_0, p0⟩] S1x256x1024.size (by rfl) y

/-! ## The body's triple -/

set_option maxHeartbeats 1000000 in
/-- The kernel body on whole staging memrefs, the inputs' at read contents and the output's at anything, runs to
    the continuation holding the inputs' as they were and the output's at `out2_4` of the inputs'. -/
theorem sound_kernel2 (c : Dev nD) (E : Set ℕ) (i : grid2.Coords)
    (arg2 : Memref sig .tc .vmem S1x256x1024 .f32) (harg2 : arg2.IsWhole) (arg3 : Memref sig .tc .vmem S1024 .f32) (harg3 : arg3.IsWhole)
    (arg4 : Memref sig .tc .vmem S1024x2048 .bf16) (harg4 : arg4.IsWhole) (arg5 : Memref sig .tc .vmem S2048x1024 .bf16) (harg5 : arg5.IsWhole)
    (arg6 : Memref sig .tc .vmem S1x256x1024 .f32) (harg6 : arg6.IsWhole)
    (x0 : Vec F S1x256x1024 .f32) (x1 : Vec F S1024 .f32) (x2 : Vec F S1024x2048 .bf16) (x3 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__mlp_kernel i arg2 harg2 arg3 harg3 arg4 harg4 arg5 harg5 arg6 harg6) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2_4 _)

/-! ## The pipeline's proof data -/

/-- The proof data of pipeline 2 on core `c`: the arrays as the region finds them; after the body at point `t`
    each input's buffer at its block and the output's at `out2_4` of the input blocks; the invariant "the scoped
    rest and the generator register, untouched"; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Run.lean ====
/-
  The launch: @main's run over the three regions' proof data, at any float family. The TensorCore's buffer
  contents at each segment boundary, a fold from the launch memory: after the host stretch (six weight transposes,
  each followed by its convert) `StableHlo.after`, after each region its windows' arrays at what the write-backs
  leave and every other buffer as entered. Each argument array read back through the fold to its launch contents.
  The host stretch and the three regions as segments over the thread state "every unscoped buffer at the
  boundary's contents, the generator register at some state, nothing owed"; region 1's invariant, which carries
  its scratch buffer from point to point, is entered from and left to the class invariant. Then the run: every
  weakly fair execution of @main terminates, and every final memory holds each unscoped buffer at the last
  boundary's contents — whence the arguments unchanged, and the result array at the fold's last value.
-/
import proofs.«154601_j7679401525971_1_alg».proof.Proof.K.R0
import proofs.«154601_j7679401525971_1_alg».proof.Proof.K.R1
import proofs.«154601_j7679401525971_1_alg».proof.Proof.K.R2
import proofs.«154601_j7679401525971_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch (the host stretch's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the host stretch: each transposed weight and its convert written, every other buffer as launched
    (region 0's entry). -/
def W1 (c : Dev nD) : Valuation τ sig (Elt F) := StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference the host stretch does not write holds its launch contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit (the q, k, v projections): its arrays at what the pipeline leaves (the inputs as entered, each output's
    write-backs folded), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the attention): its arrays at what the pipeline leaves (the inputs as entered, each output's
    write-backs folded), every other buffer as entered (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (the MLP): its arrays at what the pipeline leaves (the inputs as entered, each output's
    write-backs folded), every other buffer as entered (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: the host stretch writes none, and a region reads an argument through an input
    window, whose array no write-back touches, or bypasses it -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 1).trans (((dat2 (V3 m ρ) c).arrAt_in 1 rfl _).trans (A_eq2 (V3 m ρ) c 1))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that
    `Pipeline.pin pcfgs adm p` at a numeral reduces to the printed configuration. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each
    region's invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding
    along; its `post` is those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the q, k, v projections) over the thread state: entered from every unscoped buffer at `W1`, left at
    `W2`. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the attention) over the thread state: entered from every unscoped buffer at `W2`, left at `W3`. As
    region 0, but the invariant at a point says what the scratch buffer holds there: at the first point it follows
    from the class invariant (the scratch buffer at some contents: `hin1`), and at the last it gives the class
    invariant back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (the MLP) over the thread state: entered from every unscoped buffer at `W3`, left at `W4` — the last
    thread state, beside the core owing nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun w => A_eq2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments: its chain of items, then the segments' run against that chain by the
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and every final state holds every unscoped buffer at the fold's last contents `W4`: the
    launch over the segments, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float family: every weakly fair execution of @main terminates, nothing faulting, and every
    final state has the nine argument arrays as launched — each read off the run through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- THE RUN WITH ITS RESULT: as `frame`, and the result array ends at the fold's last value of it. -/
theorem run_val : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v14 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.Kernel.H

end
-- ==== Proof.KI.R0.lean ====
/-
  Region 0 of the kernel program: the q, k, v projections on a 4 × 4 grid. At any contents `V` of the
  TensorCore's buffers on entry: each window's block at a grid point, what the body leaves in each of the three
  output windows' staging buffers as a function of the five input blocks, the body's triple, the pipeline's
  proof data and its body obligation.
-/
import proofs.«154601_j7679401525971_1_alg».proof.Proof.Gen.KernelIdeal.Launch
import proofs.«154601_j7679401525971_1_alg».proof.Proof.Gen.KernelIdeal.Skeleton
import proofs.«154601_j7679401525971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not it was fetched there,
    for any proof data whose array is the entry contents and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not it was fetched there,
    for any proof data whose array is the entry contents and whose body leaves the block in place. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not it was fetched there,
    for any proof data whose array is the entry contents and whose body leaves the block in place. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether or not it was fetched there,
    for any proof data whose array is the entry contents and whose body leaves the block in place. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether or not it was fetched there,
    for any proof data whose array is the entry contents and whose body leaves the block in place. -/
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev rX : Rect S1x512x1024 := Rect.unit (s := S1x512x1024) ![0, 0, 0] S1x512x1024.size inb_S1x512x1024_S1x512x1024_0_0_0
abbrev rL : Rect S1024 := Rect.unit (s := S1024) ![0] S1024.size inb_S1024_S1024_0
abbrev rW : Rect S1024x1024 := Rect.unit (s := S1024x1024) ![0, 0] S1024x1024.size inb_S1024x1024_S1024x1024_0_0

/-! ## What the body leaves in each output window's buffer -/

/-- Window 5 (q) after the body: its one whole store. -/
def out0_5 (x0 : Vec F S1x512x1024 .f32) (x1 : Vec F S1024 .f32) (x2 : Vec F S1024x1024 .bf16) : Vec F S1x512x1024 .bf16 :=
  View.canon [⟨rX, k0_pay3 (View.ld x0 rX) (View.ld x1 rL) (View.ld x2 rW)⟩]

/-- Window 6 (k) after the body. -/
def out0_6 (x0 : Vec F S1x512x1024 .f32) (x1 : Vec F S1024 .f32) (x3 : Vec F S1024x1024 .bf16) : Vec F S1x512x1024 .bf16 :=
  View.canon [⟨rX, k0_pay4 (View.ld x0 rX) (View.ld x1 rL) (View.ld x3 rW)⟩]

/-- Window 7 (v) after the body. -/
def out0_7 (x0 : Vec F S1x512x1024 .f32) (x1 : Vec F S1024 .f32) (x4 : Vec F S1024x1024 .bf16) : Vec F S1x512x1024 .bf16 :=
  View.canon [⟨rX, k0_pay1 (k0_pay5 (View.ld x0 rX) (View.ld x1 rL) (View.ld x4 rW))⟩]

/-- One whole store covers the buffer. -/
theorem cover0_out (p0 : Vec F S1x512x1024 .bf16) (y : S1x512x1024.Idx) :
    ∃ pc ∈ ([⟨rX, p0⟩] : List (View.Piece (Elt F) S1x512x1024 .bf16)), y ∈ pc.1.set :=
  View.cover_of_tiled [⟨rX, p0⟩] S1x512x1024.size (by rfl) y

/-! ## The body's triple -/

set_option maxHeartbeats 1000000 in
/-- The kernel body on whole staging memrefs, the five inputs' at read contents `x0 … x4` and the three outputs' at
    anything, runs to the continuation holding the inputs' as they were and each output's at `out0_w` of the inputs'. -/
theorem sound_kernel0 (c : Dev nD) (E : Set ℕ) (i : grid0.Coords) (arg2 : Memref sig .tc .vmem S1x512x1024 .f32) (harg2 : arg2.IsWhole) (arg3 : Memref sig .tc .vmem S1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x512x1024 .bf16) (harg7 : arg7.IsWhole) (arg8 : Memref sig .tc .vmem S1x512x1024 .bf16) (harg8 : arg8.IsWhole) (arg9 : Memref sig .tc .vmem S1x512x1024 .bf16) (harg9 : arg9.IsWhole)
    (x0 : Vec F S1x512x1024 .f32) (x1 : Vec F S1024 .f32) (x2 : Vec F S1024x1024 .bf16) (x3 : Vec F S1024x1024 .bf16) (x4 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2) ∗ owns (c : Thread nD τ) arg8 fullShare (out0_6 x0 x1 x3) ∗ owns (c : Thread nD τ) arg9 fullShare (out0_7 x0 x1 x4)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_out _)
  isplitl [H6]
  · iexists _; isplitr
    swap; · iexact H6
    ipureintro
    exact View.read_writes_eq_canon _ _ _ (cover0_out _)
  iexists _; isplitr
  swap; · iexact H7
  ipureintro
  exact View.read_writes_eq_canon _ _ _ (cover0_out _)

/-! ## The pipeline's proof data -/

/-- The proof data of pipeline 0 on core `c`: the arrays as the region finds them; after the body at point `t` each
    input's buffer at its block and each output's at `out0_w` of the input blocks; the scoped rest and the generator
    register untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t)
    | ⟨6, _⟩ => out0_6 (iblk0 V c 0 t) (iblk0 V c 1 t) (iblk0 V c 3 t)
    | ⟨7, _⟩ => out0_7 (iblk0 V c 0 t) (iblk0 V c 1 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]
theorem after0_7 (c : Dev nD) (t : Fin cfg0.N) : (dat0 V c).after 7 t = out0_7 (iblk0 V c 0 t) (iblk0 V c 1 t) (iblk0 V c 4 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.R1S.lean ====
/-
  Region 1 of the kernel program: attention, accumulated over four key blocks in a scratch buffer the kernel
  keeps from one grid point to the next, on a 4 × 4 × 4 grid (batch, query block, key block). What the three
  cases of the body share, at any contents `V` of the TensorCore's buffers on entry: each window's block at a grid
  point; that an input's staging buffer holds its block whether or not the point fetched it; the body's two
  conditions on the key-block coordinate in closed form; where the output window is idle; the staging and scratch
  memrefs; and the region's invariant with the scratch's conjunct singled out.
-/
import proofs.«154601_j7679401525971_1_alg».proof.Proof.Gen.KernelIdeal.Launch
import proofs.«154601_j7679401525971_1_alg».proof.Proof.Gen.KernelIdeal.Skeleton
import proofs.«154601_j7679401525971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (the query block's index moves only when the key-block coordinate wraps), for any proof data
    whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (the query block's index moves only when the key-block coordinate wraps), for any proof data
    whose array is `V`'s and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (fetched once: its index never moves), for any proof data
    whose array is `V`'s and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions on the key-block coordinate -/

/-- The first `scf.if`: the key-block coordinate is 0 (the scratch is reset). -/
abbrev cond1_0 (i : grid1.Coords) : Prop := (Scalar.cmpi .ne (Scalar.extui (Scalar.cmpi .eq (BitVec.ofNat 32 (i 2).val) 0#32)) 0#32) = 1#1
/-- It holds at the points ≡ 0 (mod 4): the key-block coordinate is the fastest. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second `scf.if`: the key-block coordinate is 3, the last (the output block is stored). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the key-block coordinate is 0 the body stores nothing into output 5, and the block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same where it is 1 or 2. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- Where it is 3 the body stores output 5 whole. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter:
    `View.read_writes_of_cover`). -/
abbrev VO1_5 : View sig .tc .vmem S1x512x1024 .f32 := (Memref.whole cc1_stg5_0 : Memref sig .tc .vmem S1x512x1024 .f32).view
/-- Each window's current staging memref at point `t`, spelled as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The scratch operand: the accumulator, a whole scoped buffer of the kernel's own. -/
abbrev scM1_0 : Memref sig .tc .vmem S512x1024 .f32 := Memref.whole cc1_scratch0
/-- The same as a view: what the accumulator holds is stated through it. -/
abbrev VS1_0 : View sig .tc .vmem S512x1024 .f32 := scM1_0.view

/-! ## The region's invariant, the accumulator's conjunct singled out -/

/-- A buffer of the core whole at some contents. -/
abbrev anyAt1 (c : Dev nD) (b : Ref sig .tc) : sProp 𝕄 :=
  iprop(∃ f : Buf (Elt F) ((c : Thread nD τ).loc b), ((c : Thread nD τ).loc b) ↦{fullShare} f)

/-- The scoped buffers that are no staging buffer of this region — the other two regions' staging buffers, each at
    some contents, and among them the accumulator, here as any assertion `S` — and the generator register at some state. -/
def PhiW1 (c : Dev nD) (S : sProp 𝕄) : sProp 𝕄 :=
  iprop(iprop(anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg5_1 ∗ anyAt1 (F := F) c cc0_stg6_0 ∗ anyAt1 (F := F) c cc0_stg6_1 ∗ anyAt1 (F := F) c cc0_stg7_0 ∗ anyAt1 (F := F) c cc0_stg7_1 ∗ S ∗ anyAt1 (F := F) c cc2_stg0_0 ∗ anyAt1 (F := F) c cc2_stg0_1 ∗ anyAt1 (F := F) c cc2_stg1_0 ∗ anyAt1 (F := F) c cc2_stg2_0 ∗ anyAt1 (F := F) c cc2_stg3_0 ∗ anyAt1 (F := F) c cc2_stg4_0 ∗ anyAt1 (F := F) c cc2_stg4_1) ∗ (∃ r, prngReg c r))

/-- The same without the accumulator. -/
def rest1 (c : Dev nD) : sProp 𝕄 :=
  iprop(anyAt1 (F := F) c cc0_stg0_0 ∗ anyAt1 (F := F) c cc0_stg0_1 ∗ anyAt1 (F := F) c cc0_stg1_0 ∗ anyAt1 (F := F) c cc0_stg2_0 ∗ anyAt1 (F := F) c cc0_stg3_0 ∗ anyAt1 (F := F) c cc0_stg4_0 ∗ anyAt1 (F := F) c cc0_stg5_0 ∗ anyAt1 (F := F) c cc0_stg5_1 ∗ anyAt1 (F := F) c cc0_stg6_0 ∗ anyAt1 (F := F) c cc0_stg6_1 ∗ anyAt1 (F := F) c cc0_stg7_0 ∗ anyAt1 (F := F) c cc0_stg7_1 ∗ anyAt1 (F := F) c cc2_stg0_0 ∗ anyAt1 (F := F) c cc2_stg0_1 ∗ anyAt1 (F := F) c cc2_stg1_0 ∗ anyAt1 (F := F) c cc2_stg2_0 ∗ anyAt1 (F := F) c cc2_stg3_0 ∗ anyAt1 (F := F) c cc2_stg4_0 ∗ anyAt1 (F := F) c cc2_stg4_1 ∗ (∃ r, prngReg c r))

/-- The accumulator's conjunct taken out of the invariant, -/
theorem PhiW1_out (c : Dev nD) (S : sProp 𝕄) : PhiW1 (F := F) c S ⊢ iprop(S ∗ rest1 (F := F) c) := by
  unfold PhiW1 rest1
  iintro ⟨⟨H0, H1, H2, H3, H4, H5, H6, H7, H8, H9, H10, H11, HS, H12, H13, H14, H15, H16, H17, H18⟩, Hg⟩
  isplitl [HS]; · iexact HS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact Hg

/-- and put back. -/
theorem PhiW1_in (c : Dev nD) (S : sProp 𝕄) : iprop(S ∗ rest1 (F := F) c) ⊢ PhiW1 (F := F) c S := by
  unfold PhiW1 rest1
  iintro ⟨HS, H0, H1, H2, H3, H4, H5, H6, H7, H8, H9, H10, H11, H12, H13, H14, H15, H16, H17, H18, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [H12]; · iexact H12
  isplitl [H13]; · iexact H13
  isplitl [H14]; · iexact H14
  isplitl [H15]; · iexact H15
  isplitl [H16]; · iexact H16
  isplitl [H17]; · iexact H17
  iexact H18

/-- What the launch hands the region (`Pipeline.ΦA`): the accumulator owned at some contents. -/
theorem PhiA1_eq (c : Dev nD) :
    (Pipeline.ΦA spec1 c : sProp 𝕄) = PhiW1 (F := F) c iprop(∃ d, owns (c : Thread nD τ) scM1_0 fullShare d) := by
  unfold Pipeline.ΦA PhiW1; rw [scopedRest1_eq]; simp only [scM1_0, owns_whole]; try rfl

end Cert.KernelIdeal.H

end
-- ==== Proof.KI.R1A.lean ====
/-
  Region 1, the body's run in case A: the key-block coordinate is 0 — the accumulator is reset to zero, then this key block's contribution is added; the output window is left idle.
  The body's triple as a subtype whose first components — the pieces its stores leave in the output window's buffer
  and in the accumulator, last store first — are what the run finds.
-/
import proofs.«154601_j7679401525971_1_alg».proof.Proof.KI.R1S

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case A: on whole staging memrefs — the five inputs' at their contents `x·`, the output's, which the case leaves idle, at contents `xi5` handed back untouched, the
    accumulator at anything (the case resets it) — the body runs to the continuation holding the inputs' as they were,
    the accumulator with its pieces `LS0` written. Each `scf.if` is decided by the case's hypotheses. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.H

end
-- ==== Proof.KI.R1B.lean ====
/-
  Region 1, the body's run in case B: the key-block coordinate is 1 or 2 — this key block's contribution is added to what the point before left in the accumulator; the output window is left idle.
  The body's triple as a subtype whose first components — the pieces its stores leave in the output window's buffer
  and in the accumulator, last store first — are what the run finds.
-/
import proofs.«154601_j7679401525971_1_alg».proof.Proof.KI.R1A

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case B: on whole staging memrefs — the five inputs' at their contents `x·`, the output's, which the case leaves idle, at contents `xi5` handed back untouched, the
    accumulator at what the point before left (`xs0`) — the body runs to the continuation holding the inputs' as they were,
    the accumulator with its pieces `LS0` written. Each `scf.if` is decided by the case's hypotheses. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    Σ' (L5 : List (View.Piece (Elt F) S1x512x1024 .f32)), { LS0 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, fun xi5 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.H

end
-- ==== Proof.KI.R1C.lean ====
/-
  Region 1, the body's run in case C: the key-block coordinate is 3, the last — this key block's contribution is added to what the point before left in the accumulator, and the output block is computed from the accumulator and stored whole.
  The body's triple as a subtype whose first components — the pieces its stores leave in the output window's buffer
  and in the accumulator, last store first — are what the run finds.
-/
import proofs.«154601_j7679401525971_1_alg».proof.Proof.KI.R1B

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

set_option maxHeartbeats 1000000 in
/-- Case C: on whole staging memrefs — the five inputs' at their contents `x·`, the output's at anything, the
    accumulator at what the point before left (`xs0`) — the body runs to the continuation holding the inputs' as they were, the output's with its pieces `L5` written,
    the accumulator with its pieces `LS0` written. Each `scf.if` is decided by the case's hypotheses. -/
noncomputable def kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    Σ' (L5 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.H

end
-- ==== Proof.KI.R1.lean ====
/-
  Region 1 of the kernel program (attention over four key blocks, accumulated in a scratch buffer kept between
  grid points): what each of the body's three cases leaves in the output window's buffer and in the accumulator; what
  they hold after each grid point, by recursion on the point (the accumulator reset where the key-block coordinate is
  0, then added to, the output block stored where it is 3); the region's invariant, which names the accumulator's
  contents between points; the pipeline's proof data and the body obligation, at any contents `V` of the
  TensorCore's buffers on entry.
-/
import proofs.«154601_j7679401525971_1_alg».proof.Proof.KI.R1C

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## What each case leaves -/

/-- Case A stores nothing into output 5 (the window is idle at its points and not written back there): no pieces —
    a placeholder that nothing consults. -/
def out1_A_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) : Vec F S1x512x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's stores into the accumulator are whole, so its pieces cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (y : S512x1024.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y

/-- What case A leaves in the accumulator: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) : Vec F S512x1024 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B stores nothing into output 5 (the window is idle at its points and not written back there): no pieces —
    a placeholder that nothing consults. -/
def out1_B_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S1x512x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's stores into the accumulator are whole, so its pieces cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S512x1024.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y

/-- What case B leaves in the accumulator: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's one store into output 5 is whole, so its pieces cover the block. -/
theorem cover1_C_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S1x512x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x512x1024.size (by sl_kernel_rfl) y

/-- What case C leaves in output 5's staging buffer: its pieces read back. -/
def out1_C_5 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S1x512x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's stores into the accumulator are whole, so its pieces cover it. -/
theorem scover1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) (y : S512x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y

/-- What case C leaves in the accumulator: its pieces read back. -/
def sout1_C_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i)
    (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output window's buffer and the accumulator hold after each point -/

/-- The accumulation: the output window's buffer and the accumulator after the body at position `n`. The case is
    chosen by the key-block coordinate `n % 4`: 0 resets the accumulator and adds the first key block's contribution;
    1 and 2 add to what position `n - 1` left; 3 adds and stores the output block. -/
def outsAt1 (c : Dev nD) : (n : ℕ) → n < cfg1.N → Vec F S1x512x1024 .f32 × Vec F S512x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left in the accumulator. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left in the accumulator. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: before the first point what the launch hands over (the accumulator at anything); afterwards
    the same with the accumulator at what the point before left in it. -/
def PhiS1 (c : Dev nD) : (n : ℕ) → n ≤ cfg1.N → sProp 𝕄
  | 0, _ => Pipeline.ΦA spec1 c
  | n + 1, hn => PhiW1 (F := F) c (owns (c : Thread nD τ) scM1_0 fullShare ((outsAt1 V c n hn).2))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiW1 (F := F) c (owns (c : Thread nD τ) scM1_0 fullShare ((outsAt1 V c n hn).2)) := rfl

theorem PhiS1_pos (c : Dev nD) (n : ℕ) (h : n ≤ cfg1.N) (hz : n ≠ 0) :
    PhiS1 V c n h = PhiW1 (F := F) c (owns (c : Thread nD τ) scM1_0 fullShare ((outsAt1 V c (n - 1) (by omega)).2)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks (`before1_w`); the key-block coordinate `t % 4` says
    which case the point is in, so that case's run applies. The invariant hands the body the accumulator — at anything
    at the first point, at what the point before left afterwards — and takes it back at this point's contents (the
    case's pieces cover it); the other regions' buffers and the generator register pass through; the core owes nothing
    throughout. Where the key-block coordinate is not 3 the output window's buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨HΦ, Ho, ⟨%d0, H0⟩, ⟨%d1, H1⟩, ⟨%d2, H2⟩, ⟨%d3, H3⟩, ⟨%d4, H4⟩, ⟨%d5, H5⟩⟩
        ihave HΦ' := (PhiW1_out (F := F) c _) $$ HΦ
        icases HΦ' with ⟨HS0, HR⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR]
        · iapply (PhiW1_in (F := F) c _)
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's assertion back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  refine (PhiW1_out (F := F) c _).trans ?_
  refine Idealize.SL.BI.BIBase.Entails.trans ?_ (PhiW1_in (F := F) c _)
  iintro ⟨HS0, HR⟩
  isplitl [HS0]
  · iexists _; iexact HS0
  iexact HR

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KernelIdeal.H

end
-- ==== Proof.KI.R2.lean ====
/-
  Region 2 of @main — the third pallas_call, the MLP stage, pipeline 2 on the grid (4, 8) — at the buffer
  contents `V` the TensorCore holds when the region is entered. Five windows: the input row block, the
  per-channel scale, the two weights (each held whole, fetched once), and the output row block. The body reads
  every window whole and writes the output window whole, once, with the stage's value of the four inputs.
  Here: each window's block at a point, what the body leaves in the output's buffer, the body's triple, the
  pipeline's proof data over the untouched-rest invariant, and the body obligation at every point.
-/
import proofs.«154601_j7679401525971_1_alg».proof.Proof.Gen.KernelIdeal.Launch
import proofs.«154601_j7679401525971_1_alg».proof.Proof.Gen.KernelIdeal.Skeleton
import proofs.«154601_j7679401525971_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (a window
    fetched once keeps its one block: its index never moves), for any proof data whose array is `V`'s and whose
    body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_0 : Rect S1x256x1024 := Rect.unit (s := S1x256x1024) ![0, 0, 0] S1x256x1024.size inb_S1x256x1024_S1x256x1024_0_0_0
abbrev r2_1 : Rect S1024 := Rect.unit (s := S1024) ![0] S1024.size inb_S1024_S1024_0
abbrev r2_2 : Rect S1024x2048 := Rect.unit (s := S1024x2048) ![0, 0] S1024x2048.size inb_S1024x2048_S1024x2048_0_0
abbrev r2_3 : Rect S2048x1024 := Rect.unit (s := S2048x1024) ![0, 0] S2048x1024.size inb_S2048x1024_S2048x1024_0_0

/-! ## What the body leaves in the output window's buffer -/

/-- The output window's staging buffer after the body, from the input windows' blocks: its one store, of the
    whole buffer, of the stage's value of the four inputs read whole. -/
def out2_4 (x0 : Vec F S1x256x1024 .f32) (x1 : Vec F S1024 .f32) (x2 : Vec F S1024x2048 .bf16) (x3 : Vec F S2048x1024 .bf16) :
    Vec F S1x256x1024 .f32 :=
  View.canon [⟨r2_0, k2_pay1 (View.ld x0 r2_0) (View.ld x1 r2_1) (View.ld x2 r2_2) (View.ld x3 r2_3)⟩]

/-- The one store is of the whole buffer, so it covers it. -/
theorem cover2_4 (p0 : Vec F S1x256x1024 .f32) (y : S1x256x1024.Idx) :
    ∃ pc ∈ ([⟨r2_0, p0⟩] : List (View.Piece (Elt F) S1x256x1024 .f32)), y ∈ pc.1.set :=
  View.cover_of_tiled [⟨r2_0, p0⟩] S1x256x1024.size (by rfl) y

/-! ## The body's triple -/

set_option maxHeartbeats 1000000 in
/-- The kernel body on whole staging memrefs, the inputs' at read contents and the output's at anything, runs to
    the continuation holding the inputs' as they were and the output's at `out2_4` of the inputs'. -/
theorem sound_kernel2 (c : Dev nD) (E : Set ℕ) (i : grid2.Coords)
    (arg2 : Memref sig .tc .vmem S1x256x1024 .f32) (harg2 : arg2.IsWhole) (arg3 : Memref sig .tc .vmem S1024 .f32) (harg3 : arg3.IsWhole)
    (arg4 : Memref sig .tc .vmem S1024x2048 .bf16) (harg4 : arg4.IsWhole) (arg5 : Memref sig .tc .vmem S2048x1024 .bf16) (harg5 : arg5.IsWhole)
    (arg6 : Memref sig .tc .vmem S1x256x1024 .f32) (harg6 : arg6.IsWhole)
    (x0 : Vec F S1x256x1024 .f32) (x1 : Vec F S1024 .f32) (x2 : Vec F S1024x2048 .bf16) (x3 : Vec F S2048x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2__mlp_kernel i arg2 harg2 arg3 harg3 arg4 harg4 arg5 harg5 arg6 harg6) K := by
  simp only [cc2__mlp_kernel_eq_skeleton]; unfold cc2__mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover2_4 _)

/-! ## The pipeline's proof data -/

/-- The proof data of pipeline 2 on core `c`: the arrays as the region finds them; after the body at point `t`
    each input's buffer at its block and the output's at `out2_4` of the input blocks; the invariant "the scoped
    rest and the generator register, untouched"; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Run.lean ====
/-
  The launch: @main's run over the three regions' proof data, at any float family. The TensorCore's buffer
  contents at each segment boundary, a fold from the launch memory: after the host stretch (six weight transposes,
  each followed by its convert) `StableHlo.after`, after each region its windows' arrays at what the write-backs
  leave and every other buffer as entered. Each argument array read back through the fold to its launch contents.
  The host stretch and the three regions as segments over the thread state "every unscoped buffer at the
  boundary's contents, the generator register at some state, nothing owed"; region 1's invariant, which carries
  its scratch buffer from point to point, is entered from and left to the class invariant. Then the run: every
  weakly fair execution of @main terminates, and every final memory holds each unscoped buffer at the last
  boundary's contents — whence the arguments unchanged, and the result array at the fold's last value.
-/
import proofs.«154601_j7679401525971_1_alg».proof.Proof.KI.R0
import proofs.«154601_j7679401525971_1_alg».proof.Proof.KI.R1
import proofs.«154601_j7679401525971_1_alg».proof.Proof.KI.R2
import proofs.«154601_j7679401525971_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each segment boundary: a fold through @main -/

/-- Core `c`'s buffers at launch (the host stretch's entry). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After the host stretch: each transposed weight and its convert written, every other buffer as launched
    (region 0's entry). -/
def W1 (c : Dev nD) : Valuation τ sig (Elt F) := StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference the host stretch does not write holds its launch contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- At region 0's exit (the q, k, v projections): its arrays at what the pipeline leaves (the inputs as entered, each output's
    write-backs folded), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (the attention): its arrays at what the pipeline leaves (the inputs as entered, each output's
    write-backs folded), every other buffer as entered (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (the MLP): its arrays at what the pipeline leaves (the inputs as entered, each output's
    write-backs folded), every other buffer as entered (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`). -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: the host stretch writes none, and a region reads an argument through an input
    window, whose array no write-back touches, or bypasses it -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := (W3_arr m ρ c 3).trans (((dat1 (V2 m ρ) c).arrAt_in 3 rfl _).trans (A_eq1 (V2 m ρ) c 3))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := (W2_arr m ρ c 1).trans (((dat0 (V1 m ρ) c).arrAt_in 1 rfl _).trans (A_eq0 (V1 m ρ) c 1))
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 1).trans (((dat2 (V3 m ρ) c).arrAt_in 1 rfl _).trans (A_eq2 (V3 m ρ) c 1))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that
    `Pipeline.pin pcfgs adm p` at a numeral reduces to the printed configuration. -/
def pdats : (p : Fin 3) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each
    region's invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding
    along; its `post` is those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (the q, k, v projections) over the thread state: entered from every unscoped buffer at `W1`, left at
    `W2`. Its arrays split out of the unscoped buffers and put back at the exit contents; the generator register
    into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (the attention) over the thread state: entered from every unscoped buffer at `W2`, left at `W3`. As
    region 0, but the invariant at a point says what the scratch buffer holds there: at the first point it follows
    from the class invariant (the scratch buffer at some contents: `hin1`), and at the last it gives the class
    invariant back (`hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (the MLP) over the thread state: entered from every unscoped buffer at `W3`, left at `W4` — the last
    thread state, beside the core owing nothing. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun w => A_eq2 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host stretch from the launch contents, then a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main IS the run of the segments: its chain of items, then the segments' run against that chain by the
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters, every weakly fair execution of @main on the TensorCores terminates,
    nothing faulting, and every final state holds every unscoped buffer at the fold's last contents `W4`: the
    launch over the segments, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME, at any float family: every weakly fair execution of @main terminates, nothing faulting, and every
    final state has the nine argument arrays as launched — each read off the run through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

/-- THE RUN WITH ITS RESULT: as `frame`, and the result array ends at the fold's last value of it. -/
theorem run_val : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨h c _ (mem_uc main_v14 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩) (run_all m ρ)

end Cert.KernelIdeal.H

end
-- ==== Proof.Host.lean ====
/-
  What the host operations before the first kernel leave in the buffers the kernels read: each weight transposed
  (and its format changed, which is the identity on the extended reals), so entry (a, b) of the staged weight is
  entry (b, a) of the argument; the arguments themselves are not written.
-/
import proofs.«154601_j7679401525971_1_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.Val

open Idealize.ShloMosaic Idealize.ShloMosaic.TcCoe Idealize.ShloMosaic.ValueIdx Idealize.SL.Sem
open Cert.KernelIdeal Cert.KernelIdeal.Gen

variable (W : Valuation τ sig (Elt Ideal))

theorem host_v1 (a : Fin 1024) (b : Fin 1024) :
    (StableHlo.after (hostOps0 (F := Ideal)) W (Proc.devRef .tc main_v1) : S1024x1024.Idx → EReal) (ix2 a b)
      = (W (Proc.devRef .tc main_arg1) : S1024x1024.Idx → EReal) (ix2 b a) := by
  have e : (StableHlo.after (hostOps0 (F := Ideal)) W (Proc.devRef .tc main_v1) : S1024x1024.Idx → EReal)
      = transpose S1024x1024 [1, 0] (W (Proc.devRef .tc main_arg1)) transposes_S1024x1024_S1024x1024_1_0 := by
    after_results; rfl
  rw [e]
  exact transpose_ix2_apply _ _ a b

theorem host_v3 (a : Fin 1024) (b : Fin 1024) :
    (StableHlo.after (hostOps0 (F := Ideal)) W (Proc.devRef .tc main_v3) : S1024x1024.Idx → EReal) (ix2 a b)
      = (W (Proc.devRef .tc main_arg2) : S1024x1024.Idx → EReal) (ix2 b a) := by
  have e : (StableHlo.after (hostOps0 (F := Ideal)) W (Proc.devRef .tc main_v3) : S1024x1024.Idx → EReal)
      = transpose S1024x1024 [1, 0] (W (Proc.devRef .tc main_arg2)) transposes_S1024x1024_S1024x1024_1_0 := by
    after_results; rfl
  rw [e]
  exact transpose_ix2_apply _ _ a b

theorem host_v5 (a : Fin 1024) (b : Fin 1024) :
    (StableHlo.after (hostOps0 (F := Ideal)) W (Proc.devRef .tc main_v5) : S1024x1024.Idx → EReal) (ix2 a b)
      = (W (Proc.devRef .tc main_arg3) : S1024x1024.Idx → EReal) (ix2 b a) := by
  have e : (StableHlo.after (hostOps0 (F := Ideal)) W (Proc.devRef .tc main_v5) : S1024x1024.Idx → EReal)
      = transpose S1024x1024 [1, 0] (W (Proc.devRef .tc main_arg3)) transposes_S1024x1024_S1024x1024_1_0 := by
    after_results; rfl
  rw [e]
  exact transpose_ix2_apply _ _ a b

theorem host_v7 (a : Fin 1024) (b : Fin 1024) :
    (StableHlo.after (hostOps0 (F := Ideal)) W (Proc.devRef .tc main_v7) : S1024x1024.Idx → EReal) (ix2 a b)
      = (W (Proc.devRef .tc main_arg4) : S1024x1024.Idx → EReal) (ix2 b a) := by
  have e : (StableHlo.after (hostOps0 (F := Ideal)) W (Proc.devRef .tc main_v7) : S1024x1024.Idx → EReal)
      = transpose S1024x1024 [1, 0] (W (Proc.devRef .tc main_arg4)) transposes_S1024x1024_S1024x1024_1_0 := by
    after_results; rfl
  rw [e]
  exact transpose_ix2_apply _ _ a b

theorem host_v9 (a : Fin 1024) (b : Fin 2048) :
    (StableHlo.after (hostOps0 (F := Ideal)) W (Proc.devRef .tc main_v9) : S1024x2048.Idx → EReal) (ix2 a b)
      = (W (Proc.devRef .tc main_arg5) : S2048x1024.Idx → EReal) (ix2 b a) := by
  have e : (StableHlo.after (hostOps0 (F := Ideal)) W (Proc.devRef .tc main_v9) : S1024x2048.Idx → EReal)
      = transpose S1024x2048 [1, 0] (W (Proc.devRef .tc main_arg5)) transposes_S2048x1024_S1024x2048_1_0 := by
    after_results; rfl
  rw [e]
  exact transpose_ix2_apply _ _ a b

theorem host_v11 (a : Fin 2048) (b : Fin 1024) :
    (StableHlo.after (hostOps0 (F := Ideal)) W (Proc.devRef .tc main_v11) : S2048x1024.Idx → EReal) (ix2 a b)
      = (W (Proc.devRef .tc main_arg6) : S1024x2048.Idx → EReal) (ix2 b a) := by
  have e : (StableHlo.after (hostOps0 (F := Ideal)) W (Proc.devRef .tc main_v11) : S2048x1024.Idx → EReal)
      = transpose S2048x1024 [1, 0] (W (Proc.devRef .tc main_arg6)) transposes_S1024x2048_S2048x1024_1_0 := by
    after_results; rfl
  rw [e]
  exact transpose_ix2_apply _ _ a b

theorem host_arg0 : StableHlo.after (hostOps0 (F := Ideal)) W (Proc.devRef .tc main_arg0) = W (Proc.devRef .tc main_arg0) := by
  after_results

theorem host_arg7 : StableHlo.after (hostOps0 (F := Ideal)) W (Proc.devRef .tc main_arg7) = W (Proc.devRef .tc main_arg7) := by
  after_results

theorem host_arg8 : StableHlo.after (hostOps0 (F := Ideal)) W (Proc.devRef .tc main_arg8) = W (Proc.devRef .tc main_arg8) := by
  after_results

end Cert.Val

end
-- ==== Proof.Spec.lean ====
/-
  The mathematics both programs compute, as functions of the argument arrays read at an index, on the
  extended reals. One transformer block with polynomial activations:
    h   = x · ln1 · 0.1                      (a per-channel scale)
    q,k = (h Wqᵀ)·0.01, (h Wkᵀ)·0.01 ; v = (h Wvᵀ)·0.1
    s   = p((q kᵀ)·0.01),  p(z) = z·z·0.1 + z·0.1
    a   = (s v)·0.01 ;  x2 = (x·0.5 + ((a Woᵀ)·0.1)·0.5)·0.1
    u   = p((x2·ln2·0.1) W1ᵀ · 0.05) ;  x3 = (x2·0.5 + ((u W2ᵀ)·0.05)·0.5)·0.1
  Every weight enters as a function "input channel → output channel → value", so that a program that holds
  the weight transposed and one that holds it as given instantiate the same definitions.
  The one law that is not a re-spelling: the attention sum over the 2048 keys, taken in four blocks of 512 that
  are each scaled by 0.01 and then added to a running total that starts at zero, is the whole sum scaled once —
  a non-negative real factor distributes over any sum of extended reals.
-/
import Idealize.ShloMosaic.PureOps.Ideal
import Idealize.ShloMosaic.PureOps.Ideal.Laws
import Mathlib.Data.EReal.Operations
import Idealize.ShloMosaic.Lib.ValueIdx
import Mathlib.Algebra.BigOperators.Fin

noncomputable section

namespace Cert.Spec

open Idealize.ShloMosaic Idealize.ShloMosaic.ValueIdx

/-- An array as a function of its coordinates (rank 1, 2, 3), and a rank-2 array read transposed. -/
abbrev rd1 {n0 : Nat} (f : (⟨1, ![n0]⟩ : Shape).Idx → EReal) : Fin n0 → EReal := fun a => f (ix1 a)
abbrev rd2 {n0 n1 : Nat} (f : (⟨2, ![n0, n1]⟩ : Shape).Idx → EReal) : Fin n0 → Fin n1 → EReal := fun a b => f (ix2 a b)
abbrev rd2T {n0 n1 : Nat} (f : (⟨2, ![n0, n1]⟩ : Shape).Idx → EReal) : Fin n1 → Fin n0 → EReal := fun a b => f (ix2 b a)
abbrev rd3 {n0 n1 n2 : Nat} (f : (⟨3, ![n0, n1, n2]⟩ : Shape).Idx → EReal) : Fin n0 → Fin n1 → Fin n2 → EReal :=
  fun a b c => f (ix3 a b c)

/-- The f32 literals of both programs, as the extended reals their patterns denote. -/
abbrev c01 : EReal := Ideal.ofBits .f32 0x3DCCCCCD#32
abbrev c001 : EReal := Ideal.ofBits .f32 0x3C23D70A#32
abbrev c005 : EReal := Ideal.ofBits .f32 0x3D4CCCCD#32
abbrev c05 : EReal := Ideal.ofBits .f32 0x3F000000#32

/-- The polynomial activation. -/
def poly (z : EReal) : EReal := z * z * c01 + z * c01

/-- The scaled input of a projection: `x · ln · 0.1`. -/
def hN (X : Fin 4 → Fin 2048 → Fin 1024 → EReal) (L : Fin 1024 → EReal) (b : Fin 4) (t : Fin 2048) (c : Fin 1024) : EReal :=
  X b t c * L c * c01

/-- A projection of the scaled input by a weight `w : in → out`, scaled by `s`. -/
def proj (X : Fin 4 → Fin 2048 → Fin 1024 → EReal) (L : Fin 1024 → EReal) (w : Fin 1024 → Fin 1024 → EReal) (s : EReal)
    (b : Fin 4) (t : Fin 2048) (d : Fin 1024) : EReal :=
  (∑ c : Fin 1024, hN X L b t c * w c d) * s

/-- The activated attention scores. -/
def score (Q K : Fin 4 → Fin 2048 → Fin 1024 → EReal) (b : Fin 4) (t u : Fin 2048) : EReal :=
  poly ((∑ d : Fin 1024, Q b t d * K b u d) * c001)

/-- The attention output: all 2048 keys in one sum, scaled once. -/
def attn (S : Fin 4 → Fin 2048 → Fin 2048 → EReal) (Vv : Fin 4 → Fin 2048 → Fin 1024 → EReal)
    (b : Fin 4) (t : Fin 2048) (d : Fin 1024) : EReal :=
  (∑ u : Fin 2048, S b t u * Vv b u d) * c001

/-- Key `j` of key block `kb`. -/
def keyAt (kb : Fin 4) (j : Fin 512) : Fin 2048 := ⟨kb.val * 512 + j.val, by omega⟩

/-- One key block's share of the attention output, scaled. -/
def attnPart (S : Fin 4 → Fin 2048 → Fin 2048 → EReal) (Vv : Fin 4 → Fin 2048 → Fin 1024 → EReal)
    (b : Fin 4) (t : Fin 2048) (d : Fin 1024) (kb : Fin 4) : EReal :=
  (∑ j : Fin 512, S b t (keyAt kb j) * Vv b (keyAt kb j) d) * c001

/-- The attention output as the blocked program accumulates it: from zero, one scaled block at a time. -/
def attnAcc (S : Fin 4 → Fin 2048 → Fin 2048 → EReal) (Vv : Fin 4 → Fin 2048 → Fin 1024 → EReal)
    (b : Fin 4) (t : Fin 2048) (d : Fin 1024) : EReal :=
  (((0 + attnPart S Vv b t d 0) + attnPart S Vv b t d 1) + attnPart S Vv b t d 2) + attnPart S Vv b t d 3

/-- The first residual blend. `wo : in → out`. -/
def blend1 (X A : Fin 4 → Fin 2048 → Fin 1024 → EReal) (wo : Fin 1024 → Fin 1024 → EReal)
    (b : Fin 4) (t : Fin 2048) (c : Fin 1024) : EReal :=
  (X b t c * c05 + ((∑ d : Fin 1024, A b t d * wo d c) * c01) * c05) * c01

/-- The hidden layer of the MLP. `w1 : in (1024) → out (2048)`. -/
def hidden (X2 : Fin 4 → Fin 2048 → Fin 1024 → EReal) (L2 : Fin 1024 → EReal) (w1 : Fin 1024 → Fin 2048 → EReal)
    (b : Fin 4) (t : Fin 2048) (f : Fin 2048) : EReal :=
  poly ((∑ c : Fin 1024, hN X2 L2 b t c * w1 c f) * c005)

/-- The second residual blend. `w2 : in (2048) → out (1024)`. -/
def blend2 (X2 : Fin 4 → Fin 2048 → Fin 1024 → EReal) (Uu : Fin 4 → Fin 2048 → Fin 2048 → EReal) (w2 : Fin 2048 → Fin 1024 → EReal)
    (b : Fin 4) (t : Fin 2048) (c : Fin 1024) : EReal :=
  (X2 b t c * c05 + ((∑ f : Fin 2048, Uu b t f * w2 f c) * c005) * c05) * c01

/-- The MLP stage as one function of its input block row: what the third kernel and the reference's tail compute. -/
def mlp (X2 : Fin 4 → Fin 2048 → Fin 1024 → EReal) (L2 : Fin 1024 → EReal) (w1 : Fin 1024 → Fin 2048 → EReal)
    (w2 : Fin 2048 → Fin 1024 → EReal) : Fin 4 → Fin 2048 → Fin 1024 → EReal :=
  blend2 X2 (hidden X2 L2 w1) w2

/-- The attention stage as one function: `x2` from `x`, `q`, `k`, `v` and `wo`, the keys summed at once. -/
def attnStage (X Q K Vv : Fin 4 → Fin 2048 → Fin 1024 → EReal) (wo : Fin 1024 → Fin 1024 → EReal) :
    Fin 4 → Fin 2048 → Fin 1024 → EReal :=
  blend1 X (attn (score Q K) Vv) wo

/-- The same with the keys accumulated block by block. -/
def attnStageAcc (X Q K Vv : Fin 4 → Fin 2048 → Fin 1024 → EReal) (wo : Fin 1024 → Fin 1024 → EReal) :
    Fin 4 → Fin 2048 → Fin 1024 → EReal :=
  blend1 X (attnAcc (score Q K) Vv) wo

/-- The whole block, the keys summed at once (the reference's arrangement). -/
def block (X : Fin 4 → Fin 2048 → Fin 1024 → EReal) (L1 L2 : Fin 1024 → EReal) (wq wk wv wo : Fin 1024 → Fin 1024 → EReal)
    (w1 : Fin 1024 → Fin 2048 → EReal) (w2 : Fin 2048 → Fin 1024 → EReal) : Fin 4 → Fin 2048 → Fin 1024 → EReal :=
  mlp (attnStage X (proj X L1 wq c001) (proj X L1 wk c001) (proj X L1 wv c01) wo) L2 w1 w2

/-- The whole block, the keys accumulated in four blocks (the kernels' arrangement). -/
def blockAcc (X : Fin 4 → Fin 2048 → Fin 1024 → EReal) (L1 L2 : Fin 1024 → EReal) (wq wk wv wo : Fin 1024 → Fin 1024 → EReal)
    (w1 : Fin 1024 → Fin 2048 → EReal) (w2 : Fin 2048 → Fin 1024 → EReal) : Fin 4 → Fin 2048 → Fin 1024 → EReal :=
  mlp (attnStageAcc X (proj X L1 wq c001) (proj X L1 wk c001) (proj X L1 wv c01) wo) L2 w1 w2

end Cert.Spec

end
-- ==== Proof.Val0.lean ====
/-
  What region 0 leaves in the q, k, v arrays, index by index, for any contents of the TensorCore's buffers on entry:
  each is the projection of the scaled input by its weight, scaled — the specification's `proj`.
-/
import proofs.«154601_j7679401525971_1_alg».proof.Proof.KI.R0
import proofs.«154601_j7679401525971_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.H

/-! ## The body's payloads at an index -/

/-- The scaled input block: `x · ln · 0.1` at row `r`, channel `k`. -/
theorem qkv_pay2_apply (v0 : Vec Ideal S1x512x1024 .f32) (v2 : Vec Ideal S1024 .f32) (r : Fin 512) (k : Fin 1024) :
    k0_pay2 (F := Ideal) v0 v2 (ix2 r k) = v0 (ix3 (0 : Fin 1) r k) * v2 (ix1 k) * Spec.c01 := by
  unfold k0_pay2
  show (shapeCast S512x1024 v0 shapeCasts_S1x512x1024_S512x1024 (ix2 r k))
      * (broadcastTo S512x1024 (shapeCast S1x1024 v2 shapeCasts_S1024_S1x1024) broadcasts_S1x1024_S512x1024 (ix2 r k))
      * Spec.c01 = _
  rw [shapeCast_1ab_ab_apply, broadcastTo_1b_ab_apply, shapeCast_a_1a_apply]

/-! ## The matrix unit's product at an index -/

theorem qkv_mm_lhs_0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem qkv_mm_lhs_1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem qkv_mm_rhs_0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem qkv_mm_rhs_1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A [512,1024] × [1024,1024] product into the zero accumulator, at row `r` and column `d`: the sum over the
    contracted channel. -/
theorem qkv_mm_apply (A : FVec Ideal S512x1024 .bf16) (B : FVec Ideal S1024x1024 .bf16) (r : Fin 512) (d : Fin 1024) :
    matmul dot_S512x1024_S1024x1024_S512x1024_1_0_0_1_n_n none A B (constant (F := Ideal) S512x1024 .f32 0x00000000#32) (ix2 r d)
      = ∑ k : Fin 1024, A (ix2 r k) * B (ix2 k d) := by
  show FloatOps.matmul dot_S512x1024_S1024x1024_S512x1024_1_0_0_1_n_n none A B (constant (F := Ideal) S512x1024 .f32 0x00000000#32) (ix2 r d) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r d) ((ValueIdx.contrEquiv1 dot_S512x1024_S1024x1024_S512x1024_1_0_0_1_n_n 1024 rfl rfl).symm k) = ix2 r k := funext fun a => Fin.ext (by
    match a with
    | ⟨0, _⟩ => exact qkv_mm_lhs_0 _ _
    | ⟨1, _⟩ => exact (qkv_mm_lhs_1 _ _).trans hk)
  have er : dot_S512x1024_S1024x1024_S512x1024_1_0_0_1_n_n.rhsIdx (ix2 r d) ((ValueIdx.contrEquiv1 dot_S512x1024_S1024x1024_S512x1024_1_0_0_1_n_n 1024 rfl rfl).symm k) = ix2 k d := funext fun a => Fin.ext (by
    match a with
    | ⟨0, _⟩ => exact (qkv_mm_rhs_0 _ _).trans hk
    | ⟨1, _⟩ => exact qkv_mm_rhs_1 _ _)
  rw [el, er]

/-- The q (and k) payload: the scaled input times the weight block, times 0.01. -/
theorem qkv_pay3_apply (v0 : Vec Ideal S1x512x1024 .f32) (v2 : Vec Ideal S1024 .f32) (v9 : Vec Ideal S1024x1024 .bf16)
    (u : Fin 1) (r : Fin 512) (d : Fin 1024) :
    k0_pay3 (F := Ideal) v0 v2 v9 (ix3 u r d)
      = (∑ k : Fin 1024, (v0 (ix3 (0 : Fin 1) r k) * v2 (ix1 k) * Spec.c01) * v9 (ix2 k d)) * Spec.c001 := by
  unfold k0_pay3
  rw [shapeCast_ab_1ab_apply]
  show matmul dot_S512x1024_S1024x1024_S512x1024_1_0_0_1_n_n none (k0_pay2 v0 v2) (shapeCast S1024x1024 v9 shapeCasts_S1024x1024_S1024x1024) (constant (F := Ideal) S512x1024 .f32 0x00000000#32) (ix2 r d) * Spec.c001 = _
  rw [qkv_mm_apply, shapeCast_self]
  exact congrArg (· * Spec.c001) (Finset.sum_congr rfl fun k _ => by rw [qkv_pay2_apply])

theorem qkv_pay4_eq (v0 : Vec Ideal S1x512x1024 .f32) (v2 : Vec Ideal S1024 .f32) (v14 : Vec Ideal S1024x1024 .bf16) :
    k0_pay4 (F := Ideal) v0 v2 v14 = k0_pay3 (F := Ideal) v0 v2 v14 := rfl

/-- The v payload: the same with the factor 0.1. -/
theorem qkv_pay15_apply (v0 : Vec Ideal S1x512x1024 .f32) (v2 : Vec Ideal S1024 .f32) (v19 : Vec Ideal S1024x1024 .bf16)
    (u : Fin 1) (r : Fin 512) (d : Fin 1024) :
    k0_pay1 (F := Ideal) (k0_pay5 (F := Ideal) v0 v2 v19) (ix3 u r d)
      = (∑ k : Fin 1024, (v0 (ix3 (0 : Fin 1) r k) * v2 (ix1 k) * Spec.c01) * v19 (ix2 k d)) * Spec.c01 := by
  unfold k0_pay1 k0_pay5
  rw [shapeCast_ab_1ab_apply]
  show matmul dot_S512x1024_S1024x1024_S512x1024_1_0_0_1_n_n none (k0_pay2 v0 v2) (shapeCast S1024x1024 v19 shapeCasts_S1024x1024_S1024x1024) (constant (F := Ideal) S512x1024 .f32 0x00000000#32) (ix2 r d) * Spec.c01 = _
  rw [qkv_mm_apply, shapeCast_self]
  exact congrArg (· * Spec.c01) (Finset.sum_congr rfl fun k _ => by rw [qkv_pay2_apply])

theorem qkv_hz3 : (![0, 0, 0] : Fin 3 → Nat) = fun _ => 0 := funext fun a => by fin_cases a <;> rfl
theorem qkv_hz2 : (![0, 0] : Fin 2 → Nat) = fun _ => 0 := funext fun a => by fin_cases a <;> rfl
theorem qkv_hz1 : (![0] : Fin 1 → Nat) = fun _ => 0 := funext fun a => by fin_cases a <;> rfl

/-! ## The grid's index maps, decided once -/

/-- Point `t` of the 4 × 4 grid is (batch `t / 4`, row block `t % 4`): the x, q, k, v windows sit there; the scale
    vector and the three weights are one block each. -/
theorem qkv_idx_facts : ∀ t : Fin cfg0.N,
    (win0_0.index t (0 : Fin 3) = t.val / 4 ∧ win0_0.index t (1 : Fin 3) = t.val % 4 ∧ win0_0.index t (2 : Fin 3) = 0)
    ∧ win0_1.index t (0 : Fin 1) = 0
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val / 4 ∧ win0_5.index t (1 : Fin 3) = t.val % 4 ∧ win0_5.index t (2 : Fin 3) = 0)
    ∧ (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0) :=
  (by decide +kernel : ∀ t : Fin grid0.N, _)

variable (V : (c : Dev nD) → (b : Ref sig .tc) → Buf (Elt Ideal) ((c : Thread nD τ).loc b))

/-! ## Each input block, read off its array -/

/-- The x block at point `t`: rows `(t % 4) · 512 …` of batch `t / 4`. -/
theorem qkv_xblk_apply (c : Dev nD) (t : Fin cfg0.N) (x : S1x512x1024.Idx) (g : S4x2048x1024.Idx)
    (h0 : (g 0).val = t.val / 4) (h1 : (g 1).val = t.val % 4 * 512 + (x 1).val) (h2 : (g 2).val = (x 2).val) :
    (iblk0 (F := Ideal) V c 0 t : Vec Ideal S1x512x1024 .f32) x = (V c main_arg0 : S4x2048x1024.Idx → EReal) g := by
  obtain ⟨⟨e0, e1, e2⟩, -⟩ := qkv_idx_facts t
  have hx0 : (x 0).val < 1 := (x 0).isLt
  unfold iblk0
  rw [View.read_apply]
  show V c main_arg0 _ = V c main_arg0 _
  congr 1
  funext a
  apply Fin.ext
  match a with
  | ⟨0, _⟩ => show win0_0.index t (0 : Fin 3) * 1 + 1 * (x 0).val = (g 0).val; rw [e0, h0]; omega
  | ⟨1, _⟩ => show win0_0.index t (1 : Fin 3) * 512 + 1 * (x 1).val = (g 1).val; rw [e1, h1]; omega
  | ⟨2, _⟩ => show win0_0.index t (2 : Fin 3) * 1024 + 1 * (x 2).val = (g 2).val; rw [e2, h2]; omega

/-- The scale vector's block is the whole vector. -/
theorem qkv_lblk_apply (c : Dev nD) (t : Fin cfg0.N) (x : S1024.Idx) :
    (iblk0 (F := Ideal) V c 1 t : Vec Ideal S1024 .f32) x = (V c main_arg7 : S1024.Idx → EReal) x := by
  obtain ⟨-, e0, -⟩ := qkv_idx_facts t
  unfold iblk0
  rw [View.read_apply]
  show V c main_arg7 _ = V c main_arg7 _
  congr 1
  funext a
  apply Fin.ext
  match a with
  | ⟨0, _⟩ => show win0_1.index t (0 : Fin 1) * 1024 + 1 * (x 0).val = (x 0).val; rw [e0]; omega

/-- Each weight's block is the whole weight. -/
theorem qkv_wblk2_apply (c : Dev nD) (t : Fin cfg0.N) (x : S1024x1024.Idx) :
    (iblk0 (F := Ideal) V c 2 t : Vec Ideal S1024x1024 .bf16) x = (V c main_v1 : S1024x1024.Idx → EReal) x := by
  obtain ⟨-, -, ⟨e0, e1⟩, -⟩ := qkv_idx_facts t
  unfold iblk0
  rw [View.read_apply]
  show V c main_v1 _ = V c main_v1 _
  congr 1
  funext a
  apply Fin.ext
  match a with
  | ⟨0, _⟩ => show win0_2.index t (0 : Fin 2) * 1024 + 1 * (x 0).val = (x 0).val; rw [e0]; omega
  | ⟨1, _⟩ => show win0_2.index t (1 : Fin 2) * 1024 + 1 * (x 1).val = (x 1).val; rw [e1]; omega

theorem qkv_wblk3_apply (c : Dev nD) (t : Fin cfg0.N) (x : S1024x1024.Idx) :
    (iblk0 (F := Ideal) V c 3 t : Vec Ideal S1024x1024 .bf16) x = (V c main_v3 : S1024x1024.Idx → EReal) x := by
  obtain ⟨-, -, -, ⟨e0, e1⟩, -⟩ := qkv_idx_facts t
  unfold iblk0
  rw [View.read_apply]
  show V c main_v3 _ = V c main_v3 _
  congr 1
  funext a
  apply Fin.ext
  match a with
  | ⟨0, _⟩ => show win0_3.index t (0 : Fin 2) * 1024 + 1 * (x 0).val = (x 0).val; rw [e0]; omega
  | ⟨1, _⟩ => show win0_3.index t (1 : Fin 2) * 1024 + 1 * (x 1).val = (x 1).val; rw [e1]; omega

theorem qkv_wblk4_apply (c : Dev nD) (t : Fin cfg0.N) (x : S1024x1024.Idx) :
    (iblk0 (F := Ideal) V c 4 t : Vec Ideal S1024x1024 .bf16) x = (V c main_v5 : S1024x1024.Idx → EReal) x := by
  obtain ⟨-, -, -, -, ⟨e0, e1⟩, -⟩ := qkv_idx_facts t
  unfold iblk0
  rw [View.read_apply]
  show V c main_v5 _ = V c main_v5 _
  congr 1
  funext a
  apply Fin.ext
  match a with
  | ⟨0, _⟩ => show win0_4.index t (0 : Fin 2) * 1024 + 1 * (x 0).val = (x 0).val; rw [e0]; omega
  | ⟨1, _⟩ => show win0_4.index t (1 : Fin 2) * 1024 + 1 * (x 1).val = (x 1).val; rw [e1]; omega

/-! ## Window 5 -/

/-- What the window's array ends holding. -/
abbrev qkv_Gq (c : Dev nD) : S4x2048x1024.Idx → EReal := fun i =>
  Spec.proj (Spec.rd3 (V c main_arg0)) (Spec.rd1 (V c main_arg7)) (Spec.rd2 (V c main_v1)) Spec.c001 (i 0) (i 1) (i 2)

/-- The body's payload at point `t`, at an index of the block, is the projection at the array's index there. -/
theorem qkv_Gq_block (c : Dev nD) (t : Fin cfg0.N) (j : S1x512x1024.Idx) (i : S4x2048x1024.Idx)
    (h0 : (i 0).val = t.val / 4) (h1 : (i 1).val = t.val % 4 * 512 + (j 1).val) (h2 : (i 2).val = (j 2).val) :
    (k0_pay3 (F := Ideal) (iblk0 (F := Ideal) V c 0 t) (iblk0 (F := Ideal) V c 1 t) (iblk0 (F := Ideal) V c 2 t) : Vec Ideal S1x512x1024 .bf16) j = qkv_Gq V c i := by
  obtain ⟨u, r, d, rfl⟩ : ∃ (u : Fin 1) (r : Fin 512) (d : Fin 1024), j = ix3 u r d := ⟨j 0, j 1, j 2, eq_ix3 j⟩
  refine (qkv_pay3_apply _ _ _ u r d).trans ?_
  show _ = Spec.proj (Spec.rd3 (V c main_arg0)) (Spec.rd1 (V c main_arg7)) (Spec.rd2 (V c main_v1)) Spec.c001 (i 0) (i 1) (i 2)
  unfold Spec.proj Spec.hN
  refine congrArg (· * Spec.c001) (Finset.sum_congr rfl fun k _ => ?_)
  rw [qkv_xblk_apply V c t (ix3 (0 : Fin 1) r k) (ix3 (i 0) (i 1) k) h0 h1 rfl, qkv_lblk_apply V c t (ix1 k), qkv_wblk2_apply V c t (ix2 k d)]
  have hd : d = i 2 := Fin.ext h2.symm
  rw [hd]

/-- What point `t` writes back is block `t` of that array. -/
theorem qkv_flushed5_eq (c : Dev nD) (t : Fin cfg0.N) :
    (dat0 (F := Ideal) V c).flushed 5 t = ((cfg0.win 5).blk t).view.read (Elt Ideal) (qkv_Gq V c) := by
  show (cfg0.win 5).cut (grid0.coords t) ((dat0 (F := Ideal) V c).after 5 t) = _
  rw [after0_5]
  unfold out0_5
  rw [View.canon_unit_zero qkv_hz3]
  simp only [View.ld_unit_zero (S := S1x512x1024) qkv_hz3, View.ld_unit_zero (S := S1024) qkv_hz1, View.ld_unit_zero (S := S1024x1024) qkv_hz2]
  obtain ⟨-, -, -, -, -, ⟨e0, e1, e2⟩, -⟩ := qkv_idx_facts t
  funext j
  refine qkv_Gq_block V c t j _ ?_ ?_ ?_
  · show win0_5.index t (0 : Fin 3) * 1 + 1 * (j 0).val = _
    have hj : (j 0).val < 1 := (j 0).isLt
    rw [e0]; omega
  · show win0_5.index t (1 : Fin 3) * 512 + 1 * (j 1).val = _
    rw [e1]; omega
  · show win0_5.index t (2 : Fin 3) * 1024 + 1 * (j 2).val = _
    rw [e2]; omega

/-- An index of the array is in point `t`'s block iff each coordinate is in the block's range on its axis. -/
theorem qkv_mem_blk5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v12_0).slice (win0_5.rect t)).set ↔ _
  rw [View.set_slice_whole, Rect.mem_set_unit]
  exact Iff.rfl

/-- Row `(b, r)` lies in the block of point `4 b + r / 512`. -/
theorem qkv_cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  have hN : cfg0.N = 16 := N_0
  refine ⟨⟨(i 0).val * 4 + (i 1).val / 512, by rw [hN]; omega⟩, flush0_5 _, ?_⟩
  rw [qkv_mem_blk5]
  obtain ⟨-, -, -, -, -, ⟨e0, e1, e2⟩, -⟩ := qkv_idx_facts ⟨(i 0).val * 4 + (i 1).val / 512, by rw [hN]; omega⟩
  intro a
  match a with
  | ⟨0, _⟩ => show win0_5.index _ (0 : Fin 3) * 1 ≤ (i 0).val ∧ (i 0).val < win0_5.index _ (0 : Fin 3) * 1 + 1; rw [e0]; dsimp only; omega
  | ⟨1, _⟩ => show win0_5.index _ (1 : Fin 3) * 512 ≤ (i 1).val ∧ (i 1).val < win0_5.index _ (1 : Fin 3) * 512 + 512; rw [e1]; dsimp only; omega
  | ⟨2, _⟩ => show win0_5.index _ (2 : Fin 3) * 1024 ≤ (i 2).val ∧ (i 2).val < win0_5.index _ (2 : Fin 3) * 1024 + 1024; rw [e2]; omega

/-- The array after the region. -/
theorem qkv_arr5 (c : Dev nD) : (dat0 (F := Ideal) V c).arrAt 5 cfg0.N = qkv_Gq V c :=
  (dat0 (F := Ideal) V c).arrAt_eq_of_cover 5 (qkv_Gq V c) (fun t _ => qkv_flushed5_eq V c t) qkv_cover5

/-! ## Window 6 -/

/-- What the window's array ends holding. -/
abbrev qkv_Gk (c : Dev nD) : S4x2048x1024.Idx → EReal := fun i =>
  Spec.proj (Spec.rd3 (V c main_arg0)) (Spec.rd1 (V c main_arg7)) (Spec.rd2 (V c main_v3)) Spec.c001 (i 0) (i 1) (i 2)

/-- The body's payload at point `t`, at an index of the block, is the projection at the array's index there. -/
theorem qkv_Gk_block (c : Dev nD) (t : Fin cfg0.N) (j : S1x512x1024.Idx) (i : S4x2048x1024.Idx)
    (h0 : (i 0).val = t.val / 4) (h1 : (i 1).val = t.val % 4 * 512 + (j 1).val) (h2 : (i 2).val = (j 2).val) :
    (k0_pay4 (F := Ideal) (iblk0 (F := Ideal) V c 0 t) (iblk0 (F := Ideal) V c 1 t) (iblk0 (F := Ideal) V c 3 t) : Vec Ideal S1x512x1024 .bf16) j = qkv_Gk V c i := by
  obtain ⟨u, r, d, rfl⟩ : ∃ (u : Fin 1) (r : Fin 512) (d : Fin 1024), j = ix3 u r d := ⟨j 0, j 1, j 2, eq_ix3 j⟩
  rw [qkv_pay4_eq]
  refine (qkv_pay3_apply _ _ _ u r d).trans ?_
  show _ = Spec.proj (Spec.rd3 (V c main_arg0)) (Spec.rd1 (V c main_arg7)) (Spec.rd2 (V c main_v3)) Spec.c001 (i 0) (i 1) (i 2)
  unfold Spec.proj Spec.hN
  refine congrArg (· * Spec.c001) (Finset.sum_congr rfl fun k _ => ?_)
  rw [qkv_xblk_apply V c t (ix3 (0 : Fin 1) r k) (ix3 (i 0) (i 1) k) h0 h1 rfl, qkv_lblk_apply V c t (ix1 k), qkv_wblk3_apply V c t (ix2 k d)]
  have hd : d = i 2 := Fin.ext h2.symm
  rw [hd]

/-- What point `t` writes back is block `t` of that array. -/
theorem qkv_flushed6_eq (c : Dev nD) (t : Fin cfg0.N) :
    (dat0 (F := Ideal) V c).flushed 6 t = ((cfg0.win 6).blk t).view.read (Elt Ideal) (qkv_Gk V c) := by
  show (cfg0.win 6).cut (grid0.coords t) ((dat0 (F := Ideal) V c).after 6 t) = _
  rw [after0_6]
  unfold out0_6
  rw [View.canon_unit_zero qkv_hz3]
  simp only [View.ld_unit_zero (S := S1x512x1024) qkv_hz3, View.ld_unit_zero (S := S1024) qkv_hz1, View.ld_unit_zero (S := S1024x1024) qkv_hz2]
  obtain ⟨-, -, -, -, -, -, ⟨e0, e1, e2⟩, -⟩ := qkv_idx_facts t
  funext j
  refine qkv_Gk_block V c t j _ ?_ ?_ ?_
  · show win0_6.index t (0 : Fin 3) * 1 + 1 * (j 0).val = _
    have hj : (j 0).val < 1 := (j 0).isLt
    rw [e0]; omega
  · show win0_6.index t (1 : Fin 3) * 512 + 1 * (j 1).val = _
    rw [e1]; omega
  · show win0_6.index t (2 : Fin 3) * 1024 + 1 * (j 2).val = _
    rw [e2]; omega

/-- An index of the array is in point `t`'s block iff each coordinate is in the block's range on its axis. -/
theorem qkv_mem_blk6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v12_1).slice (win0_6.rect t)).set ↔ _
  rw [View.set_slice_whole, Rect.mem_set_unit]
  exact Iff.rfl

/-- Row `(b, r)` lies in the block of point `4 b + r / 512`. -/
theorem qkv_cover6 (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN : cfg0.N = 16 := N_0
  refine ⟨⟨(i 0).val * 4 + (i 1).val / 512, by rw [hN]; omega⟩, flush0_6 _, ?_⟩
  rw [qkv_mem_blk6]
  obtain ⟨-, -, -, -, -, -, ⟨e0, e1, e2⟩, -⟩ := qkv_idx_facts ⟨(i 0).val * 4 + (i 1).val / 512, by rw [hN]; omega⟩
  intro a
  match a with
  | ⟨0, _⟩ => show win0_6.index _ (0 : Fin 3) * 1 ≤ (i 0).val ∧ (i 0).val < win0_6.index _ (0 : Fin 3) * 1 + 1; rw [e0]; dsimp only; omega
  | ⟨1, _⟩ => show win0_6.index _ (1 : Fin 3) * 512 ≤ (i 1).val ∧ (i 1).val < win0_6.index _ (1 : Fin 3) * 512 + 512; rw [e1]; dsimp only; omega
  | ⟨2, _⟩ => show win0_6.index _ (2 : Fin 3) * 1024 ≤ (i 2).val ∧ (i 2).val < win0_6.index _ (2 : Fin 3) * 1024 + 1024; rw [e2]; omega

/-- The array after the region. -/
theorem qkv_arr6 (c : Dev nD) : (dat0 (F := Ideal) V c).arrAt 6 cfg0.N = qkv_Gk V c :=
  (dat0 (F := Ideal) V c).arrAt_eq_of_cover 6 (qkv_Gk V c) (fun t _ => qkv_flushed6_eq V c t) qkv_cover6

/-! ## Window 7 -/

/-- What the window's array ends holding. -/
abbrev qkv_Gv (c : Dev nD) : S4x2048x1024.Idx → EReal := fun i =>
  Spec.proj (Spec.rd3 (V c main_arg0)) (Spec.rd1 (V c main_arg7)) (Spec.rd2 (V c main_v5)) Spec.c01 (i 0) (i 1) (i 2)

/-- The body's payload at point `t`, at an index of the block, is the projection at the array's index there. -/
theorem qkv_Gv_block (c : Dev nD) (t : Fin cfg0.N) (j : S1x512x1024.Idx) (i : S4x2048x1024.Idx)
    (h0 : (i 0).val = t.val / 4) (h1 : (i 1).val = t.val % 4 * 512 + (j 1).val) (h2 : (i 2).val = (j 2).val) :
    (k0_pay1 (F := Ideal) (k0_pay5 (F := Ideal) (iblk0 (F := Ideal) V c 0 t) (iblk0 (F := Ideal) V c 1 t) (iblk0 (F := Ideal) V c 4 t)) : Vec Ideal S1x512x1024 .bf16) j = qkv_Gv V c i := by
  obtain ⟨u, r, d, rfl⟩ : ∃ (u : Fin 1) (r : Fin 512) (d : Fin 1024), j = ix3 u r d := ⟨j 0, j 1, j 2, eq_ix3 j⟩
  refine (qkv_pay15_apply _ _ _ u r d).trans ?_
  show _ = Spec.proj (Spec.rd3 (V c main_arg0)) (Spec.rd1 (V c main_arg7)) (Spec.rd2 (V c main_v5)) Spec.c01 (i 0) (i 1) (i 2)
  unfold Spec.proj Spec.hN
  refine congrArg (· * Spec.c01) (Finset.sum_congr rfl fun k _ => ?_)
  rw [qkv_xblk_apply V c t (ix3 (0 : Fin 1) r k) (ix3 (i 0) (i 1) k) h0 h1 rfl, qkv_lblk_apply V c t (ix1 k), qkv_wblk4_apply V c t (ix2 k d)]
  have hd : d = i 2 := Fin.ext h2.symm
  rw [hd]

/-- What point `t` writes back is block `t` of that array. -/
theorem qkv_flushed7_eq (c : Dev nD) (t : Fin cfg0.N) :
    (dat0 (F := Ideal) V c).flushed 7 t = ((cfg0.win 7).blk t).view.read (Elt Ideal) (qkv_Gv V c) := by
  show (cfg0.win 7).cut (grid0.coords t) ((dat0 (F := Ideal) V c).after 7 t) = _
  rw [after0_7]
  unfold out0_7
  rw [View.canon_unit_zero qkv_hz3]
  simp only [View.ld_unit_zero (S := S1x512x1024) qkv_hz3, View.ld_unit_zero (S := S1024) qkv_hz1, View.ld_unit_zero (S := S1024x1024) qkv_hz2]
  obtain ⟨-, -, -, -, -, -, -, e0, e1, e2⟩ := qkv_idx_facts t
  funext j
  refine qkv_Gv_block V c t j _ ?_ ?_ ?_
  · show win0_7.index t (0 : Fin 3) * 1 + 1 * (j 0).val = _
    have hj : (j 0).val < 1 := (j 0).isLt
    rw [e0]; omega
  · show win0_7.index t (1 : Fin 3) * 512 + 1 * (j 1).val = _
    rw [e1]; omega
  · show win0_7.index t (2 : Fin 3) * 1024 + 1 * (j 2).val = _
    rw [e2]; omega

/-- An index of the array is in point `t`'s block iff each coordinate is in the block's range on its axis. -/
theorem qkv_mem_blk7 (t : Fin cfg0.N) (i : S4x2048x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v12_2).slice (win0_7.rect t)).set ↔ _
  rw [View.set_slice_whole, Rect.mem_set_unit]
  exact Iff.rfl

/-- Row `(b, r)` lies in the block of point `4 b + r / 512`. -/
theorem qkv_cover7 (i : S4x2048x1024.Idx) :
    ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 1024 := (i 2).isLt
  have hN : cfg0.N = 16 := N_0
  refine ⟨⟨(i 0).val * 4 + (i 1).val / 512, by rw [hN]; omega⟩, flush0_7 _, ?_⟩
  rw [qkv_mem_blk7]
  obtain ⟨-, -, -, -, -, -, -, e0, e1, e2⟩ := qkv_idx_facts ⟨(i 0).val * 4 + (i 1).val / 512, by rw [hN]; omega⟩
  intro a
  match a with
  | ⟨0, _⟩ => show win0_7.index _ (0 : Fin 3) * 1 ≤ (i 0).val ∧ (i 0).val < win0_7.index _ (0 : Fin 3) * 1 + 1; rw [e0]; dsimp only; omega
  | ⟨1, _⟩ => show win0_7.index _ (1 : Fin 3) * 512 ≤ (i 1).val ∧ (i 1).val < win0_7.index _ (1 : Fin 3) * 512 + 512; rw [e1]; dsimp only; omega
  | ⟨2, _⟩ => show win0_7.index _ (2 : Fin 3) * 1024 ≤ (i 2).val ∧ (i 2).val < win0_7.index _ (2 : Fin 3) * 1024 + 1024; rw [e2]; omega

/-- The array after the region. -/
theorem qkv_arr7 (c : Dev nD) : (dat0 (F := Ideal) V c).arrAt 7 cfg0.N = qkv_Gv V c :=
  (dat0 (F := Ideal) V c).arrAt_eq_of_cover 7 (qkv_Gv V c) (fun t _ => qkv_flushed7_eq V c t) qkv_cover7

/-! ## The three arrays, index by index -/

theorem q_val (c : Dev nD) (b : Fin 4) (t : Fin 2048) (d : Fin 1024) :
    ((dat0 (F := Ideal) V c).arrAt 5 cfg0.N : S4x2048x1024.Idx → EReal) (ix3 b t d)
      = Spec.proj (Spec.rd3 (V c main_arg0)) (Spec.rd1 (V c main_arg7)) (Spec.rd2 (V c main_v1)) Spec.c001 b t d := by
  rw [qkv_arr5]

theorem k_val (c : Dev nD) (b : Fin 4) (t : Fin 2048) (d : Fin 1024) :
    ((dat0 (F := Ideal) V c).arrAt 6 cfg0.N : S4x2048x1024.Idx → EReal) (ix3 b t d)
      = Spec.proj (Spec.rd3 (V c main_arg0)) (Spec.rd1 (V c main_arg7)) (Spec.rd2 (V c main_v3)) Spec.c001 b t d := by
  rw [qkv_arr6]

theorem v_val (c : Dev nD) (b : Fin 4) (t : Fin 2048) (d : Fin 1024) :
    ((dat0 (F := Ideal) V c).arrAt 7 cfg0.N : S4x2048x1024.Idx → EReal) (ix3 b t d)
      = Spec.proj (Spec.rd3 (V c main_arg0)) (Spec.rd1 (V c main_arg7)) (Spec.rd2 (V c main_v5)) Spec.c01 b t d := by
  rw [qkv_arr7]

end Cert.Val

end
-- ==== Proof.Val1P.lean ====
/-
  The three pure terms of the attention kernel's body, each read at one index, on the extended reals.
  The body keeps a running total of 512 query rows by 1024 channels. The first term is the total's reset: zero
  everywhere. The second adds one key block's share to a total: entry (r, d) gains the sum over the block's 512
  keys j of p(⟨q_r, k_j⟩ · 0.01) · v_j[d], scaled by 0.01, where ⟨q_r, k_j⟩ sums over the 1024 channels and p is the
  polynomial activation. The third turns a finished total into the output block: the total times the output
  weight, scaled by 0.1, blended half and half with the input block and scaled by 0.1 again.
  Both products are matrix products into a zero start, so each is the plain sum over its one contracted axis; a
  change of float format is the identity here; the blocks carry a leading axis of extent one, whose coordinate is 0.
-/
import proofs.«154601_j7679401525971_1_alg».proof.Proof.Gen.KernelIdeal.Skeleton
import proofs.«154601_j7679401525971_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Val

open Idealize.ShloMosaic Idealize.ShloMosaic.ValueIdx Idealize.SL.Sem
open Cert.KernelIdeal Cert.KernelIdeal.Gen

/-! ## Which operand entries a product's entry reads

For each of the three products: the left operand is read at (output row, contracted position), the right operand at
(key or contracted position, output column) as its dimension numbers say. -/

/-! ### queries against keys: both operands contract their channel axis -/
theorem lhs_qk_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_qk_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_qk_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_qk_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-! ### activated scores against values: the keys are contracted -/
theorem lhs_sv_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_sv_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_sv_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_sv_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-! ### the total against the output weight: the channels are contracted -/
theorem lhs_ao_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_ao_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_ao_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_ao_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The three products at an index -/

/-- Queries against keys into zero: entry (p, j) is the inner product of query row p and key row j. -/
theorem mm_qk (l r : FVec Ideal S512x1024 .bf16) (p j : Fin 512) :
    matmul dot_S512x1024_S512x1024_S512x512_1_1_0_0_n_n none l r (constant (F := Ideal) S512x512 .f32 0x00000000#32) (ix2 p j)
      = ∑ e : Fin 1024, l (ix2 p e) * r (ix2 j e) := by
  refine (Ideal.matmul_constant_zero_apply dot_S512x1024_S512x1024_S512x512_1_1_0_0_n_n none l r (ix2 p j)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 p j) ((contrEquiv1 dot_S512x1024_S512x1024_S512x512_1_1_0_0_n_n 1024 rfl rfl).symm k) = ix2 p k := funext fun a => Fin.ext (by
    match a with
    | ⟨0, _⟩ => exact lhs_qk_0 _ _
    | ⟨1, _⟩ => exact (lhs_qk_1 _ _).trans hk)
  have er : dot_S512x1024_S512x1024_S512x512_1_1_0_0_n_n.rhsIdx (ix2 p j) ((contrEquiv1 dot_S512x1024_S512x1024_S512x512_1_1_0_0_n_n 1024 rfl rfl).symm k) = ix2 j k := funext fun a => Fin.ext (by
    match a with
    | ⟨0, _⟩ => exact rhs_qk_0 _ _
    | ⟨1, _⟩ => exact (rhs_qk_1 _ _).trans hk)
  rw [el, er]

/-- Scores against values into zero: entry (p, d) sums, over the 512 keys j, score (p, j) times value (j, d). -/
theorem mm_sv (l : FVec Ideal S512x512 .bf16) (r : FVec Ideal S512x1024 .bf16) (p : Fin 512) (d : Fin 1024) :
    matmul dot_S512x512_S512x1024_S512x1024_1_0_0_1_n_n none l r (constant (F := Ideal) S512x1024 .f32 0x00000000#32) (ix2 p d)
      = ∑ j : Fin 512, l (ix2 p j) * r (ix2 j d) := by
  refine (Ideal.matmul_constant_zero_apply dot_S512x512_S512x1024_S512x1024_1_0_0_1_n_n none l r (ix2 p d)).trans ?_
  rw [← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p d) ((contrEquiv1 dot_S512x512_S512x1024_S512x1024_1_0_0_1_n_n 512 rfl rfl).symm k) = ix2 p k := funext fun a => Fin.ext (by
    match a with
    | ⟨0, _⟩ => exact lhs_sv_0 _ _
    | ⟨1, _⟩ => exact (lhs_sv_1 _ _).trans hk)
  have er : dot_S512x512_S512x1024_S512x1024_1_0_0_1_n_n.rhsIdx (ix2 p d) ((contrEquiv1 dot_S512x512_S512x1024_S512x1024_1_0_0_1_n_n 512 rfl rfl).symm k) = ix2 k d := funext fun a => Fin.ext (by
    match a with
    | ⟨0, _⟩ => exact (rhs_sv_0 _ _).trans hk
    | ⟨1, _⟩ => exact rhs_sv_1 _ _)
  rw [el, er]

/-- The total against the output weight into zero: entry (p, c) sums, over the 1024 channels d, total (p, d) times
    weight (d, c). -/
theorem mm_ao (l : FVec Ideal S512x1024 .bf16) (r : FVec Ideal S1024x1024 .bf16) (p : Fin 512) (c : Fin 1024) :
    matmul dot_S512x1024_S1024x1024_S512x1024_1_0_0_1_n_n none l r (constant (F := Ideal) S512x1024 .f32 0x00000000#32) (ix2 p c)
      = ∑ d : Fin 1024, l (ix2 p d) * r (ix2 d c) := by
  refine (Ideal.matmul_constant_zero_apply dot_S512x1024_S1024x1024_S512x1024_1_0_0_1_n_n none l r (ix2 p c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p c) ((contrEquiv1 dot_S512x1024_S1024x1024_S512x1024_1_0_0_1_n_n 1024 rfl rfl).symm k) = ix2 p k := funext fun a => Fin.ext (by
    match a with
    | ⟨0, _⟩ => exact lhs_ao_0 _ _
    | ⟨1, _⟩ => exact (lhs_ao_1 _ _).trans hk)
  have er : dot_S512x1024_S1024x1024_S512x1024_1_0_0_1_n_n.rhsIdx (ix2 p c) ((contrEquiv1 dot_S512x1024_S1024x1024_S512x1024_1_0_0_1_n_n 1024 rfl rfl).symm k) = ix2 k c := funext fun a => Fin.ext (by
    match a with
    | ⟨0, _⟩ => exact (rhs_ao_0 _ _).trans hk
    | ⟨1, _⟩ => exact rhs_ao_1 _ _)
  rw [el, er]

/-! ## The payloads at an index -/

/-- The reset: zero at every entry. -/
theorem pay1_apply (r : Fin 512) (d : Fin 1024) : (k1_pay1 (F := Ideal)) (ix2 r d) = 0 := by
  unfold k1_pay1
  refine (congrFun (shapeCast_self _ _) (ix2 r d)).trans ?_
  exact Ideal.ofBits_zero_f32

/-- One key block's share added to a total. -/
theorem pay2_apply (x0 x1 x2 : Vec Ideal S1x512x1024 .bf16) (xs : Vec Ideal S512x1024 .f32) (r : Fin 512) (d : Fin 1024) :
    (k1_pay2 (F := Ideal) x0 x1 x2 xs) (ix2 r d)
      = xs (ix2 r d) + (∑ j : Fin 512, Spec.poly ((∑ e : Fin 1024, x0 (ix3 0 r e) * x1 (ix3 0 j e)) * Spec.c001) * x2 (ix3 0 j d)) * Spec.c001 := by
  unfold k1_pay2
  refine (congrFun (shapeCast_self _ _) (ix2 r d)).trans ?_
  refine congrArg (fun z : EReal => xs (ix2 r d) + z * Spec.c001) ?_
  refine (mm_sv _ _ r d).trans ?_
  refine Finset.sum_congr rfl fun j _ => ?_
  refine congrArg₂ (fun a b : EReal => a * b) ?_ (shapeCast_1ab_ab_apply x2 _ j d)
  refine congrArg Spec.poly ?_
  refine congrArg (fun z : EReal => z * Spec.c001) ?_
  refine (mm_qk _ _ r j).trans ?_
  refine Finset.sum_congr rfl fun e _ => ?_
  exact congrArg₂ (fun a b : EReal => a * b) (shapeCast_1ab_ab_apply x0 _ r e) (shapeCast_1ab_ab_apply x1 _ j e)

/-- The output block from a finished total, the output weight and the input block. -/
theorem pay3_apply (acc : Vec Ideal S512x1024 .f32) (wo : Vec Ideal S1024x1024 .bf16) (x : Vec Ideal S1x512x1024 .f32)
    (r : Fin 512) (cc : Fin 1024) :
    (k1_pay3 (F := Ideal) acc wo x) (ix3 0 r cc)
      = (x (ix3 0 r cc) * Spec.c05 + ((∑ d : Fin 1024, acc (ix2 r d) * wo (ix2 d cc)) * Spec.c01) * Spec.c05) * Spec.c01 := by
  unfold k1_pay3
  refine (shapeCast_ab_1ab_apply _ _ (0 : Fin 1) r cc).trans ?_
  refine congrArg₂ (fun a b : EReal => (a * Spec.c05 + (b * Spec.c01) * Spec.c05) * Spec.c01)
    (shapeCast_1ab_ab_apply x _ r cc) ?_
  refine (mm_ao _ _ r cc).trans ?_
  refine Finset.sum_congr rfl fun d _ => ?_
  exact congrArg (fun w : EReal => acc (ix2 r d) * w) (congrFun (shapeCast_self wo _) (ix2 d cc))

end Cert.Val

end
-- ==== Proof.Val1Pk.lean ====
/-
  What each of the attention body's three control cases leaves behind, as one pure term of the blocks it loaded.
  The body keeps a running total in a buffer that lives across grid points. At the first key block it stores zeros
  into the total, reads them back, and stores the total plus that block's share: the later store covers the earlier,
  and what it read is the zeros. At a middle key block it stores the incoming total plus the block's share. At the
  last key block it does the same and then stores, into the output block, the blend computed from the total it has
  just written, which it reads back. Every store here writes a whole buffer from offset zero, so what a buffer holds
  afterwards is simply the last value stored into it.
-/
import proofs.«154601_j7679401525971_1_alg».proof.Proof.KI.R1A
import proofs.«154601_j7679401525971_1_alg».proof.Proof.KI.R1B
import proofs.«154601_j7679401525971_1_alg».proof.Proof.KI.R1C
import Idealize.ShloMosaic.Lib.Pipeline.Value
import Idealize.ShloMosaic.Lib.Tactic

set_option maxRecDepth 16384

noncomputable section

namespace Cert.Val

open Idealize.ShloMosaic Idealize.ShloMosaic.TcCoe Idealize.ShloMosaic.Tactic
open Idealize.SL Idealize.SL.Sem
open Cert.KernelIdeal Cert.KernelIdeal.Gen Cert.KernelIdeal.H

variable {F : FTy → Type} [FloatOps F]

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- First key block: the total afterwards is the first share added to zeros. -/
theorem r1_total_first (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i) (x0 : Vec F S1x512x1024 .bf16) (x1 : Vec F S1x512x1024 .bf16) (x2 : Vec F S1x512x1024 .bf16) (x3 : Vec F S1x512x1024 .f32) (x4 : Vec F S1024x1024 .bf16) :
    VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)
      = k1_pay2 x0 x1 x2 (k1_pay1 (F := F)) := by
  rw [View.read_writes_eq_canon _ _ _ (fun y => View.cover_of_tiledL (kernelRun1_A c i arg3 harg3 arg4 harg4 arg5 harg5 arg6 harg6 arg7 harg7 arg8 harg8 arg9 harg9 hc0 hc1 x0 x1 x2 x3 x4).2.1 S512x1024.size (by sl_kernel_rfl) y)]
  unfold kernelRun1_A
  dsimp only
  sl_unfold_words
  rw [View.canon_cons_unit_zero (S := S512x1024) r1_hz2, View.readCov_unit_zero (S := S512x1024) _ r1_hz2]
  simp only [View.readAt_eq_ld, harg3.read_unread, harg4.read_unread, harg5.read_unread, View.ld_unit_zero (S := S1x512x1024) r1_hz3]

/-- A middle key block: the total afterwards is the incoming total plus the block's share. -/
theorem r1_total_middle (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i) (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)
      = k1_pay2 x0 x1 x2 xs0 := by
  rw [View.read_writes_eq_canon _ _ _ (fun y => View.cover_of_tiledL (kernelRun1_B c i arg3 harg3 arg4 harg4 arg5 harg5 arg6 harg6 arg7 harg7 arg8 harg8 arg9 harg9 hc0 hc1 x0 x1 x2 x3 x4 xs0).2.1 S512x1024.size (by sl_kernel_rfl) y)]
  unfold kernelRun1_B
  dsimp only
  sl_unfold_words
  rw [View.canon_unit_zero r1_hz2]
  simp only [View.readAt_eq_ld, harg3.read_unread, harg4.read_unread, harg5.read_unread, harg9.read_unread, View.ld_unit_zero (S := S1x512x1024) r1_hz3, View.ld_unit_zero (S := S512x1024) r1_hz2]

/-- The last key block: the total afterwards, likewise. -/
theorem r1_total_last (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)
      = k1_pay2 x0 x1 x2 xs0 := by
  rw [View.read_writes_eq_canon _ _ _ (fun y => View.cover_of_tiledL (kernelRun1_C c i arg3 harg3 arg4 harg4 arg5 harg5 arg6 harg6 arg7 harg7 arg8 harg8 arg9 harg9 hc0 hc1 x0 x1 x2 x3 x4 xs0).2.1 S512x1024.size (by sl_kernel_rfl) y)]
  unfold kernelRun1_C
  dsimp only
  sl_unfold_words
  rw [View.canon_unit_zero r1_hz2]
  simp only [View.readAt_eq_ld, harg3.read_unread, harg4.read_unread, harg5.read_unread, harg9.read_unread, View.ld_unit_zero (S := S1x512x1024) r1_hz3, View.ld_unit_zero (S := S512x1024) r1_hz2]

/-- The last key block: the output block is the blend of the finished total with the input block. -/
theorem r1_out_last (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i) (x0 : Vec F S1x512x1024 .bf16) (x1 : Vec F S1x512x1024 .bf16) (x2 : Vec F S1x512x1024 .bf16) (x3 : Vec F S1x512x1024 .f32) (x4 : Vec F S1024x1024 .bf16) (xs0 : Vec F S512x1024 .f32) :
    VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
      = k1_pay3 (k1_pay2 x0 x1 x2 xs0) x4 x3 := by
  rw [View.read_writes_eq_canon _ _ _ (fun y => View.cover_of_tiledL (kernelRun1_C c i arg3 harg3 arg4 harg4 arg5 harg5 arg6 harg6 arg7 harg7 arg8 harg8 arg9 harg9 hc0 hc1 x0 x1 x2 x3 x4 xs0).1 S1x512x1024.size (by sl_kernel_rfl) y)]
  unfold kernelRun1_C
  dsimp only
  sl_unfold_words
  rw [View.canon_unit_zero r1_hz3]
  simp only [View.readAt_eq_ld, harg3.read_unread, harg4.read_unread, harg5.read_unread, harg6.read_unread, harg7.read_unread, harg9.read_unread, View.readCov_unit_zero (S := S512x1024) _ r1_hz2, View.ld_unit_zero (S := S1x512x1024) r1_hz3, View.ld_unit_zero (S := S512x1024) r1_hz2, View.ld_unit_zero (S := S1024x1024) r1_hz2]

end Cert.Val

end
-- ==== Proof.Val1Pc.lean ====
/-
  The attention body's control cases, named after what the region's bookkeeping calls them: what the first key block
  leaves in the running total (the first share added to zeros), what a middle key block leaves there, what the last
  key block leaves there, and the output block the last key block stores — each the pure term of the loaded blocks
  and the incoming total, on the extended reals.
-/
import proofs.«154601_j7679401525971_1_alg».proof.Proof.KI.R1
import proofs.«154601_j7679401525971_1_alg».proof.Proof.Val1Pk
import Idealize.ShloMosaic.PureOps.Ideal

noncomputable section

namespace Cert.Val

open Idealize.ShloMosaic Idealize.ShloMosaic.TcCoe
open Idealize.SL Idealize.SL.Sem
open Cert.KernelIdeal Cert.KernelIdeal.Gen Cert.KernelIdeal.H

/-- The first key block: the total afterwards is the first share added to zeros. -/
theorem sA_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : cond1_0 i) (hc1 : ¬cond1_1 i) (x0 x1 x2 : Vec Ideal S1x512x1024 .bf16) (x3 : Vec Ideal S1x512x1024 .f32) (x4 : Vec Ideal S1024x1024 .bf16) :
    sout1_A_0 (F := Ideal) c i arg3 harg3 arg4 harg4 arg5 harg5 arg6 harg6 arg7 harg7 arg8 harg8 arg9 harg9 hc0 hc1 x0 x1 x2 x3 x4 = k1_pay2 (F := Ideal) x0 x1 x2 (k1_pay1 (F := Ideal)) :=
  r1_total_first (F := Ideal) c i arg3 harg3 arg4 harg4 arg5 harg5 arg6 harg6 arg7 harg7 arg8 harg8 arg9 harg9 hc0 hc1 x0 x1 x2 x3 x4

/-- A middle key block: the total afterwards is the incoming total plus the block's share. -/
theorem sB_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : ¬cond1_1 i) (x0 x1 x2 : Vec Ideal S1x512x1024 .bf16) (x3 : Vec Ideal S1x512x1024 .f32) (x4 : Vec Ideal S1024x1024 .bf16) (xs0 : Vec Ideal S512x1024 .f32) :
    sout1_B_0 (F := Ideal) c i arg3 harg3 arg4 harg4 arg5 harg5 arg6 harg6 arg7 harg7 arg8 harg8 arg9 harg9 hc0 hc1 x0 x1 x2 x3 x4 xs0 = k1_pay2 (F := Ideal) x0 x1 x2 xs0 :=
  r1_total_middle (F := Ideal) c i arg3 harg3 arg4 harg4 arg5 harg5 arg6 harg6 arg7 harg7 arg8 harg8 arg9 harg9 hc0 hc1 x0 x1 x2 x3 x4 xs0

/-- The last key block: the total afterwards, likewise. -/
theorem sC_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i) (x0 x1 x2 : Vec Ideal S1x512x1024 .bf16) (x3 : Vec Ideal S1x512x1024 .f32) (x4 : Vec Ideal S1024x1024 .bf16) (xs0 : Vec Ideal S512x1024 .f32) :
    sout1_C_0 (F := Ideal) c i arg3 harg3 arg4 harg4 arg5 harg5 arg6 harg6 arg7 harg7 arg8 harg8 arg9 harg9 hc0 hc1 x0 x1 x2 x3 x4 xs0 = k1_pay2 (F := Ideal) x0 x1 x2 xs0 :=
  r1_total_last (F := Ideal) c i arg3 harg3 arg4 harg4 arg5 harg5 arg6 harg6 arg7 harg7 arg8 harg8 arg9 harg9 hc0 hc1 x0 x1 x2 x3 x4 xs0

/-- The last key block: the output block is the blend of the finished total with the input block. -/
theorem oC_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S1024x1024 .bf16) (harg7 : arg7.IsWhole) (arg8 : Memref sig .tc .vmem S1x512x1024 .f32) (harg8 : arg8.IsWhole) (arg9 : Memref sig .tc .vmem S512x1024 .f32) (harg9 : arg9.IsWhole) (hc0 : ¬cond1_0 i) (hc1 : cond1_1 i) (x0 x1 x2 : Vec Ideal S1x512x1024 .bf16) (x3 : Vec Ideal S1x512x1024 .f32) (x4 : Vec Ideal S1024x1024 .bf16) (xs0 : Vec Ideal S512x1024 .f32) :
    out1_C_5 (F := Ideal) c i arg3 harg3 arg4 harg4 arg5 harg5 arg6 harg6 arg7 harg7 arg8 harg8 arg9 harg9 hc0 hc1 x0 x1 x2 x3 x4 xs0 = k1_pay3 (F := Ideal) (k1_pay2 (F := Ideal) x0 x1 x2 xs0) x4 x3 :=
  r1_out_last (F := Ideal) c i arg3 harg3 arg4 harg4 arg5 harg5 arg6 harg6 arg7 harg7 arg8 harg8 arg9 harg9 hc0 hc1 x0 x1 x2 x3 x4 xs0

end Cert.Val

end
-- ==== Proof.Val1I.lean ====
/-
  Region 1, the attention stage, read at an index for any contents of the TensorCore's buffers on entry. The running
  total the body keeps over the four key blocks of a query block is, after key block `ki`, the sum from zero of the
  scaled shares of key blocks 0 … ki; at the last key block the stored output block is the residual blend of the
  finished total with the input block.
-/
import proofs.«154601_j7679401525971_1_alg».proof.Proof.KI.R1
import proofs.«154601_j7679401525971_1_alg».proof.Proof.Spec
import proofs.«154601_j7679401525971_1_alg».proof.Proof.Val1P
import proofs.«154601_j7679401525971_1_alg».proof.Proof.Val1Pc
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen

/-! ## The grid: point `t` is (batch `t / 16`, query block `t / 4 % 4`, key block `t % 4`) -/

theorem acc1_N : cfg1.N = 64 := N_1
theorem acc1_lt_b (t : Fin cfg1.N) : t.val / 16 < 4 := by have := t.isLt; have := acc1_N; omega
theorem acc1_lt_row (t : Fin cfg1.N) (r : Fin 512) : t.val / 4 % 4 * 512 + r.val < 2048 := by have := r.isLt; omega
theorem acc1_lt_k (t : Fin cfg1.N) : t.val % 4 < 4 := by omega

variable (V : (c : Dev nD) → (b : Ref sig .tc) → Buf (Elt Ideal) ((c : Thread nD τ).loc b))

/-! ## The index maps, decided once -/

theorem acc1_idx_facts : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val / 4 % 4 ∧ win1_3.index t (2 : Fin 3) = 0)
    ∧ (win1_4.index t (0 : Fin 2) = 0 ∧ win1_4.index t (1 : Fin 2) = 0) ∧ True :=
  (by decide +kernel : ∀ t : Fin grid1.N, _)

/-! ## Each input block, read off its array -/

/-- The query block at point `t`: rows `(t / 4 % 4) · 512 …` of batch `t / 16`. -/
theorem acc1_qblk (c : Dev nD) (t : Fin cfg1.N) (x : S1x512x1024.Idx) (g : S4x2048x1024.Idx)
    (h0 : (g 0).val = t.val / 16) (h1 : (g 1).val = t.val / 4 % 4 * 512 + (x 1).val) (h2 : (g 2).val = (x 2).val) :
    (H.iblk1 (F := Ideal) V c 0 t : S1x512x1024.Idx → EReal) x = (V c main_v12_0 : S4x2048x1024.Idx → EReal) g := by
  obtain ⟨⟨e0, e1, e2⟩, -⟩ := acc1_idx_facts t
  have hx0 : (x 0).val < 1 := (x 0).isLt
  unfold H.iblk1
  rw [View.read_apply]
  show V c main_v12_0 _ = V c main_v12_0 _
  congr 1
  funext a
  apply Fin.ext
  match a with
  | ⟨0, _⟩ => show win1_0.index t (0 : Fin 3) * 1 + 1 * (x 0).val = (g 0).val; rw [e0, h0]; omega
  | ⟨1, _⟩ => show win1_0.index t (1 : Fin 3) * 512 + 1 * (x 1).val = (g 1).val; rw [e1, h1]; omega
  | ⟨2, _⟩ => show win1_0.index t (2 : Fin 3) * 1024 + 1 * (x 2).val = (g 2).val; rw [e2, h2]; omega

/-- The key block: rows `(t % 4) · 512 …` of the batch. -/
theorem acc1_kblk (c : Dev nD) (t : Fin cfg1.N) (x : S1x512x1024.Idx) (g : S4x2048x1024.Idx)
    (h0 : (g 0).val = t.val / 16) (h1 : (g 1).val = t.val % 4 * 512 + (x 1).val) (h2 : (g 2).val = (x 2).val) :
    (H.iblk1 (F := Ideal) V c 1 t : S1x512x1024.Idx → EReal) x = (V c main_v12_1 : S4x2048x1024.Idx → EReal) g := by
  obtain ⟨-, ⟨e0, e1, e2⟩, -⟩ := acc1_idx_facts t
  have hx0 : (x 0).val < 1 := (x 0).isLt
  unfold H.iblk1
  rw [View.read_apply]
  show V c main_v12_1 _ = V c main_v12_1 _
  congr 1
  funext a
  apply Fin.ext
  match a with
  | ⟨0, _⟩ => show win1_1.index t (0 : Fin 3) * 1 + 1 * (x 0).val = (g 0).val; rw [e0, h0]; omega
  | ⟨1, _⟩ => show win1_1.index t (1 : Fin 3) * 512 + 1 * (x 1).val = (g 1).val; rw [e1, h1]; omega
  | ⟨2, _⟩ => show win1_1.index t (2 : Fin 3) * 1024 + 1 * (x 2).val = (g 2).val; rw [e2, h2]; omega

/-- The value block: the same rows. -/
theorem acc1_vblk (c : Dev nD) (t : Fin cfg1.N) (x : S1x512x1024.Idx) (g : S4x2048x1024.Idx)
    (h0 : (g 0).val = t.val / 16) (h1 : (g 1).val = t.val % 4 * 512 + (x 1).val) (h2 : (g 2).val = (x 2).val) :
    (H.iblk1 (F := Ideal) V c 2 t : S1x512x1024.Idx → EReal) x = (V c main_v12_2 : S4x2048x1024.Idx → EReal) g := by
  obtain ⟨-, -, ⟨e0, e1, e2⟩, -⟩ := acc1_idx_facts t
  have hx0 : (x 0).val < 1 := (x 0).isLt
  unfold H.iblk1
  rw [View.read_apply]
  show V c main_v12_2 _ = V c main_v12_2 _
  congr 1
  funext a
  apply Fin.ext
  match a with
  | ⟨0, _⟩ => show win1_2.index t (0 : Fin 3) * 1 + 1 * (x 0).val = (g 0).val; rw [e0, h0]; omega
  | ⟨1, _⟩ => show win1_2.index t (1 : Fin 3) * 512 + 1 * (x 1).val = (g 1).val; rw [e1, h1]; omega
  | ⟨2, _⟩ => show win1_2.index t (2 : Fin 3) * 1024 + 1 * (x 2).val = (g 2).val; rw [e2, h2]; omega

/-- The input block: the query block's rows. -/
theorem acc1_xblk (c : Dev nD) (t : Fin cfg1.N) (x : S1x512x1024.Idx) (g : S4x2048x1024.Idx)
    (h0 : (g 0).val = t.val / 16) (h1 : (g 1).val = t.val / 4 % 4 * 512 + (x 1).val) (h2 : (g 2).val = (x 2).val) :
    (H.iblk1 (F := Ideal) V c 3 t : S1x512x1024.Idx → EReal) x = (V c main_arg0 : S4x2048x1024.Idx → EReal) g := by
  obtain ⟨-, -, -, ⟨e0, e1, e2⟩, -⟩ := acc1_idx_facts t
  have hx0 : (x 0).val < 1 := (x 0).isLt
  unfold H.iblk1
  rw [View.read_apply]
  show V c main_arg0 _ = V c main_arg0 _
  congr 1
  funext a
  apply Fin.ext
  match a with
  | ⟨0, _⟩ => show win1_3.index t (0 : Fin 3) * 1 + 1 * (x 0).val = (g 0).val; rw [e0, h0]; omega
  | ⟨1, _⟩ => show win1_3.index t (1 : Fin 3) * 512 + 1 * (x 1).val = (g 1).val; rw [e1, h1]; omega
  | ⟨2, _⟩ => show win1_3.index t (2 : Fin 3) * 1024 + 1 * (x 2).val = (g 2).val; rw [e2, h2]; omega

/-- The output weight's block is the whole weight. -/
theorem acc1_woblk (c : Dev nD) (t : Fin cfg1.N) (x : S1024x1024.Idx) :
    (H.iblk1 (F := Ideal) V c 4 t : S1024x1024.Idx → EReal) x = (V c main_v7 : S1024x1024.Idx → EReal) x := by
  obtain ⟨-, -, -, -, ⟨e0, e1⟩, -⟩ := acc1_idx_facts t
  unfold H.iblk1
  rw [View.read_apply]
  show V c main_v7 _ = V c main_v7 _
  congr 1
  funext a
  apply Fin.ext
  match a with
  | ⟨0, _⟩ => show win1_4.index t (0 : Fin 2) * 1024 + 1 * (x 0).val = (x 0).val; rw [e0]; omega
  | ⟨1, _⟩ => show win1_4.index t (1 : Fin 2) * 1024 + 1 * (x 1).val = (x 1).val; rw [e1]; omega

/-! ## One key block's share -/

/-- The scaled share of key block `kb` in the attention output at batch `b`, row `row`, channel `d`. -/
abbrev acc1_part (c : Dev nD) (b : Fin 4) (row : Fin 2048) (d : Fin 1024) : Fin 4 → EReal := fun kb =>
  Spec.attnPart (Spec.score (Spec.rd3 (V c main_v12_0)) (Spec.rd3 (V c main_v12_1))) (Spec.rd3 (V c main_v12_2)) b row d kb

theorem acc1_part_congr (c : Dev nD) (b b' : Fin 4) (row row' : Fin 2048) (d : Fin 1024) (hb : b.val = b'.val) (hr : row.val = row'.val) :
    acc1_part V c b row d = acc1_part V c b' row' d := by
  obtain rfl : b = b' := Fin.ext hb
  obtain rfl : row = row' := Fin.ext hr
  rfl

/-- What the body adds to the running total at point `t` is the share of the point's key block. -/
theorem acc1_share (c : Dev nD) (t : Fin cfg1.N) (r : Fin 512) (d : Fin 1024) (kb : Fin 4) (hk : kb.val = t.val % 4)
    (x0 x1 x2 : Vec Ideal S1x512x1024 .bf16) (e0 : x0 = H.iblk1 (F := Ideal) V c 0 t) (e1 : x1 = H.iblk1 (F := Ideal) V c 1 t) (e2 : x2 = H.iblk1 (F := Ideal) V c 2 t) :
    (∑ j : Fin 512, Spec.poly ((∑ e : Fin 1024, x0 (ix3 0 r e) * x1 (ix3 0 j e)) * Spec.c001) * x2 (ix3 0 j d)) * Spec.c001
      = acc1_part V c ⟨t.val / 16, acc1_lt_b t⟩ ⟨t.val / 4 % 4 * 512 + r.val, acc1_lt_row t r⟩ d kb := by
  subst e0 e1 e2
  show _ = Spec.attnPart (Spec.score (Spec.rd3 (V c main_v12_0)) (Spec.rd3 (V c main_v12_1))) (Spec.rd3 (V c main_v12_2)) ⟨t.val / 16, acc1_lt_b t⟩ ⟨t.val / 4 % 4 * 512 + r.val, acc1_lt_row t r⟩ d kb
  unfold Spec.attnPart Spec.score
  refine congrArg (fun z : EReal => z * Spec.c001) (Finset.sum_congr rfl fun j _ => ?_)
  have hkey : (Spec.keyAt kb j).val = t.val % 4 * 512 + j.val := by unfold Spec.keyAt; rw [← hk]
  refine congrArg₂ (fun a b : EReal => Spec.poly (a * Spec.c001) * b) (Finset.sum_congr rfl fun e _ => ?_) ?_
  · exact congrArg₂ (fun a b : EReal => a * b)
      (acc1_qblk V c t (ix3 0 r e) (ix3 ⟨t.val / 16, acc1_lt_b t⟩ ⟨t.val / 4 % 4 * 512 + r.val, acc1_lt_row t r⟩ e) rfl rfl rfl)
      (acc1_kblk V c t (ix3 0 j e) (ix3 ⟨t.val / 16, acc1_lt_b t⟩ (Spec.keyAt kb j) e) rfl hkey rfl)
  · exact acc1_vblk V c t (ix3 0 j d) (ix3 ⟨t.val / 16, acc1_lt_b t⟩ (Spec.keyAt kb j) d) rfl hkey rfl

/-! ## The running total -/

/-- From zero, the shares of key blocks 0 … k added in order. -/
def acc1_to (p : Fin 4 → EReal) : ℕ → EReal
  | 0 => 0 + p 0
  | 1 => (0 + p 0) + p 1
  | 2 => ((0 + p 0) + p 1) + p 2
  | _ => (((0 + p 0) + p 1) + p 2) + p 3

theorem acc1_to_step (p : Fin 4 → EReal) (k : ℕ) (hk0 : ¬k = 0) (hk : k < 4) : acc1_to p k = acc1_to p (k - 1) + p ⟨k, hk⟩ := by
  match k, hk0, hk with
  | 0, h, _ => exact absurd rfl h
  | 1, _, _ => rfl
  | 2, _, _ => rfl
  | 3, _, _ => rfl
  | (n + 4), _, h => exact absurd h (by omega)

/-- At the first key block of a query block the total is reset and the block's share added. -/
theorem acc1_scr_first (c : Dev nD) (t : Fin cfg1.N) (h0 : t.val % 4 = 0) :
    (H.outsAt1 (F := Ideal) V c t.val t.isLt).2 = k1_pay2 (F := Ideal) (H.iblk1 (F := Ideal) V c 0 t) (H.iblk1 (F := Ideal) V c 1 t) (H.iblk1 (F := Ideal) V c 2 t) (k1_pay1 (F := Ideal)) := by
  have h1 : ¬t.val % 4 = 3 := by omega
  rw [H.outsAt1_A V c t h0 h1]
  dsimp only
  exact sA_eq c (grid1.coords t) (H.ms1_0 t) (H.hs1_0 t) (H.ms1_1 t) (H.hs1_1 t) (H.ms1_2 t) (H.hs1_2 t) (H.ms1_3 t) (H.hs1_3 t) (H.ms1_4 t) (H.hs1_4 t) (H.ms1_5 t) (H.hs1_5 t) H.scM1_0 (Memref.isWhole_whole _) ((H.hcond1_0 t).mpr h0) (fun h => h1 ((H.hcond1_1 t).mp h)) (H.iblk1 (F := Ideal) V c 0 t) (H.iblk1 (F := Ideal) V c 1 t) (H.iblk1 (F := Ideal) V c 2 t) (H.iblk1 (F := Ideal) V c 3 t) (H.iblk1 (F := Ideal) V c 4 t)

/-- At a later key block the block's share is added to what the point before left. -/
theorem acc1_scr_next (c : Dev nD) (t : Fin cfg1.N) (h0 : ¬t.val % 4 = 0) :
    (H.outsAt1 (F := Ideal) V c t.val t.isLt).2 = k1_pay2 (F := Ideal) (H.iblk1 (F := Ideal) V c 0 t) (H.iblk1 (F := Ideal) V c 1 t) (H.iblk1 (F := Ideal) V c 2 t) (H.outsAt1 (F := Ideal) V c (t.val - 1) (Nat.lt_of_le_of_lt (Nat.sub_le _ _) t.isLt)).2 := by
  by_cases h1 : t.val % 4 = 3
  · rw [H.outsAt1_C V c t h0 h1]
    dsimp only
    exact sC_eq c (grid1.coords t) (H.ms1_0 t) (H.hs1_0 t) (H.ms1_1 t) (H.hs1_1 t) (H.ms1_2 t) (H.hs1_2 t) (H.ms1_3 t) (H.hs1_3 t) (H.ms1_4 t) (H.hs1_4 t) (H.ms1_5 t) (H.hs1_5 t) H.scM1_0 (Memref.isWhole_whole _) (fun h => h0 ((H.hcond1_0 t).mp h)) ((H.hcond1_1 t).mpr h1) (H.iblk1 (F := Ideal) V c 0 t) (H.iblk1 (F := Ideal) V c 1 t) (H.iblk1 (F := Ideal) V c 2 t) (H.iblk1 (F := Ideal) V c 3 t) (H.iblk1 (F := Ideal) V c 4 t) (H.outsAt1 (F := Ideal) V c (t.val - 1) (Nat.lt_of_le_of_lt (Nat.sub_le _ _) t.isLt)).2
  · rw [H.outsAt1_B V c t h0 h1]
    dsimp only
    exact sB_eq c (grid1.coords t) (H.ms1_0 t) (H.hs1_0 t) (H.ms1_1 t) (H.hs1_1 t) (H.ms1_2 t) (H.hs1_2 t) (H.ms1_3 t) (H.hs1_3 t) (H.ms1_4 t) (H.hs1_4 t) (H.ms1_5 t) (H.hs1_5 t) H.scM1_0 (Memref.isWhole_whole _) (fun h => h0 ((H.hcond1_0 t).mp h)) (fun h => h1 ((H.hcond1_1 t).mp h)) (H.iblk1 (F := Ideal) V c 0 t) (H.iblk1 (F := Ideal) V c 1 t) (H.iblk1 (F := Ideal) V c 2 t) (H.iblk1 (F := Ideal) V c 3 t) (H.iblk1 (F := Ideal) V c 4 t) (H.outsAt1 (F := Ideal) V c (t.val - 1) (Nat.lt_of_le_of_lt (Nat.sub_le _ _) t.isLt)).2

/-- The total after point `t`, at row `r` of the query block and channel `d`: the shares of key blocks 0 … `t % 4`. -/
theorem acc1_scr (c : Dev nD) : ∀ (n : ℕ) (t : Fin cfg1.N), t.val = n → ∀ (r : Fin 512) (d : Fin 1024),
    ((H.outsAt1 (F := Ideal) V c t.val t.isLt).2 : S512x1024.Idx → EReal) (ix2 r d)
      = acc1_to (acc1_part V c ⟨t.val / 16, acc1_lt_b t⟩ ⟨t.val / 4 % 4 * 512 + r.val, acc1_lt_row t r⟩ d) (t.val % 4) := by
  intro n
  induction n with
  | zero =>
    intro t ht r d
    have h0 : t.val % 4 = 0 := by omega
    rw [acc1_scr_first V c t h0, h0]
    refine (pay2_apply _ _ _ _ r d).trans ?_
    show _ = 0 + acc1_part V c ⟨t.val / 16, acc1_lt_b t⟩ ⟨t.val / 4 % 4 * 512 + r.val, acc1_lt_row t r⟩ d 0
    exact congrArg₂ (fun a b : EReal => a + b) (pay1_apply r d) (acc1_share V c t r d 0 (by rw [h0]; rfl) _ _ _ rfl rfl rfl)
  | succ n ih =>
    intro t ht r d
    by_cases h0 : t.val % 4 = 0
    · rw [acc1_scr_first V c t h0, h0]
      refine (pay2_apply _ _ _ _ r d).trans ?_
      show _ = 0 + acc1_part V c ⟨t.val / 16, acc1_lt_b t⟩ ⟨t.val / 4 % 4 * 512 + r.val, acc1_lt_row t r⟩ d 0
      exact congrArg₂ (fun a b : EReal => a + b) (pay1_apply r d) (acc1_share V c t r d 0 (by rw [h0]; rfl) _ _ _ rfl rfl rfl)
    · have hlt : t.val - 1 < cfg1.N := Nat.lt_of_le_of_lt (Nat.sub_le _ _) t.isLt
      have hp := ih ⟨t.val - 1, hlt⟩ (by show t.val - 1 = n; omega) r d
      rw [acc1_scr_next V c t h0, acc1_to_step _ (t.val % 4) h0 (acc1_lt_k t)]
      refine (pay2_apply _ _ _ _ r d).trans ?_
      refine congrArg₂ (fun a b : EReal => a + b) ?_ (acc1_share V c t r d ⟨t.val % 4, acc1_lt_k t⟩ rfl _ _ _ rfl rfl rfl)
      refine hp.trans ?_
      show acc1_to (acc1_part V c ⟨(t.val - 1) / 16, _⟩ ⟨(t.val - 1) / 4 % 4 * 512 + r.val, _⟩ d) ((t.val - 1) % 4) = _
      have e1 : (t.val - 1) % 4 = t.val % 4 - 1 := by omega
      rw [e1]
      exact congrArg (fun p => acc1_to p (t.val % 4 - 1)) (acc1_part_congr V c _ _ _ _ d (by show (t.val - 1) / 16 = t.val / 16; omega) (by show (t.val - 1) / 4 % 4 * 512 + r.val = t.val / 4 % 4 * 512 + r.val; omega))

/-! ## The output block at the last key block -/

theorem out_block (c : Dev nD) (t : Fin cfg1.N) (h3 : t.val % 4 = 3) (r : Fin 512) (cc : Fin 1024) :
    ((H.outsAt1 (F := Ideal) V c t.val t.isLt).1 : S1x512x1024.Idx → EReal) (ix3 0 r cc)
      = Spec.attnStageAcc (Spec.rd3 (V c main_arg0)) (Spec.rd3 (V c main_v12_0)) (Spec.rd3 (V c main_v12_1)) (Spec.rd3 (V c main_v12_2)) (Spec.rd2 (V c main_v7))
          ⟨t.val / 16, acc1_lt_b t⟩ ⟨t.val / 4 % 4 * 512 + r.val, acc1_lt_row t r⟩ cc := by
  have h0 : ¬t.val % 4 = 0 := by omega
  rw [H.outsAt1_C V c t h0 h3]
  dsimp only
  refine (congrFun (oC_eq c (grid1.coords t) (H.ms1_0 t) (H.hs1_0 t) (H.ms1_1 t) (H.hs1_1 t) (H.ms1_2 t) (H.hs1_2 t) (H.ms1_3 t) (H.hs1_3 t) (H.ms1_4 t) (H.hs1_4 t) (H.ms1_5 t) (H.hs1_5 t) H.scM1_0 (Memref.isWhole_whole _) (fun h => h0 ((H.hcond1_0 t).mp h)) ((H.hcond1_1 t).mpr h3) (H.iblk1 (F := Ideal) V c 0 t) (H.iblk1 (F := Ideal) V c 1 t) (H.iblk1 (F := Ideal) V c 2 t) (H.iblk1 (F := Ideal) V c 3 t) (H.iblk1 (F := Ideal) V c 4 t) (H.outsAt1 (F := Ideal) V c (t.val - 1) (Nat.lt_of_le_of_lt (Nat.sub_le _ _) t.isLt)).2) (ix3 0 r cc)).trans ?_
  refine (pay3_apply _ _ _ r cc).trans ?_
  unfold Spec.attnStageAcc Spec.blend1
  refine congrArg₂ (fun a s : EReal => (a * Spec.c05 + (s * Spec.c01) * Spec.c05) * Spec.c01)
    (acc1_xblk V c t (ix3 0 r cc) (ix3 ⟨t.val / 16, acc1_lt_b t⟩ ⟨t.val / 4 % 4 * 512 + r.val, acc1_lt_row t r⟩ cc) rfl rfl rfl)
    (Finset.sum_congr rfl fun d _ => ?_)
  refine congrArg₂ (fun a w : EReal => a * w) ?_ (acc1_woblk V c t (ix2 d cc))
  refine ((congrFun (acc1_scr_next V c t h0) (ix2 r d)).symm.trans (acc1_scr V c t.val t rfl r d)).trans ?_
  rw [h3]
  rfl

end Cert.Val

end
-- ==== Proof.Val1.lean ====
/-
  What the attention stage (the second launch) leaves in its output array, entry by entry, for any contents `V` the
  TensorCore's buffers hold when the stage is entered: with X the stage's input array, Q, K, Vv the projected
  queries, keys and values and Wo the output weight as the stage finds them,
      x2[b, t, c] = (X[b,t,c]·½ + ((∑ d, a[b,t,d]·Wo[d,c])·0.1)·½)·0.1,
  where a[b,t,d] is the attention output accumulated one key block of 512 keys at a time from zero.
  The grid is 4 × 4 × 4: batch entry b, query block qi, key block ki, the point 16·b + 4·qi + ki. Only the points of
  the last key block (ki = 3) write the output back, and there the output block is rows 512·qi … 512·qi + 511 of
  batch entry b. An output row depends on its own query row and on all keys and values of its batch entry, so the
  sixteen written blocks are restrictions of one function of the whole arrays, and they cover the output array: row
  tt of batch entry b lies in the block of the point 16·b + 4·(tt / 512) + 3.
-/
import proofs.«154601_j7679401525971_1_alg».proof.Proof.KI.R1
import proofs.«154601_j7679401525971_1_alg».proof.Proof.Spec
import proofs.«154601_j7679401525971_1_alg».proof.Proof.Val1I
import Idealize.ShloMosaic.Lib.ValueIdx
import Idealize.ShloMosaic.Lib.Pipeline.Value
import Idealize.ShloMosaic.Lib.ValueLayout
import Idealize.ShloMosaic.PureOps.Ideal.Laws

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.H
open scoped BigOperators

-- the TensorCore's buffer contents when the stage is entered
variable (V : (c : Dev nD) → (b : Ref sig .tc) → Buf (Elt Ideal) ((c : Thread nD τ).loc b))

/-- The output window's printed index map over the grid: the point t = 16·b + 4·qi + ki takes row block (b, qi). -/
theorem x2f_idx_facts : ∀ t : Fin cfg1.N,
    win1_5.index t (0 : Fin 3) = t.val / 16 ∧ win1_5.index t (1 : Fin 3) = t.val / 4 % 4 ∧ win1_5.index t (2 : Fin 3) = 0 :=
  (by decide +kernel : ∀ t : Fin grid1.N, _)

theorem x2f_lt64 (t : Fin cfg1.N) : t.val < 64 := lt_of_lt_of_eq t.isLt N_1

/-- The batch entry of point `t`, and the array row of row `p` of its query block. -/
def x2f_b (t : Fin cfg1.N) : Fin 4 := ⟨t.val / 16, by have := x2f_lt64 t; omega⟩
def x2f_row (t : Fin cfg1.N) (p : Fin 512) : Fin 2048 := ⟨t.val / 4 % 4 * 512 + p.val, by have := p.isLt; omega⟩

/-- The stage's result as ONE function of the arrays it finds, entry by entry. -/
def x2G (c : Dev nD) : S4x2048x1024.Idx → EReal := fun i =>
  Spec.attnStageAcc (Spec.rd3 (V c main_arg0)) (Spec.rd3 (V c main_v12_0)) (Spec.rd3 (V c main_v12_1))
    (Spec.rd3 (V c main_v12_2)) (Spec.rd2 (V c main_v7)) (i 0) (i 1) (i 2)

/-- An entry of the output window's block at point `t` sits in the array at the query block's rows of the point's batch entry. -/
theorem x2f_emb_out (t : Fin cfg1.N) (u : Fin 1) (p : Fin 512) (k : Fin 1024) :
    ((cfg1.win 5).blk t).view.emb (ix3 u p k) = (ix3 (x2f_b t) (x2f_row t p) k : S4x2048x1024.Idx) := by
  obtain ⟨e0, e1, e2⟩ := x2f_idx_facts t
  have hu : u.val = 0 := by omega
  funext a
  apply Fin.ext
  match a with
  | ⟨0, _⟩ => show win1_5.index t (0 : Fin 3) * 1 + 1 * u.val = t.val / 16; rw [e0, hu]; omega
  | ⟨1, _⟩ => show win1_5.index t (1 : Fin 3) * 512 + 1 * p.val = t.val / 4 % 4 * 512 + p.val; rw [e1]; omega
  | ⟨2, _⟩ => show win1_5.index t (2 : Fin 3) * 1024 + 1 * k.val = k.val; rw [e2]; omega

/-- What a point of the last key block writes back is its block of `x2G`. -/
theorem x2f_flushed_eq (c : Dev nD) (t : Fin cfg1.N) (hf : (cfg1.win 5).flush t = true) :
    (dat1 (F := Ideal) V c).flushed 5 t = ((cfg1.win 5).blk t).view.read (Elt Ideal) (x2G V c) := by
  have h3 : t.val % 4 = 3 := (flush1_5 t).mp hf
  show (cfg1.win 5).cut (grid1.coords t) ((dat1 (F := Ideal) V c).after 5 t) = _
  rw [after1_5]
  funext j
  obtain ⟨u, p, cc, rfl⟩ : ∃ (u : Fin 1) (p : Fin 512) (cc : Fin 1024), j = ix3 u p cc := ⟨j 0, j 1, j 2, eq_ix3 j⟩
  obtain rfl : u = 0 := Fin.ext (by omega)
  rw [View.read_apply, x2f_emb_out]
  show ((outsAt1 (F := Ideal) V c t.val t.isLt).1 : S1x512x1024.Idx → EReal) (ix3 0 p cc) = x2G V c (ix3 (x2f_b t) (x2f_row t p) cc)
  refine (out_block V c t h3 p cc).trans ?_
  rfl

/-- An entry of the array is in point `t`'s block iff each coordinate is in the block's range on its axis. -/
theorem x2f_mem_blk (t : Fin cfg1.N) (i : S4x2048x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v13).slice (win1_5.rect t)).set ↔ _
  rw [View.set_slice_whole, Rect.mem_set_unit]
  exact Iff.rfl

/-- Every entry (b, tt, ·) of the output array is in the block of the point 16·b + 4·(tt / 512) + 3, a point of the
    last key block, which writes it back. -/
theorem x2f_cover (i : S4x2048x1024.Idx) :
    ∃ t : Fin cfg1.N, (cfg1.win 5).flush t = true ∧ i ∈ ((cfg1.win 5).blk t).view.set := by
  have h0 : (i 0).val < 4 := (i 0).isLt
  have h1 : (i 1).val < 2048 := (i 1).isLt
  have h2 : (i 2).val < 1024 := (i 2).isLt
  obtain ⟨t, ht⟩ : ∃ t : Fin cfg1.N, t.val = (i 0).val * 16 + (i 1).val / 512 * 4 + 3 :=
    ⟨⟨(i 0).val * 16 + (i 1).val / 512 * 4 + 3, lt_of_lt_of_eq (show (i 0).val * 16 + (i 1).val / 512 * 4 + 3 < 64 by omega) N_1.symm⟩, rfl⟩
  obtain ⟨e0, e1, e2⟩ := x2f_idx_facts t
  refine ⟨t, (flush1_5 t).mpr (by rw [ht]; omega), ?_⟩
  rw [x2f_mem_blk]
  intro a
  match a with
  | ⟨0, _⟩ => show win1_5.index t (0 : Fin 3) * 1 ≤ (i 0).val ∧ (i 0).val < win1_5.index t (0 : Fin 3) * 1 + 1; rw [e0, ht]; omega
  | ⟨1, _⟩ => show win1_5.index t (1 : Fin 3) * 512 ≤ (i 1).val ∧ (i 1).val < win1_5.index t (1 : Fin 3) * 512 + 512; rw [e1, ht]; omega
  | ⟨2, _⟩ => show win1_5.index t (2 : Fin 3) * 1024 ≤ (i 2).val ∧ (i 2).val < win1_5.index t (2 : Fin 3) * 1024 + 1024; rw [e2]; omega

/-- The output array after the stage's last point is `x2G`. -/
theorem x2f_final (c : Dev nD) : (dat1 (F := Ideal) V c).arrAt 5 cfg1.N = x2G V c :=
  (dat1 (F := Ideal) V c).arrAt_eq_of_cover 5 (x2G V c) (x2f_flushed_eq V c) x2f_cover

/-- THE STAGE'S VALUE: entry (b, t, c) of the output array after the stage, for any entry contents `V`, is the
    attention stage's function — the keys accumulated block by block — of the stage's input array, the projected
    queries, keys and values and the output weight as `V` holds them. -/
theorem x2_val (c : Dev nD) (b : Fin 4) (t : Fin 2048) (cc : Fin 1024) :
    ((dat1 (F := Ideal) V c).arrAt 5 cfg1.N : S4x2048x1024.Idx → EReal) (ix3 b t cc)
      = Spec.attnStageAcc (Spec.rd3 (V c main_arg0)) (Spec.rd3 (V c main_v12_0)) (Spec.rd3 (V c main_v12_1))
          (Spec.rd3 (V c main_v12_2)) (Spec.rd2 (V c main_v7)) b t cc := by
  rw [x2f_final]
  rfl

end Cert.Val

end
-- ==== Proof.Val2.lean ====
/-
  What the MLP stage (the third launch) leaves in its output array, entry by entry, for any contents `V` the
  TensorCore's buffers hold when the stage is entered: with X the stage's input array, L the per-channel scale
  and W1, W2 the two weights as the stage finds them,
      x3[b, t, c] = (X[b,t,c]·½ + ((∑ f, u[b,t,f]·W2[f,c])·0.05)·½)·0.1,
      u[b,t,f]    = p((∑ c, (X[b,t,c]·L[c]·0.1)·W1[c,f])·0.05),   p(z) = z·z·0.1 + z·0.1.
  Each grid point (b, tb) of the 4 × 8 grid reads rows 256·tb … 256·tb + 255 of batch entry b and the scale and
  weights whole, and writes the same rows of the output; an output row depends on its own input row only, so the
  32 row blocks are restrictions of one function of the whole arrays, and they cover the output array.
-/
import proofs.«154601_j7679401525971_1_alg».proof.Proof.KI.R2
import proofs.«154601_j7679401525971_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.H
open scoped BigOperators

/-! ## The two matrix products at an entry -/

/-- The first product's operand indices, axis by axis: output (p, f) and contraction position q read the left operand
    at (p, q) and the right at (q, f). -/
theorem mlp_fc1_lhs_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem mlp_fc1_lhs_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem mlp_fc1_rhs_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem mlp_fc1_rhs_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The first product into a zero accumulator, at (p, f): the sum over the 1024 input channels. -/
theorem mlp_fc1_apply (l : FVec Ideal S256x1024 .bf16) (r : FVec Ideal S1024x2048 .bf16) (p : Fin 256) (f : Fin 2048) :
    matmul dot_S256x1024_S1024x2048_S256x2048_1_0_0_1_n_n none l r (constant (F := Ideal) S256x2048 .f32 0x00000000#32) (ix2 p f)
      = ∑ c : Fin 1024, l (ix2 p c) * r (ix2 c f) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p f) ((contrEquiv1 dot_S256x1024_S1024x2048_S256x2048_1_0_0_1_n_n 1024 rfl rfl).symm k) = ix2 p k := funext fun a => Fin.ext (by
    match a with
    | ⟨0, _⟩ => exact mlp_fc1_lhs_0 _ _
    | ⟨1, _⟩ => exact (mlp_fc1_lhs_1 _ _).trans hk)
  have er : dot_S256x1024_S1024x2048_S256x2048_1_0_0_1_n_n.rhsIdx (ix2 p f) ((contrEquiv1 dot_S256x1024_S1024x2048_S256x2048_1_0_0_1_n_n 1024 rfl rfl).symm k) = ix2 k f := funext fun a => Fin.ext (by
    match a with
    | ⟨0, _⟩ => exact (mlp_fc1_rhs_0 _ _).trans hk
    | ⟨1, _⟩ => exact mlp_fc1_rhs_1 _ _)
  rw [el, er]

/-- The second product's operand indices: output (p, c) and contraction position q read the left operand at (p, q)
    and the right at (q, c). -/
theorem mlp_fc2_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem mlp_fc2_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem mlp_fc2_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem mlp_fc2_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- The second product into a zero accumulator, at (p, c): the sum over the 2048 hidden channels. -/
theorem mlp_fc2_apply (l : FVec Ideal S256x2048 .bf16) (r : FVec Ideal S2048x1024 .bf16) (p : Fin 256) (c : Fin 1024) :
    matmul dot_S256x2048_S2048x1024_S256x1024_1_0_0_1_n_n none l r (constant (F := Ideal) S256x1024 .f32 0x00000000#32) (ix2 p c)
      = ∑ f : Fin 2048, l (ix2 p f) * r (ix2 f c) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p c) ((contrEquiv1 dot_S256x2048_S2048x1024_S256x1024_1_0_0_1_n_n 2048 rfl rfl).symm k) = ix2 p k := funext fun a => Fin.ext (by
    match a with
    | ⟨0, _⟩ => exact mlp_fc2_lhs_0 _ _
    | ⟨1, _⟩ => exact (mlp_fc2_lhs_1 _ _).trans hk)
  have er : dot_S256x2048_S2048x1024_S256x1024_1_0_0_1_n_n.rhsIdx (ix2 p c) ((contrEquiv1 dot_S256x2048_S2048x1024_S256x1024_1_0_0_1_n_n 2048 rfl rfl).symm k) = ix2 k c := funext fun a => Fin.ext (by
    match a with
    | ⟨0, _⟩ => exact (mlp_fc2_rhs_0 _ _).trans hk
    | ⟨1, _⟩ => exact mlp_fc2_rhs_1 _ _)
  rw [el, er]

/-! ## The body's value at an entry of its block -/

/-- The scaled input row of the block, as the first product's left operand: entry (p, c). -/
theorem mlp_h_apply (x0 : Vec Ideal S1x256x1024 .f32) (x1 : Vec Ideal S1024 .f32) (p : Fin 256) (c : Fin 1024) :
    (truncf .bf16 (mulf (mulf (shapeCast S256x1024 x0 shapeCasts_S1x256x1024_S256x1024)
        (broadcastTo S256x1024 (shapeCast S1x1024 x1 shapeCasts_S1024_S1x1024) broadcasts_S1x1024_S256x1024))
        (broadcast S256x1024 (Scalar.ofBits (F := Ideal) .f32 0x3DCCCCCD#32))) bitsLt_bf16_f32 : FVec Ideal S256x1024 .bf16) (ix2 p c)
      = x0 (ix3 (0 : Fin 1) p c) * x1 (ix1 c) * Spec.c01 := by
  rw [truncf_apply, mulf_apply, mulf_apply, broadcast_apply, shapeCast_1ab_ab_apply, broadcastTo_1b_ab_apply, shapeCast_a_1a_apply]
  rfl

/-- The body's value at entry (·, p, c) of its block, from the four loaded buffers: the blend of the input entry
    with the second product of the activated first product of the scaled input row. -/
theorem mlp_pay_apply (x0 : Vec Ideal S1x256x1024 .f32) (x1 : Vec Ideal S1024 .f32) (x2 : Vec Ideal S1024x2048 .bf16)
    (x3 : Vec Ideal S2048x1024 .bf16) (u : Fin 1) (p : Fin 256) (cc : Fin 1024) :
    k2_pay1 (F := Ideal) x0 x1 x2 x3 (ix3 u p cc)
      = (x0 (ix3 (0 : Fin 1) p cc) * Spec.c05
          + ((∑ f : Fin 2048, Spec.poly ((∑ c : Fin 1024, (x0 (ix3 (0 : Fin 1) p c) * x1 (ix1 c) * Spec.c01) * x2 (ix2 c f)) * Spec.c005)
                * x3 (ix2 f cc)) * Spec.c005) * Spec.c05) * Spec.c01 := by
  unfold k2_pay1
  simp only [shapeCast_self]
  rw [shapeCast_ab_1ab_apply]
  simp only [mulf_apply, addf_apply, broadcast_apply, truncf_apply]
  rw [mlp_fc2_apply, shapeCast_1ab_ab_apply]
  simp only [mulf_apply, addf_apply, broadcast_apply, truncf_apply, mlp_fc1_apply]
  simp only [shapeCast_1ab_ab_apply, broadcastTo_1b_ab_apply, shapeCast_a_1a_apply]
  unfold Spec.poly
  rfl

/-! ## From blocks to the array -/

-- the TensorCore's buffer contents when the stage is entered
variable (V : (c : Dev nD) → (b : Ref sig .tc) → Buf (Elt Ideal) ((c : Thread nD τ).loc b))

theorem mlp_hz1 : (![0] : Fin 1 → Nat) = fun _ => 0 := funext fun a => by fin_cases a <;> rfl
theorem mlp_hz2 : (![0, 0] : Fin 2 → Nat) = fun _ => 0 := funext fun a => by fin_cases a <;> rfl
theorem mlp_hz3 : (![0, 0, 0] : Fin 3 → Nat) = fun _ => 0 := funext fun a => by fin_cases a <;> rfl

/-- The printed index maps over the grid: point t = 8·b + tb takes row block (b, tb) of the input and of the
    output, and the one block of the scale and of each weight. -/
theorem mlp_idx_facts : ∀ t : Fin cfg2.N,
    win2_0.index t (0 : Fin 3) = t.val / 8 ∧ win2_0.index t (1 : Fin 3) = t.val % 8 ∧ win2_0.index t (2 : Fin 3) = 0
    ∧ win2_1.index t (0 : Fin 1) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val / 8 ∧ win2_4.index t (1 : Fin 3) = t.val % 8 ∧ win2_4.index t (2 : Fin 3) = 0 :=
  (by decide +kernel : ∀ t : Fin grid2.N, _)

theorem mlp_lt32 (t : Fin cfg2.N) : t.val < 32 := lt_of_lt_of_eq t.isLt N_2

/-- The batch entry of point `t`, and the array row of row `p` of its block. -/
def mlp_b (t : Fin cfg2.N) : Fin 4 := ⟨t.val / 8, by have := mlp_lt32 t; omega⟩
def mlp_r (t : Fin cfg2.N) (p : Fin 256) : Fin 2048 := ⟨t.val % 8 * 256 + p.val, by have := p.isLt; omega⟩

/-- The stage's result as ONE function of the arrays it finds, entry by entry. -/
def x3G (c : Dev nD) : S4x2048x1024.Idx → EReal := fun i =>
  Spec.mlp (Spec.rd3 (V c main_v13)) (Spec.rd1 (V c main_arg8)) (Spec.rd2 (V c main_v9)) (Spec.rd2 (V c main_v11)) (i 0) (i 1) (i 2)

/-- The input window's block at point `t`: rows `256·(t % 8) …` of batch entry `t / 8`. -/
theorem mlp_iblk0_apply (c : Dev nD) (t : Fin cfg2.N) (p : Fin 256) (k : Fin 1024) :
    (iblk2 V c 0 t : Vec Ideal S1x256x1024 .f32) (ix3 (0 : Fin 1) p k)
      = (V c main_v13 : S4x2048x1024.Idx → EReal) (ix3 (mlp_b t) (mlp_r t p) k) := by
  obtain ⟨e0, e1, e2, -⟩ := mlp_idx_facts t
  unfold iblk2
  rw [View.read_apply]
  show V c main_v13 _ = V c main_v13 _
  congr 1
  funext a
  apply Fin.ext
  match a with
  | ⟨0, _⟩ => show win2_0.index t (0 : Fin 3) * 1 + 1 * 0 = t.val / 8; rw [e0]; omega
  | ⟨1, _⟩ => show win2_0.index t (1 : Fin 3) * 256 + 1 * p.val = t.val % 8 * 256 + p.val; rw [e1]; omega
  | ⟨2, _⟩ => show win2_0.index t (2 : Fin 3) * 1024 + 1 * k.val = k.val; rw [e2]; omega

/-- The scale's and the weights' windows hold their arrays whole at every point. -/
theorem mlp_iblk1_apply (c : Dev nD) (t : Fin cfg2.N) (k : Fin 1024) :
    (iblk2 V c 1 t : Vec Ideal S1024 .f32) (ix1 k) = (V c main_arg8 : S1024.Idx → EReal) (ix1 k) := by
  obtain ⟨-, -, -, e3, -⟩ := mlp_idx_facts t
  unfold iblk2
  rw [View.read_apply]
  show V c main_arg8 _ = V c main_arg8 _
  congr 1
  funext a
  apply Fin.ext
  match a with
  | ⟨0, _⟩ => show win2_1.index t (0 : Fin 1) * 1024 + 1 * k.val = k.val; rw [e3]; omega

theorem mlp_iblk2_apply (c : Dev nD) (t : Fin cfg2.N) (k : Fin 1024) (f : Fin 2048) :
    (iblk2 V c 2 t : Vec Ideal S1024x2048 .bf16) (ix2 k f) = (V c main_v9 : S1024x2048.Idx → EReal) (ix2 k f) := by
  obtain ⟨-, -, -, -, e4, e5, -⟩ := mlp_idx_facts t
  unfold iblk2
  rw [View.read_apply]
  show V c main_v9 _ = V c main_v9 _
  congr 1
  funext a
  apply Fin.ext
  match a with
  | ⟨0, _⟩ => show win2_2.index t (0 : Fin 2) * 1024 + 1 * k.val = k.val; rw [e4]; omega
  | ⟨1, _⟩ => show win2_2.index t (1 : Fin 2) * 2048 + 1 * f.val = f.val; rw [e5]; omega

theorem mlp_iblk3_apply (c : Dev nD) (t : Fin cfg2.N) (f : Fin 2048) (k : Fin 1024) :
    (iblk2 V c 3 t : Vec Ideal S2048x1024 .bf16) (ix2 f k) = (V c main_v11 : S2048x1024.Idx → EReal) (ix2 f k) := by
  obtain ⟨-, -, -, -, -, -, e6, e7, -⟩ := mlp_idx_facts t
  unfold iblk2
  rw [View.read_apply]
  show V c main_v11 _ = V c main_v11 _
  congr 1
  funext a
  apply Fin.ext
  match a with
  | ⟨0, _⟩ => show win2_3.index t (0 : Fin 2) * 2048 + 1 * f.val = f.val; rw [e6]; omega
  | ⟨1, _⟩ => show win2_3.index t (1 : Fin 2) * 1024 + 1 * k.val = k.val; rw [e7]; omega

/-- An entry of the output window's block at point `t` sits in the array at the same rows of the same batch entry. -/
theorem mlp_emb_out (t : Fin cfg2.N) (u : Fin 1) (p : Fin 256) (k : Fin 1024) :
    ((cfg2.win 4).blk t).view.emb (ix3 u p k) = (ix3 (mlp_b t) (mlp_r t p) k : S4x2048x1024.Idx) := by
  obtain ⟨-, -, -, -, -, -, -, -, e8, e9, e10⟩ := mlp_idx_facts t
  have hu : u.val = 0 := by omega
  funext a
  apply Fin.ext
  match a with
  | ⟨0, _⟩ => show win2_4.index t (0 : Fin 3) * 1 + 1 * u.val = t.val / 8; rw [e8, hu]; omega
  | ⟨1, _⟩ => show win2_4.index t (1 : Fin 3) * 256 + 1 * p.val = t.val % 8 * 256 + p.val; rw [e9]; omega
  | ⟨2, _⟩ => show win2_4.index t (2 : Fin 3) * 1024 + 1 * k.val = k.val; rw [e10]; omega

/-- What point `t` writes back is block `t` of `x3G`: the body's value of the four blocks, each read where
    the output's rows say. -/
theorem mlp_flushed_eq (c : Dev nD) (t : Fin cfg2.N) :
    (dat2 (F := Ideal) V c).flushed 4 t = ((cfg2.win 4).blk t).view.read (Elt Ideal) (x3G V c) := by
  show (cfg2.win 4).cut (grid2.coords t) ((dat2 (F := Ideal) V c).after 4 t) = _
  rw [after2_4]
  unfold out2_4
  rw [View.canon_unit_zero mlp_hz3]
  simp only [View.ld_unit_zero (S := S1x256x1024) mlp_hz3, View.ld_unit_zero (S := S1024) mlp_hz1,
    View.ld_unit_zero (S := S1024x2048) mlp_hz2, View.ld_unit_zero (S := S2048x1024) mlp_hz2]
  funext j
  obtain ⟨u, p, cc, rfl⟩ : ∃ (u : Fin 1) (p : Fin 256) (cc : Fin 1024), j = ix3 u p cc := ⟨j 0, j 1, j 2, eq_ix3 j⟩
  rw [View.read_apply, mlp_emb_out]
  show k2_pay1 (F := Ideal) (iblk2 V c 0 t) (iblk2 V c 1 t) (iblk2 V c 2 t) (iblk2 V c 3 t) (ix3 u p cc) = _
  refine (mlp_pay_apply (iblk2 V c 0 t) (iblk2 V c 1 t) (iblk2 V c 2 t) (iblk2 V c 3 t) u p cc).trans ?_
  simp only [mlp_iblk0_apply V c t, mlp_iblk1_apply V c t, mlp_iblk2_apply V c t, mlp_iblk3_apply V c t]
  show _ = x3G V c (ix3 (mlp_b t) (mlp_r t p) cc)
  unfold x3G Spec.mlp Spec.blend2 Spec.hidden Spec.hN
  rfl

/-- An entry of the array is in point `t`'s block iff each coordinate is in the block's range on its axis. -/
theorem mlp_mem_blk (t : Fin cfg2.N) (i : S4x2048x1024.Idx) :
    i ∈ ((cfg2.win 4).blk t).view.set ↔ ∀ a : Fin 3, win2_4.index t a * S1x256x1024.size a ≤ (i a).val
      ∧ (i a).val < win2_4.index t a * S1x256x1024.size a + S1x256x1024.size a := by
  show i ∈ ((View.whole main_v14).slice (win2_4.rect t)).set ↔ _
  rw [View.set_slice_whole, Rect.mem_set_unit]
  exact Iff.rfl

/-- Every entry (b, r, ·) of the output array is in the block of the point 8·b + r / 256, which writes it back. -/
theorem mlp_cover (i : S4x2048x1024.Idx) :
    ∃ t : Fin cfg2.N, (cfg2.win 4).flush t = true ∧ i ∈ ((cfg2.win 4).blk t).view.set := by
  have h0 : (i 0).val < 4 := (i 0).isLt
  have h1 : (i 1).val < 2048 := (i 1).isLt
  have h2 : (i 2).val < 1024 := (i 2).isLt
  obtain ⟨t, ht⟩ : ∃ t : Fin cfg2.N, t.val = (i 0).val * 8 + (i 1).val / 256 :=
    ⟨⟨(i 0).val * 8 + (i 1).val / 256, lt_of_lt_of_eq (show (i 0).val * 8 + (i 1).val / 256 < 32 by omega) N_2.symm⟩, rfl⟩
  obtain ⟨-, -, -, -, -, -, -, -, e8, e9, e10⟩ := mlp_idx_facts t
  refine ⟨t, flush2_4 t, ?_⟩
  rw [mlp_mem_blk]
  intro a
  match a with
  | ⟨0, _⟩ => show win2_4.index t (0 : Fin 3) * 1 ≤ (i 0).val ∧ (i 0).val < win2_4.index t (0 : Fin 3) * 1 + 1; rw [e8, ht]; omega
  | ⟨1, _⟩ => show win2_4.index t (1 : Fin 3) * 256 ≤ (i 1).val ∧ (i 1).val < win2_4.index t (1 : Fin 3) * 256 + 256; rw [e9, ht]; omega
  | ⟨2, _⟩ => show win2_4.index t (2 : Fin 3) * 1024 ≤ (i 2).val ∧ (i 2).val < win2_4.index t (2 : Fin 3) * 1024 + 1024; rw [e10]; omega

/-- The output array after the stage's last point is `x3G`. -/
theorem mlp_final (c : Dev nD) : (dat2 (F := Ideal) V c).arrAt 4 cfg2.N = x3G V c :=
  (dat2 (F := Ideal) V c).arrAt_eq_of_cover 4 (x3G V c) (fun t _ => mlp_flushed_eq V c t) mlp_cover

/-- THE STAGE'S VALUE: entry (b, t, c) of the output array after the stage, for any entry contents `V`, is the MLP
    stage's function of the stage's input array, the scale and the two weights as `V` holds them. -/
theorem x3_val (c : Dev nD) (b : Fin 4) (t : Fin 2048) (cc : Fin 1024) :
    ((dat2 (F := Ideal) V c).arrAt 4 cfg2.N : S4x2048x1024.Idx → EReal) (ix3 b t cc)
      = Spec.mlp (Spec.rd3 (V c main_v13)) (Spec.rd1 (V c main_arg8)) (Spec.rd2 (V c main_v9)) (Spec.rd2 (V c main_v11)) b t cc := by
  rw [mlp_final]
  rfl

end Cert.Val

end
-- ==== Proof.Ref.lean ====
import proofs.«154601_j7679401525971_1_alg».proof.Proof.Gen.ReferenceIdeal.Run
import proofs.«154601_j7679401525971_1_alg».proof.Proof.Gen.ReferenceIdeal.Read
import proofs.«154601_j7679401525971_1_alg».proof.Proof.Spec
import Idealize.ShloMosaic.Lib.ValueIdx
import Idealize.ShloMosaic.Lib.Pipeline.Value
import Idealize.ShloMosaic.PureOps.Ideal.Laws

/-!
  The reference program's result, read at an index, is the block of `Spec`: one stage of the reference at a time.
  Each stage lemma reads one named intermediate array of the reference at the index `ix3 b t c` and says it is the
  corresponding function of `Spec` at the coordinates `b t c`. An elementwise operation reads its operands at the
  same index; a broadcast of a scalar is the scalar; a contraction is the sum over the contracted coordinate of the
  left operand's row against the right operand's row. Every weight array of the reference is held "output channel ×
  input channel", so it enters `Spec` read transposed.
-/

noncomputable section

namespace Cert.Val

open Cert.ReferenceIdeal Cert.ReferenceIdeal.Gen Cert.ReferenceIdeal.Read Idealize.ShloMosaic Idealize.ShloMosaic.ValueIdx

variable (x0 : (⟨S4x2048x1024, .f32⟩ : BufTy).Contents (Elt Ideal))
  (x1 x2 x3 x4 : (⟨S1024x1024, .f32⟩ : BufTy).Contents (Elt Ideal))
  (x5 : (⟨S2048x1024, .f32⟩ : BufTy).Contents (Elt Ideal))
  (x6 : (⟨S1024x2048, .f32⟩ : BufTy).Contents (Elt Ideal))
  (x7 x8 : (⟨S1024, .f32⟩ : BufTy).Contents (Elt Ideal))

/-- `%4`: the input scaled by the first per-channel vector and by 0.1. -/
theorem h_stage (b : Fin 4) (t : Fin 2048) (c : Fin 1024) :
    val_main_v4 (F := Ideal) x0 x7 (ix3 b t c) = Spec.hN (Spec.rd3 x0) (Spec.rd1 x7) b t c := by
  rw [val_main_v4_apply, val_main_v2_apply, val_main_v1_apply, val_main_v0_apply, val_main_v3_apply,
    val_main_cst_apply]
  have e : idx_main_v0 (idx_main_v1 (ix3 b t c)) = ix1 c := funext fun a => by
    match a with | ⟨0, _⟩ => rfl
  rw [e]
  simp only [Ideal.mulf_def, Ideal.ofBits_def]
  rfl

/-- The left index of a contraction of a rank-3 array's last axis, at `ix3 b t d`, is `ix3 b t k`. -/
theorem lidx5 (b : Fin 4) (t : Fin 2048) (d k : Fin 1024) : lidx_main_v5 (ix3 b t d) k = ix3 b t k :=
  funext fun a => by match a with | ⟨0, _⟩ => rfl | ⟨1, _⟩ => rfl | ⟨2, _⟩ => rfl
theorem ridx5 (b : Fin 4) (t : Fin 2048) (d k : Fin 1024) : ridx_main_v5 (ix3 b t d) k = ix2 d k :=
  funext fun a => by match a with | ⟨0, _⟩ => rfl | ⟨1, _⟩ => rfl

/-- `%7`: the query projection. -/
theorem q_stage (b : Fin 4) (t : Fin 2048) (d : Fin 1024) :
    val_main_v7 (F := Ideal) x0 x1 x7 (ix3 b t d)
      = Spec.proj (Spec.rd3 x0) (Spec.rd1 x7) (Spec.rd2T x1) Spec.c001 b t d := by
  rw [val_main_v7_apply, val_main_v5_apply, val_main_v6_apply, val_main_cst_0_apply]
  simp only [Ideal.mulf_def, Ideal.ofBits_def]
  unfold Spec.proj
  congr 1
  refine Finset.sum_congr rfl fun k _ => ?_
  rw [lidx5, ridx5, h_stage]

theorem lidx8 (b : Fin 4) (t : Fin 2048) (d k : Fin 1024) : lidx_main_v8 (ix3 b t d) k = ix3 b t k :=
  funext fun a => by match a with | ⟨0, _⟩ => rfl | ⟨1, _⟩ => rfl | ⟨2, _⟩ => rfl
theorem ridx8 (b : Fin 4) (t : Fin 2048) (d k : Fin 1024) : ridx_main_v8 (ix3 b t d) k = ix2 d k :=
  funext fun a => by match a with | ⟨0, _⟩ => rfl | ⟨1, _⟩ => rfl
theorem lidx11 (b : Fin 4) (t : Fin 2048) (d k : Fin 1024) : lidx_main_v11 (ix3 b t d) k = ix3 b t k :=
  funext fun a => by match a with | ⟨0, _⟩ => rfl | ⟨1, _⟩ => rfl | ⟨2, _⟩ => rfl
theorem ridx11 (b : Fin 4) (t : Fin 2048) (d k : Fin 1024) : ridx_main_v11 (ix3 b t d) k = ix2 d k :=
  funext fun a => by match a with | ⟨0, _⟩ => rfl | ⟨1, _⟩ => rfl

/-- `%10`: the key projection. -/
theorem k_stage (b : Fin 4) (t : Fin 2048) (d : Fin 1024) :
    val_main_v10 (F := Ideal) x0 x2 x7 (ix3 b t d)
      = Spec.proj (Spec.rd3 x0) (Spec.rd1 x7) (Spec.rd2T x2) Spec.c001 b t d := by
  rw [val_main_v10_apply, val_main_v8_apply, val_main_v9_apply, val_main_cst_1_apply]
  simp only [Ideal.mulf_def, Ideal.ofBits_def]
  unfold Spec.proj
  congr 1
  refine Finset.sum_congr rfl fun k _ => ?_
  rw [lidx8, ridx8, h_stage]

/-- `%13`: the value projection. -/
theorem v_stage (b : Fin 4) (t : Fin 2048) (d : Fin 1024) :
    val_main_v13 (F := Ideal) x0 x3 x7 (ix3 b t d)
      = Spec.proj (Spec.rd3 x0) (Spec.rd1 x7) (Spec.rd2T x3) Spec.c01 b t d := by
  rw [val_main_v13_apply, val_main_v11_apply, val_main_v12_apply, val_main_cst_2_apply]
  simp only [Ideal.mulf_def, Ideal.ofBits_def]
  unfold Spec.proj
  congr 1
  refine Finset.sum_congr rfl fun k _ => ?_
  rw [lidx11, ridx11, h_stage]

/-- The contraction of queries against keys reads the query row `t` and the key row `u` of batch `b`. -/
theorem lidx14 (b : Fin 4) (t u : Fin 2048) (k : Fin 1024) : lidx_main_v14 (ix3 b t u) k = ix3 b t k :=
  funext fun a => by match a with | ⟨0, _⟩ => rfl | ⟨1, _⟩ => rfl | ⟨2, _⟩ => rfl
theorem ridx14 (b : Fin 4) (t u : Fin 2048) (k : Fin 1024) : ridx_main_v14 (ix3 b t u) k = ix3 b u k :=
  funext fun a => by match a with | ⟨0, _⟩ => rfl | ⟨1, _⟩ => rfl | ⟨2, _⟩ => rfl

/-- `%22`: the activated scores. -/
theorem s_stage (b : Fin 4) (t u : Fin 2048) :
    val_main_v22 (F := Ideal) x0 x1 x2 x7 (ix3 b t u)
      = Spec.score (Spec.proj (Spec.rd3 x0) (Spec.rd1 x7) (Spec.rd2T x1) Spec.c001) (Spec.proj (Spec.rd3 x0) (Spec.rd1 x7) (Spec.rd2T x2) Spec.c001) b t u := by
  have hs : (∑ k : Fin 1024, val_main_v7 (F := Ideal) x0 x1 x7 (lidx_main_v14 (ix3 b t u) k)
        * val_main_v10 (F := Ideal) x0 x2 x7 (ridx_main_v14 (ix3 b t u) k))
      = ∑ d : Fin 1024, (Spec.proj (Spec.rd3 x0) (Spec.rd1 x7) (Spec.rd2T x1) Spec.c001) b t d * (Spec.proj (Spec.rd3 x0) (Spec.rd1 x7) (Spec.rd2T x2) Spec.c001) b u d :=
    Finset.sum_congr rfl fun k _ => by rw [lidx14, ridx14, q_stage, k_stage]
  rw [val_main_v22_apply, val_main_v19_apply, val_main_v21_apply, val_main_v17_apply, val_main_v16_apply,
    val_main_v14_apply, val_main_v15_apply, val_main_cst_3_apply, val_main_v18_apply, val_main_cst_4_apply,
    val_main_v20_apply, val_main_cst_5_apply, hs]
  simp only [Ideal.mulf_def, Ideal.addf_def, Ideal.ofBits_def]
  rfl

/-- The contraction of scores against values reads the score row `t` and the value column `d` of batch `b`. -/
theorem lidx23 (b : Fin 4) (t : Fin 2048) (d : Fin 1024) (k : Fin 2048) : lidx_main_v23 (ix3 b t d) k = ix3 b t k :=
  funext fun a => by match a with | ⟨0, _⟩ => rfl | ⟨1, _⟩ => rfl | ⟨2, _⟩ => rfl
theorem ridx23 (b : Fin 4) (t : Fin 2048) (d : Fin 1024) (k : Fin 2048) : ridx_main_v23 (ix3 b t d) k = ix3 b k d :=
  funext fun a => by match a with | ⟨0, _⟩ => rfl | ⟨1, _⟩ => rfl | ⟨2, _⟩ => rfl

/-- `%25`: the attention output, all keys in one sum. -/
theorem a_stage (b : Fin 4) (t : Fin 2048) (d : Fin 1024) :
    val_main_v25 (F := Ideal) x0 x1 x2 x3 x7 (ix3 b t d)
      = Spec.attn (Spec.score (Spec.proj (Spec.rd3 x0) (Spec.rd1 x7) (Spec.rd2T x1) Spec.c001) (Spec.proj (Spec.rd3 x0) (Spec.rd1 x7) (Spec.rd2T x2) Spec.c001)) (Spec.proj (Spec.rd3 x0) (Spec.rd1 x7) (Spec.rd2T x3) Spec.c01) b t d := by
  rw [val_main_v25_apply, val_main_v23_apply, val_main_v24_apply, val_main_cst_6_apply]
  simp only [Ideal.mulf_def, Ideal.ofBits_def]
  unfold Spec.attn
  congr 1
  refine Finset.sum_congr rfl fun k _ => ?_
  rw [lidx23, ridx23, s_stage, v_stage]

theorem lidx26 (b : Fin 4) (t : Fin 2048) (c k : Fin 1024) : lidx_main_v26 (ix3 b t c) k = ix3 b t k :=
  funext fun a => by match a with | ⟨0, _⟩ => rfl | ⟨1, _⟩ => rfl | ⟨2, _⟩ => rfl
theorem ridx26 (b : Fin 4) (t : Fin 2048) (c k : Fin 1024) : ridx_main_v26 (ix3 b t c) k = ix2 c k :=
  funext fun a => by match a with | ⟨0, _⟩ => rfl | ⟨1, _⟩ => rfl

/-- `%35`: the first residual blend, the block's intermediate row. -/
theorem x2_stage (b : Fin 4) (t : Fin 2048) (c : Fin 1024) :
    val_main_v35 (F := Ideal) x0 x1 x2 x3 x4 x7 (ix3 b t c)
      = Spec.attnStage (Spec.rd3 x0) (Spec.proj (Spec.rd3 x0) (Spec.rd1 x7) (Spec.rd2T x1) Spec.c001) (Spec.proj (Spec.rd3 x0) (Spec.rd1 x7) (Spec.rd2T x2) Spec.c001) (Spec.proj (Spec.rd3 x0) (Spec.rd1 x7) (Spec.rd2T x3) Spec.c01) (Spec.rd2T x4) b t c := by
  have hs : (∑ k : Fin 1024, val_main_v25 (F := Ideal) x0 x1 x2 x3 x7 (lidx_main_v26 (ix3 b t c) k)
        * x4 (ridx_main_v26 (ix3 b t c) k))
      = ∑ d : Fin 1024, (Spec.attn (Spec.score (Spec.proj (Spec.rd3 x0) (Spec.rd1 x7) (Spec.rd2T x1) Spec.c001) (Spec.proj (Spec.rd3 x0) (Spec.rd1 x7) (Spec.rd2T x2) Spec.c001)) (Spec.proj (Spec.rd3 x0) (Spec.rd1 x7) (Spec.rd2T x3) Spec.c01)) b t d * Spec.rd2T x4 d c :=
    Finset.sum_congr rfl fun k _ => by rw [lidx26, ridx26, a_stage]
  rw [val_main_v35_apply, val_main_v33_apply, val_main_v30_apply, val_main_v32_apply, val_main_v28_apply,
    val_main_v26_apply, val_main_v27_apply, val_main_cst_7_apply, val_main_v29_apply, val_main_cst_8_apply,
    val_main_v31_apply, val_main_cst_9_apply, val_main_v34_apply, val_main_cst_10_apply, hs]
  simp only [Ideal.mulf_def, Ideal.addf_def, Ideal.ofBits_def]
  rfl

/-- `%40`: the intermediate row scaled by the second per-channel vector and by 0.1. -/
theorem h2_stage (b : Fin 4) (t : Fin 2048) (c : Fin 1024) :
    val_main_v40 (F := Ideal) x0 x1 x2 x3 x4 x7 x8 (ix3 b t c)
      = Spec.hN (Spec.attnStage (Spec.rd3 x0) (Spec.proj (Spec.rd3 x0) (Spec.rd1 x7) (Spec.rd2T x1) Spec.c001) (Spec.proj (Spec.rd3 x0) (Spec.rd1 x7) (Spec.rd2T x2) Spec.c001) (Spec.proj (Spec.rd3 x0) (Spec.rd1 x7) (Spec.rd2T x3) Spec.c01) (Spec.rd2T x4)) (Spec.rd1 x8) b t c := by
  rw [val_main_v40_apply, val_main_v38_apply, val_main_v37_apply, val_main_v36_apply, val_main_v39_apply,
    val_main_cst_11_apply, x2_stage]
  have e : idx_main_v36 (idx_main_v37 (ix3 b t c)) = ix1 c := funext fun a => by
    match a with | ⟨0, _⟩ => rfl
  rw [e]
  simp only [Ideal.mulf_def, Ideal.ofBits_def]
  rfl

theorem lidx41 (b : Fin 4) (t f : Fin 2048) (k : Fin 1024) : lidx_main_v41 (ix3 b t f) k = ix3 b t k :=
  funext fun a => by match a with | ⟨0, _⟩ => rfl | ⟨1, _⟩ => rfl | ⟨2, _⟩ => rfl
theorem ridx41 (b : Fin 4) (t f : Fin 2048) (k : Fin 1024) : ridx_main_v41 (ix3 b t f) k = ix2 f k :=
  funext fun a => by match a with | ⟨0, _⟩ => rfl | ⟨1, _⟩ => rfl

/-- `%49`: the hidden layer. -/
theorem u_stage (b : Fin 4) (t f : Fin 2048) :
    val_main_v49 (F := Ideal) x0 x1 x2 x3 x4 x5 x7 x8 (ix3 b t f)
      = Spec.hidden (Spec.attnStage (Spec.rd3 x0) (Spec.proj (Spec.rd3 x0) (Spec.rd1 x7) (Spec.rd2T x1) Spec.c001) (Spec.proj (Spec.rd3 x0) (Spec.rd1 x7) (Spec.rd2T x2) Spec.c001) (Spec.proj (Spec.rd3 x0) (Spec.rd1 x7) (Spec.rd2T x3) Spec.c01) (Spec.rd2T x4)) (Spec.rd1 x8) (Spec.rd2T x5) b t f := by
  have hs : (∑ k : Fin 1024, val_main_v40 (F := Ideal) x0 x1 x2 x3 x4 x7 x8 (lidx_main_v41 (ix3 b t f) k)
        * x5 (ridx_main_v41 (ix3 b t f) k))
      = ∑ c : Fin 1024, Spec.hN (Spec.attnStage (Spec.rd3 x0) (Spec.proj (Spec.rd3 x0) (Spec.rd1 x7) (Spec.rd2T x1) Spec.c001) (Spec.proj (Spec.rd3 x0) (Spec.rd1 x7) (Spec.rd2T x2) Spec.c001) (Spec.proj (Spec.rd3 x0) (Spec.rd1 x7) (Spec.rd2T x3) Spec.c01) (Spec.rd2T x4)) (Spec.rd1 x8) b t c * Spec.rd2T x5 c f :=
    Finset.sum_congr rfl fun k _ => by rw [lidx41, ridx41, h2_stage]
  rw [val_main_v49_apply, val_main_v46_apply, val_main_v48_apply, val_main_v44_apply, val_main_v43_apply,
    val_main_v41_apply, val_main_v42_apply, val_main_cst_12_apply, val_main_v45_apply, val_main_cst_13_apply,
    val_main_v47_apply, val_main_cst_14_apply, hs]
  simp only [Ideal.mulf_def, Ideal.addf_def, Ideal.ofBits_def]
  rfl

theorem lidx50 (b : Fin 4) (t : Fin 2048) (c : Fin 1024) (k : Fin 2048) : lidx_main_v50 (ix3 b t c) k = ix3 b t k :=
  funext fun a => by match a with | ⟨0, _⟩ => rfl | ⟨1, _⟩ => rfl | ⟨2, _⟩ => rfl
theorem ridx50 (b : Fin 4) (t : Fin 2048) (c : Fin 1024) (k : Fin 2048) : ridx_main_v50 (ix3 b t c) k = ix2 c k :=
  funext fun a => by match a with | ⟨0, _⟩ => rfl | ⟨1, _⟩ => rfl

/-- `%59`, the reference's result: the whole block, the keys summed at once. -/
theorem ref_val (b : Fin 4) (t : Fin 2048) (c : Fin 1024) :
    val_main_v59 (F := Ideal) x0 x1 x2 x3 x4 x5 x6 x7 x8 (ix3 b t c)
      = Spec.block (Spec.rd3 x0) (Spec.rd1 x7) (Spec.rd1 x8) (Spec.rd2T x1) (Spec.rd2T x2) (Spec.rd2T x3) (Spec.rd2T x4)
          (Spec.rd2T x5) (Spec.rd2T x6) b t c := by
  have hs : (∑ k : Fin 2048, val_main_v49 (F := Ideal) x0 x1 x2 x3 x4 x5 x7 x8 (lidx_main_v50 (ix3 b t c) k)
        * x6 (ridx_main_v50 (ix3 b t c) k))
      = ∑ f : Fin 2048, (Spec.hidden (Spec.attnStage (Spec.rd3 x0) (Spec.proj (Spec.rd3 x0) (Spec.rd1 x7) (Spec.rd2T x1) Spec.c001) (Spec.proj (Spec.rd3 x0) (Spec.rd1 x7) (Spec.rd2T x2) Spec.c001) (Spec.proj (Spec.rd3 x0) (Spec.rd1 x7) (Spec.rd2T x3) Spec.c01) (Spec.rd2T x4)) (Spec.rd1 x8) (Spec.rd2T x5)) b t f * Spec.rd2T x6 f c :=
    Finset.sum_congr rfl fun k _ => by rw [lidx50, ridx50, u_stage]
  rw [val_main_v59_apply, val_main_v57_apply, val_main_v54_apply, val_main_v56_apply, val_main_v52_apply,
    val_main_v50_apply, val_main_v51_apply, val_main_cst_15_apply, val_main_v53_apply, val_main_cst_16_apply,
    val_main_v55_apply, val_main_cst_17_apply, val_main_v58_apply, val_main_cst_18_apply, hs, x2_stage]
  simp only [Ideal.mulf_def, Ideal.addf_def, Ideal.ofBits_def]
  rfl

end Cert.Val

end
-- ==== Proof.SpecLaw.lean ====
/-
  The one law between the two arrangements of the attention sum. A factor that is a non-negative real distributes
  over every sum of extended reals (at an infinite summand both sides are the same infinity, or both are the
  convention's value of ⊤ + ⊥), so four key blocks, each scaled by 0.01 and added to a total that starts at zero,
  give the whole sum over the 2048 keys scaled once; the keys split as key = 512 · block + offset.
-/
import proofs.«154601_j7679401525971_1_alg».proof.Proof.Spec
import Mathlib.Algebra.BigOperators.Fin
import Mathlib.Data.Fintype.BigOperators
import Mathlib.Logic.Equiv.Fin.Basic

noncomputable section

namespace Cert.Spec

open Idealize.ShloMosaic

/-- The literal 0.01 denotes a non-negative real. -/
theorem c001_coe : ∃ r : ℝ, 0 ≤ r ∧ c001 = (r : EReal) := by
  have h : c001 = Ideal.ieee 8 23 (0x3C23D70A#32 : BitVec 32) := rfl
  rw [h]
  unfold Ideal.ieee
  simp only [show ((0x3C23D70A#32 : BitVec 32).extractLsb' 23 8).toNat = 120 from by decide,
      show ((0x3C23D70A#32 : BitVec 32).extractLsb' 0 23).toNat = 2348810 from by decide,
      show ((0x3C23D70A#32 : BitVec 32).extractLsb' (8 + 23) 1 == 1#1) = false from by decide]
  norm_num

/-- Scaling by 0.01 distributes over a sum of two extended reals. -/
theorem add_mul_c001 (y z : EReal) : (y + z) * c001 = y * c001 + z * c001 := by
  obtain ⟨r, hr, hc⟩ := c001_coe
  rw [hc]
  exact EReal.right_distrib_of_nonneg_of_ne_top (EReal.coe_nonneg.mpr hr) (EReal.coe_ne_top r) y z

/-- The keys are the pairs (block, offset). -/
def keyEquiv : Fin 4 × Fin 512 ≃ Fin 2048 where
  toFun p := keyAt p.1 p.2
  invFun u := (⟨u.val / 512, by omega⟩, ⟨u.val % 512, by omega⟩)
  left_inv p := by
    obtain ⟨⟨a, ha⟩, ⟨j, hj⟩⟩ := p
    simp only [keyAt, Prod.mk.injEq, Fin.mk.injEq]
    constructor <;> omega
  right_inv u := by
    apply Fin.ext
    simp only [keyAt]
    omega

/-- A sum over the keys is the sum over the blocks of the sums over the offsets. -/
theorem sum_keys (f : Fin 2048 → EReal) : ∑ u : Fin 2048, f u = ∑ kb : Fin 4, ∑ j : Fin 512, f (keyAt kb j) := by
  rw [← Equiv.sum_comp keyEquiv f, Fintype.sum_prod_type]
  rfl

/-- Accumulating the scaled key blocks from zero is scaling the whole sum once. -/
theorem attnAcc_eq (S : Fin 4 → Fin 2048 → Fin 2048 → EReal) (Vv : Fin 4 → Fin 2048 → Fin 1024 → EReal)
    (b : Fin 4) (t : Fin 2048) (d : Fin 1024) : attnAcc S Vv b t d = attn S Vv b t d := by
  unfold attnAcc attn attnPart
  rw [sum_keys (fun u => S b t u * Vv b u d), Fin.sum_univ_four, add_mul_c001, add_mul_c001, add_mul_c001, zero_add]

theorem attnAcc_eq' (S : Fin 4 → Fin 2048 → Fin 2048 → EReal) (Vv : Fin 4 → Fin 2048 → Fin 1024 → EReal) :
    attnAcc S Vv = attn S Vv := by
  funext b t d; exact attnAcc_eq S Vv b t d

/-- The two arrangements of the whole block are one function. -/
theorem blockAcc_eq (X : Fin 4 → Fin 2048 → Fin 1024 → EReal) (L1 L2 : Fin 1024 → EReal) (wq wk wv wo : Fin 1024 → Fin 1024 → EReal)
    (w1 : Fin 1024 → Fin 2048 → EReal) (w2 : Fin 2048 → Fin 1024 → EReal) :
    blockAcc X L1 L2 wq wk wv wo w1 w2 = block X L1 L2 wq wk wv wo w1 w2 := by
  unfold blockAcc block attnStageAcc attnStage
  rw [attnAcc_eq']

end Cert.Spec

end
-- ==== Proof.Bridge.lean ====
/-
  The two idealized programs compute one function of the nine arguments.
  The reference's result at an entry is the block of `Spec` of the argument arrays read at their coordinates, each
  weight read transposed. The kernels' result is reached in four steps, each a statement about what a stage finds
  in the buffers it reads and what it leaves in the arrays it writes: the host operations leave each weight
  transposed and do not write the arguments; the first launch leaves the three projections of the scaled input; the
  second leaves the attention stage's rows, the keys accumulated in four blocks; the third leaves the MLP stage's
  rows. A buffer a launch does not write holds afterwards what it held before, and an array a launch only reads
  is unchanged by it. Composing the four, the result array holds the block with the keys accumulated in four
  blocks, which is the block with the keys summed at once.
-/
import proofs.«154601_j7679401525971_1_alg».proof.Defs
import proofs.«154601_j7679401525971_1_alg».proof.Proof.Gen.KernelIdeal
import proofs.«154601_j7679401525971_1_alg».proof.Proof.Gen.ReferenceIdeal
import proofs.«154601_j7679401525971_1_alg».proof.Proof.Gen.ReferenceIdeal.Run
import proofs.«154601_j7679401525971_1_alg».proof.Proof.Gen.ReferenceIdeal.Read
import proofs.«154601_j7679401525971_1_alg».proof.Proof.Gen.Pre_finite_inputs
import proofs.«154601_j7679401525971_1_alg».proof.Proof.KI.Run
import proofs.«154601_j7679401525971_1_alg».proof.Proof.Host
import proofs.«154601_j7679401525971_1_alg».proof.Proof.Val0
import proofs.«154601_j7679401525971_1_alg».proof.Proof.Val1
import proofs.«154601_j7679401525971_1_alg».proof.Proof.Val2
import proofs.«154601_j7679401525971_1_alg».proof.Proof.Ref
import proofs.«154601_j7679401525971_1_alg».proof.Proof.Spec
import proofs.«154601_j7679401525971_1_alg».proof.Proof.SpecLaw
import Idealize.ShloMosaic.Lib.StableHlo.Run
import Idealize.ShloMosaic.Lib.ValueIdx
import Idealize.ShloMosaic.Lib.Pipeline.Value

noncomputable section

namespace Cert.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## What the first launch finds: the arguments as given, each weight transposed -/

theorem V1_arg0 : H.V1 m ρ c main_arg0 = m ((c : Thread nD τ).loc main_arg0) := host_arg0 (H.W0 m ρ c)
theorem V1_arg7 : H.V1 m ρ c main_arg7 = m ((c : Thread nD τ).loc main_arg7) := host_arg7 (H.W0 m ρ c)
theorem V1_arg8 : H.V1 m ρ c main_arg8 = m ((c : Thread nD τ).loc main_arg8) := host_arg8 (H.W0 m ρ c)

theorem V1_v1 : Spec.rd2 (H.V1 m ρ c main_v1 : S1024x1024.Idx → EReal) = (Spec.rd2T (m ((c : Thread nD τ).loc main_arg1) : S1024x1024.Idx → EReal)) := by
  funext a b; exact host_v1 (H.W0 m ρ c) a b
theorem V1_v3 : Spec.rd2 (H.V1 m ρ c main_v3 : S1024x1024.Idx → EReal) = (Spec.rd2T (m ((c : Thread nD τ).loc main_arg2) : S1024x1024.Idx → EReal)) := by
  funext a b; exact host_v3 (H.W0 m ρ c) a b
theorem V1_v5 : Spec.rd2 (H.V1 m ρ c main_v5 : S1024x1024.Idx → EReal) = (Spec.rd2T (m ((c : Thread nD τ).loc main_arg3) : S1024x1024.Idx → EReal)) := by
  funext a b; exact host_v5 (H.W0 m ρ c) a b
theorem V1_v7 : Spec.rd2 (H.V1 m ρ c main_v7 : S1024x1024.Idx → EReal) = (Spec.rd2T (m ((c : Thread nD τ).loc main_arg4) : S1024x1024.Idx → EReal)) := by
  funext a b; exact host_v7 (H.W0 m ρ c) a b
theorem V1_v9 : Spec.rd2 (H.V1 m ρ c main_v9 : S1024x2048.Idx → EReal) = (Spec.rd2T (m ((c : Thread nD τ).loc main_arg5) : S2048x1024.Idx → EReal)) := by
  funext a b; exact host_v9 (H.W0 m ρ c) a b
theorem V1_v11 : Spec.rd2 (H.V1 m ρ c main_v11 : S2048x1024.Idx → EReal) = (Spec.rd2T (m ((c : Thread nD τ).loc main_arg6) : S1024x2048.Idx → EReal)) := by
  funext a b; exact host_v11 (H.W0 m ρ c) a b

/-! ## What the second launch finds: the three projections, and what the first launch did not write -/

theorem V2_arg0 : H.V2 m ρ c main_arg0 = m ((c : Thread nD τ).loc main_arg0) := by
  show H.W2 m ρ c (Proc.devRef .tc (Pipeline.arrRef spec0 0)) = _
  rw [H.W2_arr, (H.dat0 (H.V1 m ρ) c).arrAt_in 0 rfl, H.A_eq0]
  exact V1_arg0 m ρ c

theorem V2_q : Spec.rd3 (H.V2 m ρ c main_v12_0 : S4x2048x1024.Idx → EReal) = (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg1) : S1024x1024.Idx → EReal)) Spec.c001) := by
  funext b t d
  show (H.W2 m ρ c (Proc.devRef .tc (Pipeline.arrRef spec0 5)) : S4x2048x1024.Idx → EReal) (ix3 b t d) = _
  rw [H.W2_arr, q_val, V1_arg0, V1_arg7, V1_v1]
theorem V2_k : Spec.rd3 (H.V2 m ρ c main_v12_1 : S4x2048x1024.Idx → EReal) = (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg2) : S1024x1024.Idx → EReal)) Spec.c001) := by
  funext b t d
  show (H.W2 m ρ c (Proc.devRef .tc (Pipeline.arrRef spec0 6)) : S4x2048x1024.Idx → EReal) (ix3 b t d) = _
  rw [H.W2_arr, k_val, V1_arg0, V1_arg7, V1_v3]
theorem V2_v : Spec.rd3 (H.V2 m ρ c main_v12_2 : S4x2048x1024.Idx → EReal) = (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg3) : S1024x1024.Idx → EReal)) Spec.c01) := by
  funext b t d
  show (H.W2 m ρ c (Proc.devRef .tc (Pipeline.arrRef spec0 7)) : S4x2048x1024.Idx → EReal) (ix3 b t d) = _
  rw [H.W2_arr, v_val, V1_arg0, V1_arg7, V1_v5]

theorem V2_v7 : Spec.rd2 (H.V2 m ρ c main_v7 : S1024x1024.Idx → EReal) = (Spec.rd2T (m ((c : Thread nD τ).loc main_arg4) : S1024x1024.Idx → EReal)) := by
  have e : H.V2 m ρ c main_v7 = H.V1 m ρ c main_v7 := H.W2_of_ne m ρ c main_v7 (by decide)
  rw [e, V1_v7]
theorem V2_arg8 : H.V2 m ρ c main_arg8 = m ((c : Thread nD τ).loc main_arg8) :=
  (H.W2_of_ne m ρ c main_arg8 (by decide)).trans (V1_arg8 m ρ c)
theorem V2_v9 : Spec.rd2 (H.V2 m ρ c main_v9 : S1024x2048.Idx → EReal) = (Spec.rd2T (m ((c : Thread nD τ).loc main_arg5) : S2048x1024.Idx → EReal)) := by
  have e : H.V2 m ρ c main_v9 = H.V1 m ρ c main_v9 := H.W2_of_ne m ρ c main_v9 (by decide)
  rw [e, V1_v9]
theorem V2_v11 : Spec.rd2 (H.V2 m ρ c main_v11 : S2048x1024.Idx → EReal) = (Spec.rd2T (m ((c : Thread nD τ).loc main_arg6) : S1024x2048.Idx → EReal)) := by
  have e : H.V2 m ρ c main_v11 = H.V1 m ρ c main_v11 := H.W2_of_ne m ρ c main_v11 (by decide)
  rw [e, V1_v11]

/-! ## What the third launch finds: the attention stage's rows, and what the second launch did not write -/

theorem V3_x2 : Spec.rd3 (H.V3 m ρ c main_v13 : S4x2048x1024.Idx → EReal)
    = Spec.attnStageAcc (Spec.rd3 (m ((c : Thread nD τ).loc main_arg0) : S4x2048x1024.Idx → EReal)) (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg1) : S1024x1024.Idx → EReal)) Spec.c001) (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg2) : S1024x1024.Idx → EReal)) Spec.c001) (Spec.proj (Spec.rd3 (m ((c : Thread nD τ).loc main_arg0) : S4x2048x1024.Idx → EReal)) (Spec.rd1 (m ((c : Thread nD τ).loc main_arg7) : S1024.Idx → EReal)) (Spec.rd2T (m ((c : Thread nD τ).loc main_arg3) : S1024x1024.Idx → EReal)) Spec.c01) (Spec.rd2T (m ((c : Thread nD τ).loc main_arg4) : S1024x1024.Idx → EReal)) := by
  funext b t cc
  show (H.W3 m ρ c (Proc.devRef .tc (Pipeline.arrRef spec1 5)) : S4x2048x1024.Idx → EReal) (ix3 b t cc) = _
  rw [H.W3_arr, x2_val, V2_arg0, V2_q, V2_k, V2_v, V2_v7]
theorem V3_arg8 : H.V3 m ρ c main_arg8 = m ((c : Thread nD τ).loc main_arg8) :=
  (H.W3_of_ne m ρ c main_arg8 (by decide)).trans (V2_arg8 m ρ c)
theorem V3_v9 : Spec.rd2 (H.V3 m ρ c main_v9 : S1024x2048.Idx → EReal) = (Spec.rd2T (m ((c : Thread nD τ).loc main_arg5) : S2048x1024.Idx → EReal)) := by
  have e : H.V3 m ρ c main_v9 = H.V2 m ρ c main_v9 := H.W3_of_ne m ρ c main_v9 (by decide)
  rw [e, V2_v9]
theorem V3_v11 : Spec.rd2 (H.V3 m ρ c main_v11 : S2048x1024.Idx → EReal) = (Spec.rd2T (m ((c : Thread nD τ).loc main_arg6) : S1024x2048.Idx → EReal)) := by
  have e : H.V3 m ρ c main_v11 = H.V2 m ρ c main_v11 := H.W3_of_ne m ρ c main_v11 (by decide)
  rw [e, V2_v11]

/-! ## The result array -/

/-- The kernels' result at an entry: the whole block of the arguments, the keys accumulated in four blocks, which
    is the block with the keys summed at once. -/
theorem kernel_val (b : Fin 4) (t : Fin 2048) (cc : Fin 1024) :
    (H.W4 m ρ c (Proc.devRef .tc main_v14) : S4x2048x1024.Idx → EReal) (ix3 b t cc)
      = Spec.block (Spec.rd3 (m ((c : Thread nD τ).loc main_arg0) : S4x2048x1024.Idx → EReal)) (Spec.rd1 (m ((c : Thread nD τ).loc main_arg7) : S1024.Idx → EReal)) (Spec.rd1 (m ((c : Thread nD τ).loc main_arg8) : S1024.Idx → EReal)) (Spec.rd2T (m ((c : Thread nD τ).loc main_arg1) : S1024x1024.Idx → EReal)) (Spec.rd2T (m ((c : Thread nD τ).loc main_arg2) : S1024x1024.Idx → EReal)) (Spec.rd2T (m ((c : Thread nD τ).loc main_arg3) : S1024x1024.Idx → EReal)) (Spec.rd2T (m ((c : Thread nD τ).loc main_arg4) : S1024x1024.Idx → EReal)) (Spec.rd2T (m ((c : Thread nD τ).loc main_arg5) : S2048x1024.Idx → EReal)) (Spec.rd2T (m ((c : Thread nD τ).loc main_arg6) : S1024x2048.Idx → EReal)) b t cc := by
  show (H.W4 m ρ c (Proc.devRef .tc (Pipeline.arrRef spec2 4)) : S4x2048x1024.Idx → EReal) (ix3 b t cc) = _
  rw [H.W4_arr, x3_val, V3_x2, V3_arg8, V3_v9, V3_v11, ← Spec.blockAcc_eq]
  rfl

/-- From memories that agree on the nine arguments both programs end with one result array: at every entry the
    reference's result and the kernels' are the block of `Spec` of the arguments. -/
theorem algebraic : Cert.algebraic_KernelIdeal_ReferenceIdeal := by
  intro m ρ m' ρ' _ hagree
  refine ⟨fun c => H.W4 m ρ c (Proc.devRef .tc main_v14), H.run_val (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v59_eq, h0, h1, h2, h3, h4, h5, h6, h7, h8]
  funext i
  obtain ⟨b, t, cc, rfl⟩ : ∃ (b : Fin 4) (t : Fin 2048) (cc : Fin 1024), i = ix3 b t cc := ⟨i 0, i 1, i 2, eq_ix3 i⟩
  exact (ref_val _ _ _ _ _ _ _ _ _ b t cc).trans (kernel_val m ρ c b t cc).symm

end Cert.Val

end
-- ==== Proof.lean ====
/-
  The certificate of one transformer block with polynomial activations, computed by three kernels (the q, k, v
  projections; attention accumulated over four blocks of keys; the MLP) against the plain reference.
  The frames: each kernel's body is run at a generic grid point over whole staging buffers, the attention kernel's
  running total carried in its scratch between points, and the three regions are chained over the buffer contents at
  their boundaries (written once for any float family, read at the word level and at the extended reals).
  The values, at the extended reals: each region's output array is one function of the arrays it reads, index by index;
  composed, the last array is the block with the key sum taken in four scaled parts, which is the reference's single
  scaled sum because a non-negative real factor distributes over sums of extended reals; no finiteness is used.
  The idealization rewrote nothing, so its conjunct is trivial.
-/
import proofs.«154601_j7679401525971_1_alg».proof.Defs
import proofs.«154601_j7679401525971_1_alg».proof.Proof.Gen.Kernel
import proofs.«154601_j7679401525971_1_alg».proof.Proof.Gen.KernelIdeal
import proofs.«154601_j7679401525971_1_alg».proof.Proof.Gen.ReferenceIdeal
import proofs.«154601_j7679401525971_1_alg».proof.Proof.Gen.Pre_finite_inputs
import proofs.«154601_j7679401525971_1_alg».proof.Proof.Gen.ReferenceIdeal.Run
import proofs.«154601_j7679401525971_1_alg».proof.Proof.K.Run
import proofs.«154601_j7679401525971_1_alg».proof.Proof.KI.Run
import proofs.«154601_j7679401525971_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.H.frame (F := Bits) m ρ

theorem frame_ki : Cert.frame_KernelIdeal := fun m ρ _ => Cert.KernelIdeal.H.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Val.algebraic⟩

end Cert.Proof

end
